-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S64 .f32) (main_arg7 : FVec F S64x32 .f32) (main_arg8 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x32 .f32) (main_arg8 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x64 : Shape := ⟨2, ![5000, 64]⟩
abbrev S5000x1 : Shape := ⟨2, ![5000, 1]⟩
abbrev S850000x64 : Shape := ⟨2, ![850000, 64]⟩
abbrev S1x64 : Shape := ⟨2, ![1, 64]⟩
abbrev S1x32 : Shape := ⟨2, ![1, 32]⟩

abbrev nBuf : Space → Nat
  | .hbm => 79
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S_, .i32⟩
  | .hbm, ⟨19, _⟩ => ⟨S850000, .i32⟩
  | .hbm, ⟨20, _⟩ => ⟨S850000, .i1⟩
  | .hbm, ⟨21, _⟩ => ⟨S_, .i32⟩
  | .hbm, ⟨22, _⟩ => ⟨S850000, .i32⟩
  | .hbm, ⟨23, _⟩ => ⟨S850000, .i32⟩
  | .hbm, ⟨24, _⟩ => ⟨S850000, .i32⟩
  | .hbm, ⟨25, _⟩ => ⟨S850000x1, .i32⟩
  | .hbm, ⟨26, _⟩ => ⟨S_, .f32⟩
  | .hbm, ⟨27, _⟩ => ⟨S850000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x64, .f32⟩
  | .hbm, ⟨32, _⟩ => ⟨S_, .f32⟩
  | .hbm, ⟨33, _⟩ => ⟨S50000x64, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000x64, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S_, .f32⟩
  | .hbm, ⟨55, _⟩ => ⟨S50000x64, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x64, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S50000x64, .f32⟩
  | .hbm, ⟨74, _⟩ => ⟨S50000x1, .i32⟩
  | .hbm, ⟨75, _⟩ => ⟨S1x64, .f32⟩
  | .hbm, ⟨76, _⟩ => ⟨S1x32, .f32⟩
  | .hbm, ⟨77, _⟩ => ⟨S64x32, .f32⟩
  | .hbm, ⟨78, _⟩ => ⟨S64x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x1, .i32⟩
  | .local _ .vmem, ⟨21, _⟩ => ⟨S5000x1, .i32⟩
  | .local _ .vmem, ⟨22, _⟩ => ⟨S64x32, .f32⟩
  | .local _ .vmem, ⟨23, _⟩ => ⟨S1x32, .f32⟩
  | .local _ .vmem, ⟨24, _⟩ => ⟨S64x32, .f32⟩
  | .local _ .vmem, ⟨25, _⟩ => ⟨S64x64, .f32⟩
  | .local _ .vmem, ⟨26, _⟩ => ⟨S64x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54_0 : Ref sig .tc := ⟨.hbm, 77, rfl⟩
abbrev main_v54_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem7_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_12 : BitVec 32 := 0#32
  let v28 : BitVec 1 := Scalar.cmpi .ne v27 c0_i32_12
  v28

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  shapeCasts_S64x64_S64x64 : S64x64.ShapeCasts S64x64
  iota_S5000x64_d1_w32 : S5000x64.Iotas .tc 32 [1]
  natLt_1_32 : 1 < 32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  scatter_S50000_S850000x1_S850000_n_0_0_1_wf : ScatterDims.WF S50000 S850000x1 S850000 [] [0] [0] 1
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S5000x64_S64x64_0_0_1_1_n_n_wf : DotDims.WF S5000x64 S5000x64 S64x64 [0] [0] [1] [1] [] []
  dot_S64x64_S64x32_S64x32_1_0_0_1_n_n_wf : DotDims.WF S64x64 S64x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .i32 = 32 ∨ (Rect.block (s := S50000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x32.size a ≤ S64x32.size a
  hwx2_6 : ∀ i : grid2.Coords, EltTy.bits .f32 = 32 ∨ (Rect.block (s := S64x32) S64x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54_0) S64x32.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54_1) S64x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S1x32 : Shape := ⟨2, ![1, 32]⟩

abbrev nBuf : Space → Nat
  | .hbm => 114
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S_, .i32⟩
  | .hbm, ⟨19, _⟩ => ⟨S850000, .i32⟩
  | .hbm, ⟨20, _⟩ => ⟨S850000, .i1⟩
  | .hbm, ⟨21, _⟩ => ⟨S_, .i32⟩
  | .hbm, ⟨22, _⟩ => ⟨S850000, .i32⟩
  | .hbm, ⟨23, _⟩ => ⟨S850000, .i32⟩
  | .hbm, ⟨24, _⟩ => ⟨S850000, .i32⟩
  | .hbm, ⟨25, _⟩ => ⟨S850000x1, .i32⟩
  | .hbm, ⟨26, _⟩ => ⟨S_, .f32⟩
  | .hbm, ⟨27, _⟩ => ⟨S850000, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x64, .f32⟩
  | .hbm, ⟨89, _⟩ => ⟨S850000x1, .f32⟩
  | .hbm, ⟨90, _⟩ => ⟨S850000x64, .f32⟩
  | .hbm, ⟨91, _⟩ => ⟨S850000x64, .f32⟩
  | .hbm, ⟨92, _⟩ => ⟨S_, .f32⟩
  | .hbm, ⟨93, _⟩ => ⟨S50000x64, .f32⟩
  | .hbm, ⟨94, _⟩ => ⟨S_, .i32⟩
  | .hbm, ⟨95, _⟩ => ⟨S850000, .i32⟩
  | .hbm, ⟨96, _⟩ => ⟨S850000, .i1⟩
  | .hbm, ⟨97, _⟩ => ⟨S_, .i32⟩
  | .hbm, ⟨98, _⟩ => ⟨S850000, .i32⟩
  | .hbm, ⟨99, _⟩ => ⟨S850000, .i32⟩
  | .hbm, ⟨100, _⟩ => ⟨S850000, .i32⟩
  | .hbm, ⟨101, _⟩ => ⟨S850000x1, .i32⟩
  | .hbm, ⟨102, _⟩ => ⟨S50000x64, .f32⟩
  | .hbm, ⟨103, _⟩ => ⟨S1x64, .f32⟩
  | .hbm, ⟨104, _⟩ => ⟨S50000x64, .f32⟩
  | .hbm, ⟨105, _⟩ => ⟨S50000x64, .f32⟩
  | .hbm, ⟨106, _⟩ => ⟨S_, .f32⟩
  | .hbm, ⟨107, _⟩ => ⟨S64x64, .f32⟩
  | .hbm, ⟨108, _⟩ => ⟨S50000x1, .i32⟩
  | .hbm, ⟨109, _⟩ => ⟨S64x64, .f32⟩
  | .hbm, ⟨110, _⟩ => ⟨S64x32, .f32⟩
  | .hbm, ⟨111, _⟩ => ⟨S1x32, .f32⟩
  | .hbm, ⟨112, _⟩ => ⟨S64x32, .f32⟩
  | .hbm, ⟨113, _⟩ => ⟨S64x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call0_cst : Ref sig .tc := ⟨.hbm, 76, rfl⟩
abbrev main_call0_v0 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64x64_S50000x1_S50000x64_1_0_0_1_wf : ScatterDims.WF S64x64 S50000x1 S50000x64 [1] [0] [0] 1
  dot_S64x64_S64x32_S64x32_1_0_0_1_n_n_wf : DotDims.WF S64x64 S64x32 S64x32 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf

class Facts : Prop extends Facts₀ where

variable [Facts]
-- ==== Proof.K.Region0.lean ====
/- The FRAME half of REGION 0 of @main: custom_call 0, `cc0__matmul_dinv_kernel` (pipeline 0), at a PARAMETER `V` —
   the TensorCore's buffer contents when the region is entered —, generic in the float instance. Each window's block at
   a point (`iblk0`), what the body leaves in the output window's buffer (`out0_3`: one store of the payload over the
   whole block), the body's triple (`sound_kernel0`), the proof data (`dat0`) and the body obligation
   (`body_obligation0`). The body reads the output buffer once before it overwrites all of it; what it reads there is
   used by nothing, so the output buffer may hold anything on entry. -/
import proofs.«421701_j11836929868487_3_alg».proof.Proof.Gen.Kernel.Launch
import proofs.«421701_j11836929868487_3_alg».proof.Proof.Gen.Kernel.Skeleton
import proofs.«421701_j11836929868487_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is settled coordinate by coordinate along the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of x) holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the one block of the weight matrix, brought in at the first point only) holds its block at every
    point: where it is not brought in, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the rows of the degree factor's column) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S5000x1 := Rect.unit (s := S5000x1) ![0, 0] S5000x1.size inb_S5000x1_S5000x1_0_0

/-! ## What the body leaves in the output window's buffer -/

/-- Window 3's staging buffer after the body, from the input windows' blocks: its one store, of the payload of the
    three loaded input blocks, over the whole buffer. -/
def out0_3 (x0 : Vec F S5000x64 .f32) (x1 : Vec F S64x64 .f32) (x2 : Vec F S5000x1 .f32) : Vec F S5000x64 .f32 :=
  View.canon [⟨r0_0, k0_pay1 (View.ld x0 r0_0) (View.ld x1 r0_1) (View.ld x2 r0_2)⟩]

/-- The one store tiles the buffer, so it covers it. -/
theorem cover0_3 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-! ## The body's triple -/

set_option maxHeartbeats 1000000 in
/-- The kernel body on whole staging memrefs, the inputs' at read contents `x0 x1 x2` and the output's at anything, runs
    to the continuation holding the inputs' as they were and the output's at `out0_3` of the inputs'. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_dinv_kernel i arg1 harg1 arg2 harg2 arg3 harg3 arg4 harg4) K := by
  simp only [cc0__matmul_dinv_kernel_eq_skeleton]; unfold cc0__matmul_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant: the core's other
    scoped buffers and its random-number register, each at some contents, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand
-- ==== Proof.K.Region1.lean ====
/- The FRAME half of region 1 of @main (custom_call 1, the kernel cc1__relu_matmul_dinv_kernel, pipeline cfg1),
   at a parameter V: the TensorCore's buffer contents when the region is entered, and at any float instance F.
   Each window's block at a point is read off its array; the body leaves every input block in place and the
   output block at the payload of the input blocks (the degree-factor block feeds two of its arguments). -/
import proofs.«421701_j11836929868487_3_alg».proof.Proof.Gen.Kernel.Launch
import proofs.«421701_j11836929868487_3_alg».proof.Proof.Gen.Kernel.Skeleton
import proofs.«421701_j11836929868487_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is V's
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1, the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (one block, fetched at the first point only: unfetched, its index has not moved), the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (one block, fetched at the first point only), the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

/-! ## What the body leaves in the output window's buffer -/

/-- Window 4's staging buffer after the body, from the input windows' blocks: its one store as a piece. The
    degree-factor block (window 1) is loaded twice and feeds the second and the fifth payload argument. -/
def out1_4 (x0 : Vec F S5000x64 .f32) (x1 : Vec F S5000x1 .f32) (x2 : Vec F S1x64 .f32) (x3 : Vec F S64x64 .f32) : Vec F S5000x64 .f32 :=
  View.canon [⟨r1_0, k1_pay1 (View.ld x0 r1_0) (View.ld x1 r1_1) (View.ld x2 r1_2) (View.ld x3 r1_3) (View.ld x1 r1_1)⟩]

/-- Its store tiles the buffer, so it covers it. -/
theorem cover1_4 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The kernel body on whole staging memrefs, the inputs' at read contents xW and the output's at anything, runs to
    the continuation holding the inputs' as they were and the output's at out1_4 of the inputs'. The load of the
    output buffer before the store reads whatever it holds; its value is unused. -/
theorem sound_kernel1 (c : Dev nD) (E : Set ℕ) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S5000x64 .f32) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__relu_matmul_dinv_kernel i arg1 harg1 arg2 harg2 arg3 harg3 arg4 harg4 arg5 harg5) K := by
  simp only [cc1__relu_matmul_dinv_kernel_eq_skeleton]; unfold cc1__relu_matmul_dinv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core c: the arrays as the region finds them (V); after the body at point t
    each input's buffer at its block and the output's at out1_4 of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so sound_kernel1 applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Region2Defs.lean ====
/-
  Region 2 (the pooling and final linear layer), the data its two halves share.

  The kernel keeps one 64 × 64 accumulator across the ten grid points: the first point resets it to zero and
  adds that point's contribution, every later point adds its own contribution to what the point before left,
  and the last point copies the accumulator out and applies the final linear layer to it. Here are: a window's
  block at a point, read off the array as the region finds it; the accumulator after each point, by recursion
  on the point; and the two outputs as the last point computes them.
-/
import proofs.«421701_j11836929868487_3_alg».proof.Proof.Gen.Kernel.Launch
import proofs.«421701_j11836929868487_3_alg».proof.Proof.Gen.Kernel.Skeleton
import proofs.«421701_j11836929868487_3_alg».proof.Proof.Gen.Kernel.Points

noncomputable section

namespace Cert.Kernel.Hand

open Idealize.ShloMosaic Idealize.ShloMosaic.TcCoe Idealize.SL.Sem
open Cert.Kernel Cert.Kernel.Gen

variable {F : FTy → Type} [FloatOps F]

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at position `n`: the first point adds its contribution to the zero it has just
    stored, a later point to what the point before left. -/
def acc2 (c : Dev nD) : (n : ℕ) → n < cfg2.N → Vec F S64x64 .f32
  | 0, hn => k2_pay2 (iblk2 V c 0 ⟨0, hn⟩) (iblk2 V c 1 ⟨0, hn⟩) (iblk2 V c 2 ⟨0, hn⟩) (iblk2 V c 3 ⟨0, hn⟩) (k2_pay1 (F := F))
  | n + 1, hn => k2_pay2 (iblk2 V c 0 ⟨n + 1, hn⟩) (iblk2 V c 1 ⟨n + 1, hn⟩) (iblk2 V c 2 ⟨n + 1, hn⟩) (iblk2 V c 3 ⟨n + 1, hn⟩)
      (acc2 c n (Nat.lt_of_succ_lt hn))

theorem acc2_zero (c : Dev nD) (hn : 0 < cfg2.N) :
    acc2 V c 0 hn = k2_pay2 (iblk2 V c 0 ⟨0, hn⟩) (iblk2 V c 1 ⟨0, hn⟩) (iblk2 V c 2 ⟨0, hn⟩) (iblk2 V c 3 ⟨0, hn⟩) (k2_pay1 (F := F)) := rfl

theorem acc2_succ (c : Dev nD) (n : ℕ) (hn : n + 1 < cfg2.N) :
    acc2 V c (n + 1) hn = k2_pay2 (iblk2 V c 0 ⟨n + 1, hn⟩) (iblk2 V c 1 ⟨n + 1, hn⟩) (iblk2 V c 2 ⟨n + 1, hn⟩) (iblk2 V c 3 ⟨n + 1, hn⟩)
      (acc2 V c n (Nat.lt_of_succ_lt hn)) := rfl

/-- The second output (the pooled sums) as point `t` would copy it out: the accumulator after that point. -/
def uOut2 (c : Dev nD) (t : Fin cfg2.N) : Vec F S64x64 .f32 := acc2 V c t.val t.isLt

/-- The first output as point `t` would compute it: the final linear layer of the accumulator after that point. -/
def yOut2 (c : Dev nD) (t : Fin cfg2.N) : Vec F S64x32 .f32 :=
  k2_pay3 (acc2 V c t.val t.isLt) (iblk2 V c 4 t) (iblk2 V c 5 t)

end Cert.Kernel.Hand

end
-- ==== Proof.K.Region2Runs.lean ====
/-
  Region 2 (the pooling and final linear layer): the kernel body's run in each of its three control cases.

  The body tests the grid coordinate twice. At the first point it resets the 64 × 64 accumulator to zero; at every
  point it loads the four row blocks and the accumulator and stores the accumulator plus this point's contribution;
  at the last point it copies the accumulator to the second output and stores the final linear layer of the
  accumulator (with the weight and bias blocks) to the first output. Every load and every store goes through the
  whole buffer, so a load reads the contents and a store leaves its payload; a load of the accumulator after a store
  in the same run reads what was stored.
-/
import proofs.«421701_j11836929868487_3_alg».proof.Proof.K.Region2Defs
import Idealize.ShloMosaic.Lib.Pipeline.FrameBody
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as a constant function. -/
theorem hz2 : (![0, 0] : Fin 2 → Nat) = fun _ => 0 := funext fun a => by fin_cases a <;> rfl

/-- Stores of which the last goes through the whole buffer cover it. -/
theorem cover_head2 {S : Shape} {e : EltTy} {off : Fin S.rank → Nat} (h : off = fun _ => 0) (inb : ∀ a, off a + S.size a ≤ S.size a)
    (w : (Rect.unit off S.size inb).shape.Idx → Elt F e) (L : List (View.Piece (Elt F) S e)) (y : S.Idx) :
    ∃ p ∈ ((⟨Rect.unit off S.size inb, w⟩ : View.Piece (Elt F) S e) :: L), y ∈ p.1.set :=
  ⟨_, List.mem_cons_self .., View.mem_set_unit_zero h inb y⟩

/-! ## The body's two conditions, over the grid -/

/-- The first condition: the grid coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The second condition: the grid coordinate is 9. -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-! ## The three runs -/

set_option maxHeartbeats 1000000 in
/-- The first point: the accumulator, whatever it held, is reset to zero and then holds zero plus this point's
    contribution; the four row blocks are left as they were. -/
theorem run2_A (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S64x64 .f32) (harg8 : arg8.IsWhole) (arg9 : Memref sig .tc .vmem S64x64 .f32) (harg9 : arg9.IsWhole)
    (hc0 : cond2_0 i) (hc1 : ¬cond2_1 i)
    (x0 : Vec F S5000x64 .f32) (x1 : Vec F S5000x1 .f32) (x2 : Vec F S1x64 .f32) (x3 : Vec F S5000x1 .i32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (k2_pay2 x0 x1 x2 x3 (k2_pay1 (F := F)))) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8 arg9 harg9) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (fun y => ?_)).trans ?_
  · exact cover_head2 hz2 _ _ _ y
  rw [View.canon_cons_unit_zero hz2]
  simp only [View.readAt_eq_ld, View.ld_unit_zero (S := S5000x64) hz2, View.ld_unit_zero (S := S5000x1) hz2, View.ld_unit_zero (S := S1x64) hz2, View.ld_unit_zero (S := S64x64) hz2, View.ld_unit_zero (S := S64x32) hz2, View.ld_unit_zero (S := S1x32) hz2, View.readCov_unit_zero (S := S64x64) _ hz2]

set_option maxHeartbeats 1000000 in
/-- A middle point: the accumulator holds what it held plus this point's contribution. -/
theorem run2_B (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S64x64 .f32) (harg8 : arg8.IsWhole) (arg9 : Memref sig .tc .vmem S64x64 .f32) (harg9 : arg9.IsWhole)
    (hc0 : ¬cond2_0 i) (hc1 : ¬cond2_1 i)
    (x0 : Vec F S5000x64 .f32) (x1 : Vec F S5000x1 .f32) (x2 : Vec F S1x64 .f32) (x3 : Vec F S5000x1 .i32) (s : Vec F S64x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (k2_pay2 x0 x1 x2 x3 s)) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8 arg9 harg9) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (fun y => ?_)).trans ?_
  · exact cover_head2 hz2 _ _ _ y
  rw [View.canon_cons_unit_zero hz2]
  simp only [View.readAt_eq_ld, View.ld_unit_zero (S := S5000x64) hz2, View.ld_unit_zero (S := S5000x1) hz2, View.ld_unit_zero (S := S1x64) hz2, View.ld_unit_zero (S := S64x64) hz2, View.ld_unit_zero (S := S64x32) hz2, View.ld_unit_zero (S := S1x32) hz2, View.readCov_unit_zero (S := S64x64) _ hz2]

set_option maxHeartbeats 2000000 in
/-- The last point: the accumulator holds what it held plus this point's contribution; the second output's buffer,
    whatever it held, holds that accumulator; the first output's buffer, whatever it held, holds the final linear
    layer of that accumulator with the weight and bias blocks. -/
theorem run2_C (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S64x64 .f32) (harg8 : arg8.IsWhole) (arg9 : Memref sig .tc .vmem S64x64 .f32) (harg9 : arg9.IsWhole)
    (hc0 : ¬cond2_0 i) (hc1 : cond2_1 i)
    (x0 : Vec F S5000x64 .f32) (x1 : Vec F S5000x1 .f32) (x2 : Vec F S1x64 .f32) (x3 : Vec F S5000x1 .i32)
    (x4 : Vec F S64x32 .f32) (x5 : Vec F S1x32 .f32) (s : Vec F S64x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay3 (k2_pay2 x0 x1 x2 x3 s) x4 x5) ∗ owns (c : Thread nD τ) arg8 fullShare (k2_pay2 x0 x1 x2 x3 s) ∗ owns (c : Thread nD τ) arg9 fullShare (k2_pay2 x0 x1 x2 x3 s)) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8 arg9 harg9) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  subst hf0 hf1 hf2 hf3 hf4 hf5 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    refine (View.read_writes_eq_canon _ _ _ (fun y => ?_)).trans ?_
    · exact cover_head2 hz2 _ _ _ y
    rw [View.canon_cons_unit_zero hz2]
    simp only [View.readAt_eq_ld, View.ld_unit_zero (S := S5000x64) hz2, View.ld_unit_zero (S := S5000x1) hz2, View.ld_unit_zero (S := S1x64) hz2, View.ld_unit_zero (S := S64x64) hz2, View.ld_unit_zero (S := S64x32) hz2, View.ld_unit_zero (S := S1x32) hz2, View.readCov_unit_zero (S := S64x64) _ hz2]
  isplitl [H7]
  · iexists _; isplitr
    swap; · iexact H7
    ipureintro
    sl_unfold_words
    refine (View.read_writes_eq_canon _ _ _ (fun y => ?_)).trans ?_
    · exact cover_head2 hz2 _ _ _ y
    rw [View.canon_cons_unit_zero hz2]
    simp only [View.readAt_eq_ld, View.ld_unit_zero (S := S5000x64) hz2, View.ld_unit_zero (S := S5000x1) hz2, View.ld_unit_zero (S := S1x64) hz2, View.ld_unit_zero (S := S64x64) hz2, View.ld_unit_zero (S := S64x32) hz2, View.ld_unit_zero (S := S1x32) hz2, View.readCov_unit_zero (S := S64x64) _ hz2]
  iexists _; isplitr
  swap; · iexact HS
  ipureintro
  sl_unfold_words
  refine (View.read_writes_eq_canon _ _ _ (fun y => ?_)).trans ?_
  · exact cover_head2 hz2 _ _ _ y
  rw [View.canon_cons_unit_zero hz2]
  simp only [View.readAt_eq_ld, View.ld_unit_zero (S := S5000x64) hz2, View.ld_unit_zero (S := S5000x1) hz2, View.ld_unit_zero (S := S1x64) hz2, View.ld_unit_zero (S := S64x64) hz2, View.ld_unit_zero (S := S64x32) hz2, View.ld_unit_zero (S := S1x32) hz2, View.readCov_unit_zero (S := S64x64) _ hz2]

end Cert.Kernel.Hand

end
-- ==== Proof.K.Region2.lean ====
/-
  Region 2 (the pooling and final linear layer), the frame half: the pipeline's proof data at a parameter V (the
  TensorCore's buffer contents when the region is entered), at any float instance.

  The kernel keeps one 64 × 64 accumulator in a scoped buffer across the ten grid points. The invariant between
  points says what that buffer holds: anything before the first point, the accumulator after point n - 1 before
  point n. Each of the six input windows holds its block at every point. The two outputs are stored only at the
  last point: the accumulator itself, and its final linear layer; at every other point their buffers pass through
  the body untouched and nothing is written back. Last, the two output arrays after the region are read off the
  proof data: one block each, written back once, at the last point.
-/
import proofs.«421701_j11836929868487_3_alg».proof.Proof.K.Region2Runs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The input windows' buffers hold their blocks -/

/-- An input window's current staging buffer holds its block at every point, fetched there or not (unfetched, its
    block index has not moved), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## Where the two outputs are idle -/

/-- Off the last point the body stores nothing into the first output's buffer, and the block is not written back; -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- at the last point it stores into it. -/
theorem liveAt2_6 : ∀ t : Fin cfg2.N, cond2_1 (grid2.coords t) → cfg2.idle 6 (grid2.coords t) = false := by decide +kernel
/-- The same for the second output. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-! ## The accumulator among the core's scoped buffers -/

/-- The accumulator's buffer, whole. -/
abbrev scM2 : Memref sig .tc .vmem S64x64 .f32 := Memref.whole cc2_scratch0

/-- The core's other scoped buffers that are no staging buffer of this region (the staging buffers of the two
    earlier regions), each at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- What the launch hands the region: those buffers and the accumulator's at some contents, and the generator
    register at some state. -/
theorem PhiA2_eq (c : Dev nD) :
    (Pipeline.ΦA spec2 c : sProp 𝕄)
      = iprop((others2 (F := F) c ∗ (∃ d, owns (c : Thread nD τ) scM2 fullShare d)) ∗ (∃ r, prngReg c r)) := by
  unfold Pipeline.ΦA; rw [scopedRest2_eq]; unfold others2; simp only [scM2, owns_whole]
  refine BI.equiv_iff.mp ⟨?_, ?_⟩
  · show (_ : sProp 𝕄) ⊢ _
    iintro ⟨⟨R0, R1, R2, R3, R4, R5, R6, R7, R8, R9, R10, R11, R12, R13, R14, HS⟩, Hg⟩
    isplitr [Hg]
    swap; · iexact Hg
    isplitr [HS]
    swap; · iexact HS
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14
  · show (_ : sProp 𝕄) ⊢ _
    iintro ⟨⟨⟨R0, R1, R2, R3, R4, R5, R6, R7, R8, R9, R10, R11, R12, R13, R14⟩, HS⟩, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact HS

/-! ## The accumulator at a point, by whether it is the first -/

theorem acc2_first (c : Dev nD) (t : Fin cfg2.N) (h0 : t.val = 0) :
    acc2 V c t.val t.isLt = k2_pay2 (iblk2 V c 0 t) (iblk2 V c 1 t) (iblk2 V c 2 t) (iblk2 V c 3 t) (k2_pay1 (F := F)) := by
  obtain ⟨n, hn⟩ := t
  cases n with
  | zero => rfl
  | succ n => exact absurd h0 (Nat.succ_ne_zero n)

theorem acc2_later (c : Dev nD) (t : Fin cfg2.N) (h0 : t.val ≠ 0) :
    acc2 V c t.val t.isLt = k2_pay2 (iblk2 V c 0 t) (iblk2 V c 1 t) (iblk2 V c 2 t) (iblk2 V c 3 t)
      (acc2 V c (t.val - 1) (Nat.lt_of_le_of_lt (Nat.sub_le _ _) t.isLt)) := by
  obtain ⟨n, hn⟩ := t
  cases n with
  | zero => exact absurd rfl h0
  | succ n => rfl

/-! ## The invariant -/

/-- Before position n: at the first point what the launch hands over; afterwards the same with the accumulator's
    buffer at the accumulator after the point before. -/
def PhiS2 (c : Dev nD) : (n : ℕ) → n ≤ cfg2.N → sProp 𝕄
  | 0, _ => Pipeline.ΦA spec2 c
  | n + 1, hn => iprop((others2 (F := F) c ∗ owns (c : Thread nD τ) scM2 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((others2 (F := F) c ∗ owns (c : Thread nD τ) scM2 fullShare (acc2 V c n hn)) ∗ (∃ r, prngReg c r)) := rfl

theorem PhiS2_pos (c : Dev nD) (n : ℕ) (h : n ≤ cfg2.N) (hz : n ≠ 0) :
    PhiS2 V c n h = iprop((others2 (F := F) c ∗ owns (c : Thread nD τ) scM2 fullShare (acc2 V c (n - 1) (by omega))) ∗ (∃ r, prngReg c r)) := by
  cases n with
  | zero => exact absurd rfl hz
  | succ n => rfl

/-! ## The pipeline's proof data -/

/-- The proof data of pipeline 2 on core c: the arrays as the region finds them; after the body at point t each
    input's buffer at its block, the first output's at the final linear layer of the accumulator after t and the
    second output's at that accumulator (off the last point, where the body stores into neither, nothing reads
    these two); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => yOut2 V c t
    | ⟨7, _⟩ => uOut2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = yOut2 V c t := by dsimp only [dat2]
theorem after2_7 (c : Dev nD) (t : Fin cfg2.N) : (dat2 V c).after 7 t = uOut2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ (dat2 V c).leavesExact 6 t
    ∗ (dat2 V c).leavesExact 7 t)

set_option maxHeartbeats 4000000 in
/-- The body at any point. The inputs' buffers hold their blocks. At the first point the invariant hands the body
    the accumulator's buffer at anything and takes it back at zero plus that point's contribution; at a later point
    it hands it at the accumulator after the point before and takes it back with this point's contribution added.
    Off the last point the two outputs' buffers pass through untouched; at the last point they are handed at anything
    and returned at the two outputs. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5]
  have hN : t.val < 10 := lt_of_lt_of_eq t.isLt (show cfg2.N = 10 from N_2)
  by_cases h0 : t.val = 0
  · have h1 : ¬t.val = 9 := by omega
    rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    rw [acc2_first V c t h0]
    rw [PhiS2_castSucc V c t, PhiS2_zero V c _ _ h0, PhiA2_eq]
    iintro ⟨⟨⟨HR, HS⟩, Hg⟩, Ho, ⟨%d0, H0⟩, ⟨%d1, H1⟩, ⟨%d2, H2⟩, ⟨%d3, H3⟩, ⟨%d4, H4⟩, ⟨%d5, H5⟩, H6, H7⟩
    iapply (run2_A c Set.univ (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [HS]; · iexact HS
    iintro ⟨H0, H1, H2, H3, HS⟩
    isplitl [HR HS Hg]
    · isplitr [Hg]
      swap; · iexact Hg
      isplitl [HR]; · iexact HR
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := h0
    by_cases h1 : t.val = 9
    · rw [show (dat2 V c).leavesExact 6 t = owns (c : Thread nD τ) (st2_6 t) fullShare ((dat2 V c).after 6 t) from by
        unfold Dat.leavesExact; rw [liveAt2_6 t ((hcond2_1 t).mpr h1)], after2_6]
      rw [show (dat2 V c).leavesExact 7 t = owns (c : Thread nD τ) (st2_7 t) fullShare ((dat2 V c).after 7 t) from by
        unfold Dat.leavesExact; rw [liveAt2_7 t ((hcond2_1 t).mpr h1)], after2_7]
      unfold yOut2 uOut2
      rw [acc2_later V c t hz]
      rw [PhiS2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_C c Set.univ (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [acc2_later V c t hz]
      rw [PhiS2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, H6, H7⟩
      iapply (run2_B c Set.univ (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives it back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS⟩, Hg⟩
  isplitr [Hg]
  swap; · iexact Hg
  isplitl [HR]; · iexact HR
  iexists _; iexact HS

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

/-! ## The two output arrays after the region -/

/-- The last point. -/
abbrev tLast2 : Fin cfg2.N := ⟨9, by decide⟩

/-- The one block of output window 7 sits at block index zero on both axes. -/
theorem idx2_7 : win2_7.index tLast2 (0 : Fin 2) = 0 ∧ win2_7.index tLast2 (1 : Fin 2) = 0 := by decide +kernel

/-- A point that writes output window 7 back is the last. -/
theorem eq_last_of_flush2_7 (t : Fin cfg2.N) (hf : (cfg2.win 7).flush t = true) : t = tLast2 := by
  have h := (flush2_7 t).mp hf
  have hN : t.val < 10 := lt_of_lt_of_eq t.isLt (show cfg2.N = 10 from N_2)
  exact Fin.ext (by show t.val = 9; omega)

/-- The array of output window 7 after the region: its one block, written back at the last point, covers it. -/
theorem final2_7 (c : Dev nD) : (dat2 V c).arrAt 7 cfg2.N = uOut2 V c ⟨9, by decide⟩ := by
  obtain ⟨e0, e1⟩ := idx2_7
  refine (dat2 V c).arrAt_eq_of_cover 7 (uOut2 V c tLast2) (fun t hf => ?_) (fun i => ⟨tLast2, (flush2_7 tLast2).mpr rfl, ?_⟩)
  · obtain rfl := eq_last_of_flush2_7 t hf
    show (cfg2.win 7).cut (grid2.coords tLast2) ((dat2 V c).after 7 tLast2) = _
    rw [after2_7]
    funext y
    show uOut2 V c tLast2 y = uOut2 V c tLast2 (((cfg2.win 7).blk tLast2).view.emb y)
    refine congrArg (uOut2 V c tLast2) ?_
    funext a; apply Fin.ext
    match a with
    | ⟨0, _⟩ => show (y 0).val = win2_7.index tLast2 (0 : Fin 2) * 64 + 1 * (y 0).val; omega
    | ⟨1, _⟩ => show (y 1).val = win2_7.index tLast2 (1 : Fin 2) * 64 + 1 * (y 1).val; omega
  · show i ∈ ((View.whole main_v54_1).slice (win2_7.rect tLast2)).set
    rw [View.set_slice_whole, Rect.mem_set_unit]
    intro a
    match a with
    | ⟨0, _⟩ => show win2_7.index tLast2 (0 : Fin 2) * 64 ≤ (i 0).val ∧ (i 0).val < win2_7.index tLast2 (0 : Fin 2) * 64 + 64; have hi : (i 0).val < 64 := (i 0).isLt; omega
    | ⟨1, _⟩ => show win2_7.index tLast2 (1 : Fin 2) * 64 ≤ (i 1).val ∧ (i 1).val < win2_7.index tLast2 (1 : Fin 2) * 64 + 64; have hi : (i 1).val < 64 := (i 1).isLt; omega

/-- The one block of output window 6 sits at block index zero on both axes. -/
theorem idx2_6 : win2_6.index tLast2 (0 : Fin 2) = 0 ∧ win2_6.index tLast2 (1 : Fin 2) = 0 := by decide +kernel

/-- A point that writes output window 6 back is the last. -/
theorem eq_last_of_flush2_6 (t : Fin cfg2.N) (hf : (cfg2.win 6).flush t = true) : t = tLast2 := by
  have h := (flush2_6 t).mp hf
  have hN : t.val < 10 := lt_of_lt_of_eq t.isLt (show cfg2.N = 10 from N_2)
  exact Fin.ext (by show t.val = 9; omega)

/-- The array of output window 6 after the region: its one block, written back at the last point, covers it. -/
theorem final2_6 (c : Dev nD) : (dat2 V c).arrAt 6 cfg2.N = yOut2 V c ⟨9, by decide⟩ := by
  obtain ⟨e0, e1⟩ := idx2_6
  refine (dat2 V c).arrAt_eq_of_cover 6 (yOut2 V c tLast2) (fun t hf => ?_) (fun i => ⟨tLast2, (flush2_6 tLast2).mpr rfl, ?_⟩)
  · obtain rfl := eq_last_of_flush2_6 t hf
    show (cfg2.win 6).cut (grid2.coords tLast2) ((dat2 V c).after 6 tLast2) = _
    rw [after2_6]
    funext y
    show yOut2 V c tLast2 y = yOut2 V c tLast2 (((cfg2.win 6).blk tLast2).view.emb y)
    refine congrArg (yOut2 V c tLast2) ?_
    funext a; apply Fin.ext
    match a with
    | ⟨0, _⟩ => show (y 0).val = win2_6.index tLast2 (0 : Fin 2) * 64 + 1 * (y 0).val; omega
    | ⟨1, _⟩ => show (y 1).val = win2_6.index tLast2 (1 : Fin 2) * 32 + 1 * (y 1).val; omega
  · show i ∈ ((View.whole main_v54_0).slice (win2_6.rect tLast2)).set
    rw [View.set_slice_whole, Rect.mem_set_unit]
    intro a
    match a with
    | ⟨0, _⟩ => show win2_6.index tLast2 (0 : Fin 2) * 64 ≤ (i 0).val ∧ (i 0).val < win2_6.index tLast2 (0 : Fin 2) * 64 + 64; have hi : (i 0).val < 64 := (i 0).isLt; omega
    | ⟨1, _⟩ => show win2_6.index tLast2 (1 : Fin 2) * 32 ≤ (i 1).val ∧ (i 1).val < win2_6.index tLast2 (1 : Fin 2) * 32 + 32; have hi : (i 1).val < 32 := (i 1).isLt; omega

end Region2

end Cert.Kernel.Hand

end
-- ==== Proof.K.Fold.lean ====
/- The FOLD of the buffers' contents through @main, boundary by boundary: three stretches of host operations and three
   kernel regions make six segments, hence seven boundaries `W0 … W6`. A host stretch takes the contents to
   `StableHlo.after` of its operations; a region leaves each of its arrays at what its pipeline's write-backs fold to and
   every other buffer as it found it. Read at the TensorCore's references the boundaries are `V1 … V6` (what each region's
   half is stated at). No host operation and no region writes an argument array (a region reads one through an input window or
   never touches it), so the fold read at an argument walks back to the launch memory: `W6_main_argK`. -/
import proofs.«421701_j11836929868487_3_alg».proof.Proof.Gen.Kernel.Launch
import proofs.«421701_j11836929868487_3_alg».proof.Proof.Gen.Kernel.Regions
import proofs.«421701_j11836929868487_3_alg».proof.Proof.K.Region0
import proofs.«421701_j11836929868487_3_alg».proof.Proof.K.Region1
import proofs.«421701_j11836929868487_3_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No host operation writes an argument (its reference is not among the stretch's written references) and no region does (the
argument is the array of one of its INPUT windows, which the pipeline leaves as entered, or is no array of it at all), so
the fold at an argument's buffer walks back, boundary by boundary, to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := (W4_arr m ρ c 3).trans (((dat1 (V3 m ρ) c).arrAt_in 3 rfl _).trans (A_eq1 (V3 m ρ) c 3))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := (W6_arr m ρ c 4).trans (((dat2 (V5 m ρ) c).arrAt_in 4 rfl _).trans (A_eq2 (V5 m ρ) c 4))
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

end Cert.Kernel.Hand

end
-- ==== Proof.K.Run.lean ====
/- THE RUN of @main: its six segments from the launch to the return — a host segment per stretch of host operations, entered
   from its boundary's contents, and a region segment per kernel region — over the thread state "every unscoped buffer at the
   boundary's contents, the generator register at some state, nothing owed". Each region's arrays are split out of the
   unscoped buffers at its entry and put back at its exit contents; the generator register and the scoped rest go into the
   region's invariant at its first point and come back at its last (regions 0 and 1 keep that invariant at every point;
   region 2's own invariant is entered from it and returns to it). The launch over the segments gives every unscoped buffer
   at the last boundary's contents `W6` (`run_all`), and each argument read there is as launched (`frame`). -/
import proofs.«421701_j11836929868487_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it ends at those
    references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues (the chain ends at it BESIDE the core owing nothing): every unscoped buffer at
    the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- the pinned configuration is the printed one only up to unfolding plain definitions
set_option backward.isDefEq.respectTransparency.types false in
/-- REGION 0 over the thread state: entered from every unscoped buffer at `W1`, left at `W2`. Its arrays split out of
    the unscoped buffers and put back at the exit contents; the generator register into the region's invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration is the printed one only up to unfolding plain definitions
set_option backward.isDefEq.respectTransparency.types false in
/-- REGION 1 over the thread state: entered from every unscoped buffer at `W3`, left at `W4`. Its arrays split out of
    the unscoped buffers and put back at the exit contents; the generator register into the region's invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration is the printed one only up to unfolding plain definitions
set_option backward.isDefEq.respectTransparency.types false in
/-- REGION 2 over the thread state: entered from every unscoped buffer at `W5`, left at `W6`. Its arrays split out of
    the unscoped buffers and put back at the exit contents; the generator register into the region's invariant and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    have h := hin2 (F := F) (V5 m ρ) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dat2 (V5 m ρ) c).Φ (Fin.last cfg2.N) from rfl]
    have h := hout2 (F := F) (V5 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: @main is the chain of its six items, the segments' run is the chain of their
    fragments, and the fragments are those items one by one. -/
theorem main_run (c : Dev nD) : main (F := F) c = Pipeline.Seg.run (segs m ρ) := by
  rw [main_chain c, Pipeline.Seg.run_eq_chain]; rfl

-- the pinned configuration is the printed one only up to unfolding plain definitions
set_option backward.isDefEq.respectTransparency.types false in
/-- THE RUN: at the compiled mesh, from any memory with zero counters, every weakly fair execution of @main on the
    TensorCores terminates, nothing faulting, and every final memory has every unscoped buffer of every core at the last
    boundary's contents `W6`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every argument array ends as launched — each argument's buffer is unscoped, so the run gives it at `W6`,
    and the fold read at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run_all m ρ)

end Cert.Kernel.Hand

end
-- ==== Proof.KI.Region0.lean ====
/- The FRAME half of REGION 0 of @main: custom_call 0, `cc0__matmul_dinv_kernel` (pipeline 0), at a PARAMETER `V` —
   the TensorCore's buffer contents when the region is entered —, generic in the float instance. Each window's block at
   a point (`iblk0`), what the body leaves in the output window's buffer (`out0_3`: one store of the payload over the
   whole block), the body's triple (`sound_kernel0`), the proof data (`dat0`) and the body obligation
   (`body_obligation0`). The body reads the output buffer once before it overwrites all of it; what it reads there is
   used by nothing, so the output buffer may hold anything on entry. -/
import proofs.«421701_j11836929868487_3_alg».proof.Proof.Gen.KernelIdeal.Launch
import proofs.«421701_j11836929868487_3_alg».proof.Proof.Gen.KernelIdeal.Skeleton
import proofs.«421701_j11836929868487_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is settled coordinate by coordinate along the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows of x) holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the one block of the weight matrix, brought in at the first point only) holds its block at every
    point: where it is not brought in, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the rows of the degree factor's column) holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S5000x1 := Rect.unit (s := S5000x1) ![0, 0] S5000x1.size inb_S5000x1_S5000x1_0_0

/-! ## What the body leaves in the output window's buffer -/

/-- Window 3's staging buffer after the body, from the input windows' blocks: its one store, of the payload of the
    three loaded input blocks, over the whole buffer. -/
def out0_3 (x0 : Vec F S5000x64 .f32) (x1 : Vec F S64x64 .f32) (x2 : Vec F S5000x1 .f32) : Vec F S5000x64 .f32 :=
  View.canon [⟨r0_0, k0_pay1 (View.ld x0 r0_0) (View.ld x1 r0_1) (View.ld x2 r0_2)⟩]

/-- The one store tiles the buffer, so it covers it. -/
theorem cover0_3 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-! ## The body's triple -/

set_option maxHeartbeats 1000000 in
/-- The kernel body on whole staging memrefs, the inputs' at read contents `x0 x1 x2` and the output's at anything, runs
    to the continuation holding the inputs' as they were and the output's at `out0_3` of the inputs'. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_dinv_kernel i arg1 harg1 arg2 harg2 arg3 harg3 arg4 harg4) K := by
  simp only [cc0__matmul_dinv_kernel_eq_skeleton]; unfold cc0__matmul_dinv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant: the core's other
    scoped buffers and its random-number register, each at some contents, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand
-- ==== Proof.KI.Region1.lean ====
/- The FRAME half of region 1 of @main (custom_call 1, the kernel cc1__relu_matmul_dinv_kernel, pipeline cfg1),
   at a parameter V: the TensorCore's buffer contents when the region is entered, and at any float instance F.
   Each window's block at a point is read off its array; the body leaves every input block in place and the
   output block at the payload of the input blocks (the degree-factor block feeds two of its arguments). -/
import proofs.«421701_j11836929868487_3_alg».proof.Proof.Gen.KernelIdeal.Launch
import proofs.«421701_j11836929868487_3_alg».proof.Proof.Gen.KernelIdeal.Skeleton
import proofs.«421701_j11836929868487_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is V's
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1, the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (one block, fetched at the first point only: unfetched, its index has not moved), the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (one block, fetched at the first point only), the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x64 := Rect.unit (s := S5000x64) ![0, 0] S5000x64.size inb_S5000x64_S5000x64_0_0
abbrev r1_1 : Rect S5000x1 := Rect.unit (s := S5000x1) ![0, 0] S5000x1.size inb_S5000x1_S5000x1_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

/-! ## What the body leaves in the output window's buffer -/

/-- Window 4's staging buffer after the body, from the input windows' blocks: its one store as a piece. The
    degree-factor block (window 1) is loaded twice and feeds the second and the fifth payload argument. -/
def out1_4 (x0 : Vec F S5000x64 .f32) (x1 : Vec F S5000x1 .f32) (x2 : Vec F S1x64 .f32) (x3 : Vec F S64x64 .f32) : Vec F S5000x64 .f32 :=
  View.canon [⟨r1_0, k1_pay1 (View.ld x0 r1_0) (View.ld x1 r1_1) (View.ld x2 r1_2) (View.ld x3 r1_3) (View.ld x1 r1_1)⟩]

/-- Its store tiles the buffer, so it covers it. -/
theorem cover1_4 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The kernel body on whole staging memrefs, the inputs' at read contents xW and the output's at anything, runs to
    the continuation holding the inputs' as they were and the output's at out1_4 of the inputs'. The load of the
    output buffer before the store reads whatever it holds; its value is unused. -/
theorem sound_kernel1 (c : Dev nD) (E : Set ℕ) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S5000x64 .f32) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__relu_matmul_dinv_kernel i arg1 harg1 arg2 harg2 arg3 harg3 arg4 harg4 arg5 harg5) K := by
  simp only [cc1__relu_matmul_dinv_kernel_eq_skeleton]; unfold cc1__relu_matmul_dinv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core c: the arrays as the region finds them (V); after the body at point t
    each input's buffer at its block and the output's at out1_4 of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so sound_kernel1 applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Region2Defs.lean ====
/-
  Region 2 (the pooling and final linear layer), the data its two halves share.

  The kernel keeps one 64 × 64 accumulator across the ten grid points: the first point resets it to zero and
  adds that point's contribution, every later point adds its own contribution to what the point before left,
  and the last point copies the accumulator out and applies the final linear layer to it. Here are: a window's
  block at a point, read off the array as the region finds it; the accumulator after each point, by recursion
  on the point; and the two outputs as the last point computes them.
-/
import proofs.«421701_j11836929868487_3_alg».proof.Proof.Gen.KernelIdeal.Launch
import proofs.«421701_j11836929868487_3_alg».proof.Proof.Gen.KernelIdeal.Skeleton
import proofs.«421701_j11836929868487_3_alg».proof.Proof.Gen.KernelIdeal.Points

noncomputable section

namespace Cert.KernelIdeal.Hand

open Idealize.ShloMosaic Idealize.ShloMosaic.TcCoe Idealize.SL.Sem
open Cert.KernelIdeal Cert.KernelIdeal.Gen

variable {F : FTy → Type} [FloatOps F]

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at position `n`: the first point adds its contribution to the zero it has just
    stored, a later point to what the point before left. -/
def acc2 (c : Dev nD) : (n : ℕ) → n < cfg2.N → Vec F S64x64 .f32
  | 0, hn => k2_pay2 (iblk2 V c 0 ⟨0, hn⟩) (iblk2 V c 1 ⟨0, hn⟩) (iblk2 V c 2 ⟨0, hn⟩) (iblk2 V c 3 ⟨0, hn⟩) (k2_pay1 (F := F))
  | n + 1, hn => k2_pay2 (iblk2 V c 0 ⟨n + 1, hn⟩) (iblk2 V c 1 ⟨n + 1, hn⟩) (iblk2 V c 2 ⟨n + 1, hn⟩) (iblk2 V c 3 ⟨n + 1, hn⟩)
      (acc2 c n (Nat.lt_of_succ_lt hn))

theorem acc2_zero (c : Dev nD) (hn : 0 < cfg2.N) :
    acc2 V c 0 hn = k2_pay2 (iblk2 V c 0 ⟨0, hn⟩) (iblk2 V c 1 ⟨0, hn⟩) (iblk2 V c 2 ⟨0, hn⟩) (iblk2 V c 3 ⟨0, hn⟩) (k2_pay1 (F := F)) := rfl

theorem acc2_succ (c : Dev nD) (n : ℕ) (hn : n + 1 < cfg2.N) :
    acc2 V c (n + 1) hn = k2_pay2 (iblk2 V c 0 ⟨n + 1, hn⟩) (iblk2 V c 1 ⟨n + 1, hn⟩) (iblk2 V c 2 ⟨n + 1, hn⟩) (iblk2 V c 3 ⟨n + 1, hn⟩)
      (acc2 V c n (Nat.lt_of_succ_lt hn)) := rfl

/-- The second output (the pooled sums) as point `t` would copy it out: the accumulator after that point. -/
def uOut2 (c : Dev nD) (t : Fin cfg2.N) : Vec F S64x64 .f32 := acc2 V c t.val t.isLt

/-- The first output as point `t` would compute it: the final linear layer of the accumulator after that point. -/
def yOut2 (c : Dev nD) (t : Fin cfg2.N) : Vec F S64x32 .f32 :=
  k2_pay3 (acc2 V c t.val t.isLt) (iblk2 V c 4 t) (iblk2 V c 5 t)

end Cert.KernelIdeal.Hand

end
-- ==== Proof.KI.Region2Runs.lean ====
/-
  Region 2 (the pooling and final linear layer): the kernel body's run in each of its three control cases.

  The body tests the grid coordinate twice. At the first point it resets the 64 × 64 accumulator to zero; at every
  point it loads the four row blocks and the accumulator and stores the accumulator plus this point's contribution;
  at the last point it copies the accumulator to the second output and stores the final linear layer of the
  accumulator (with the weight and bias blocks) to the first output. Every load and every store goes through the
  whole buffer, so a load reads the contents and a store leaves its payload; a load of the accumulator after a store
  in the same run reads what was stored.
-/
import proofs.«421701_j11836929868487_3_alg».proof.Proof.KI.Region2Defs
import Idealize.ShloMosaic.Lib.Pipeline.FrameBody
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as a constant function. -/
theorem hz2 : (![0, 0] : Fin 2 → Nat) = fun _ => 0 := funext fun a => by fin_cases a <;> rfl

/-- Stores of which the last goes through the whole buffer cover it. -/
theorem cover_head2 {S : Shape} {e : EltTy} {off : Fin S.rank → Nat} (h : off = fun _ => 0) (inb : ∀ a, off a + S.size a ≤ S.size a)
    (w : (Rect.unit off S.size inb).shape.Idx → Elt F e) (L : List (View.Piece (Elt F) S e)) (y : S.Idx) :
    ∃ p ∈ ((⟨Rect.unit off S.size inb, w⟩ : View.Piece (Elt F) S e) :: L), y ∈ p.1.set :=
  ⟨_, List.mem_cons_self .., View.mem_set_unit_zero h inb y⟩

/-! ## The body's two conditions, over the grid -/

/-- The first condition: the grid coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The second condition: the grid coordinate is 9. -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-! ## The three runs -/

set_option maxHeartbeats 1000000 in
/-- The first point: the accumulator, whatever it held, is reset to zero and then holds zero plus this point's
    contribution; the four row blocks are left as they were. -/
theorem run2_A (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S64x64 .f32) (harg8 : arg8.IsWhole) (arg9 : Memref sig .tc .vmem S64x64 .f32) (harg9 : arg9.IsWhole)
    (hc0 : cond2_0 i) (hc1 : ¬cond2_1 i)
    (x0 : Vec F S5000x64 .f32) (x1 : Vec F S5000x1 .f32) (x2 : Vec F S1x64 .f32) (x3 : Vec F S5000x1 .i32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (k2_pay2 x0 x1 x2 x3 (k2_pay1 (F := F)))) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8 arg9 harg9) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (fun y => ?_)).trans ?_
  · exact cover_head2 hz2 _ _ _ y
  rw [View.canon_cons_unit_zero hz2]
  simp only [View.readAt_eq_ld, View.ld_unit_zero (S := S5000x64) hz2, View.ld_unit_zero (S := S5000x1) hz2, View.ld_unit_zero (S := S1x64) hz2, View.ld_unit_zero (S := S64x64) hz2, View.ld_unit_zero (S := S64x32) hz2, View.ld_unit_zero (S := S1x32) hz2, View.readCov_unit_zero (S := S64x64) _ hz2]

set_option maxHeartbeats 1000000 in
/-- A middle point: the accumulator holds what it held plus this point's contribution. -/
theorem run2_B (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S64x64 .f32) (harg8 : arg8.IsWhole) (arg9 : Memref sig .tc .vmem S64x64 .f32) (harg9 : arg9.IsWhole)
    (hc0 : ¬cond2_0 i) (hc1 : ¬cond2_1 i)
    (x0 : Vec F S5000x64 .f32) (x1 : Vec F S5000x1 .f32) (x2 : Vec F S1x64 .f32) (x3 : Vec F S5000x1 .i32) (s : Vec F S64x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (k2_pay2 x0 x1 x2 x3 s)) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8 arg9 harg9) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  refine (View.read_writes_eq_canon _ _ _ (fun y => ?_)).trans ?_
  · exact cover_head2 hz2 _ _ _ y
  rw [View.canon_cons_unit_zero hz2]
  simp only [View.readAt_eq_ld, View.ld_unit_zero (S := S5000x64) hz2, View.ld_unit_zero (S := S5000x1) hz2, View.ld_unit_zero (S := S1x64) hz2, View.ld_unit_zero (S := S64x64) hz2, View.ld_unit_zero (S := S64x32) hz2, View.ld_unit_zero (S := S1x32) hz2, View.readCov_unit_zero (S := S64x64) _ hz2]

set_option maxHeartbeats 2000000 in
/-- The last point: the accumulator holds what it held plus this point's contribution; the second output's buffer,
    whatever it held, holds that accumulator; the first output's buffer, whatever it held, holds the final linear
    layer of that accumulator with the weight and bias blocks. -/
theorem run2_C (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S64x64 .f32) (harg8 : arg8.IsWhole) (arg9 : Memref sig .tc .vmem S64x64 .f32) (harg9 : arg9.IsWhole)
    (hc0 : ¬cond2_0 i) (hc1 : cond2_1 i)
    (x0 : Vec F S5000x64 .f32) (x1 : Vec F S5000x1 .f32) (x2 : Vec F S1x64 .f32) (x3 : Vec F S5000x1 .i32)
    (x4 : Vec F S64x32 .f32) (x5 : Vec F S1x32 .f32) (s : Vec F S64x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay3 (k2_pay2 x0 x1 x2 x3 s) x4 x5) ∗ owns (c : Thread nD τ) arg8 fullShare (k2_pay2 x0 x1 x2 x3 s) ∗ owns (c : Thread nD τ) arg9 fullShare (k2_pay2 x0 x1 x2 x3 s)) -∗ K ⟨⟩))
      ⊢ wp frame (wpE (defs₀ (F := F)) Variants.none c none) E (cc2__pool_linear_kernel i arg1 harg1 arg2 harg2 arg3 harg3 arg4 harg4 arg5 harg5 arg6 harg6 arg7 harg7 arg8 harg8 arg9 harg9) K := by
  simp only [cc2__pool_linear_kernel_eq_skeleton]; unfold cc2__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  subst hf0 hf1 hf2 hf3 hf4 hf5 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    refine (View.read_writes_eq_canon _ _ _ (fun y => ?_)).trans ?_
    · exact cover_head2 hz2 _ _ _ y
    rw [View.canon_cons_unit_zero hz2]
    simp only [View.readAt_eq_ld, View.ld_unit_zero (S := S5000x64) hz2, View.ld_unit_zero (S := S5000x1) hz2, View.ld_unit_zero (S := S1x64) hz2, View.ld_unit_zero (S := S64x64) hz2, View.ld_unit_zero (S := S64x32) hz2, View.ld_unit_zero (S := S1x32) hz2, View.readCov_unit_zero (S := S64x64) _ hz2]
  isplitl [H7]
  · iexists _; isplitr
    swap; · iexact H7
    ipureintro
    sl_unfold_words
    refine (View.read_writes_eq_canon _ _ _ (fun y => ?_)).trans ?_
    · exact cover_head2 hz2 _ _ _ y
    rw [View.canon_cons_unit_zero hz2]
    simp only [View.readAt_eq_ld, View.ld_unit_zero (S := S5000x64) hz2, View.ld_unit_zero (S := S5000x1) hz2, View.ld_unit_zero (S := S1x64) hz2, View.ld_unit_zero (S := S64x64) hz2, View.ld_unit_zero (S := S64x32) hz2, View.ld_unit_zero (S := S1x32) hz2, View.readCov_unit_zero (S := S64x64) _ hz2]
  iexists _; isplitr
  swap; · iexact HS
  ipureintro
  sl_unfold_words
  refine (View.read_writes_eq_canon _ _ _ (fun y => ?_)).trans ?_
  · exact cover_head2 hz2 _ _ _ y
  rw [View.canon_cons_unit_zero hz2]
  simp only [View.readAt_eq_ld, View.ld_unit_zero (S := S5000x64) hz2, View.ld_unit_zero (S := S5000x1) hz2, View.ld_unit_zero (S := S1x64) hz2, View.ld_unit_zero (S := S64x64) hz2, View.ld_unit_zero (S := S64x32) hz2, View.ld_unit_zero (S := S1x32) hz2, View.readCov_unit_zero (S := S64x64) _ hz2]

end Cert.KernelIdeal.Hand

end
-- ==== Proof.KI.Region2.lean ====
/-
  Region 2 (the pooling and final linear layer), the frame half: the pipeline's proof data at a parameter V (the
  TensorCore's buffer contents when the region is entered), at any float instance.

  The kernel keeps one 64 × 64 accumulator in a scoped buffer across the ten grid points. The invariant between
  points says what that buffer holds: anything before the first point, the accumulator after point n - 1 before
  point n. Each of the six input windows holds its block at every point. The two outputs are stored only at the
  last point: the accumulator itself, and its final linear layer; at every other point their buffers pass through
  the body untouched and nothing is written back. Last, the two output arrays after the region are read off the
  proof data: one block each, written back once, at the last point.
-/
import proofs.«421701_j11836929868487_3_alg».proof.Proof.KI.Region2Runs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The input windows' buffers hold their blocks -/

/-- An input window's current staging buffer holds its block at every point, fetched there or not (unfetched, its
    block index has not moved), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## Where the two outputs are idle -/

/-- Off the last point the body stores nothing into the first output's buffer, and the block is not written back; -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- at the last point it stores into it. -/
theorem liveAt2_6 : ∀ t : Fin cfg2.N, cond2_1 (grid2.coords t) → cfg2.idle 6 (grid2.coords t) = false := by decide +kernel
/-- The same for the second output. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-! ## The accumulator among the core's scoped buffers -/

/-- The accumulator's buffer, whole. -/
abbrev scM2 : Memref sig .tc .vmem S64x64 .f32 := Memref.whole cc2_scratch0

/-- The core's other scoped buffers that are no staging buffer of this region (the staging buffers of the two
    earlier regions), each at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- What the launch hands the region: those buffers and the accumulator's at some contents, and the generator
    register at some state. -/
theorem PhiA2_eq (c : Dev nD) :
    (Pipeline.ΦA spec2 c : sProp 𝕄)
      = iprop((others2 (F := F) c ∗ (∃ d, owns (c : Thread nD τ) scM2 fullShare d)) ∗ (∃ r, prngReg c r)) := by
  unfold Pipeline.ΦA; rw [scopedRest2_eq]; unfold others2; simp only [scM2, owns_whole]
  refine BI.equiv_iff.mp ⟨?_, ?_⟩
  · show (_ : sProp 𝕄) ⊢ _
    iintro ⟨⟨R0, R1, R2, R3, R4, R5, R6, R7, R8, R9, R10, R11, R12, R13, R14, HS⟩, Hg⟩
    isplitr [Hg]
    swap; · iexact Hg
    isplitr [HS]
    swap; · iexact HS
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14
  · show (_ : sProp 𝕄) ⊢ _
    iintro ⟨⟨⟨R0, R1, R2, R3, R4, R5, R6, R7, R8, R9, R10, R11, R12, R13, R14⟩, HS⟩, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact HS

/-! ## The accumulator at a point, by whether it is the first -/

theorem acc2_first (c : Dev nD) (t : Fin cfg2.N) (h0 : t.val = 0) :
    acc2 V c t.val t.isLt = k2_pay2 (iblk2 V c 0 t) (iblk2 V c 1 t) (iblk2 V c 2 t) (iblk2 V c 3 t) (k2_pay1 (F := F)) := by
  obtain ⟨n, hn⟩ := t
  cases n with
  | zero => rfl
  | succ n => exact absurd h0 (Nat.succ_ne_zero n)

theorem acc2_later (c : Dev nD) (t : Fin cfg2.N) (h0 : t.val ≠ 0) :
    acc2 V c t.val t.isLt = k2_pay2 (iblk2 V c 0 t) (iblk2 V c 1 t) (iblk2 V c 2 t) (iblk2 V c 3 t)
      (acc2 V c (t.val - 1) (Nat.lt_of_le_of_lt (Nat.sub_le _ _) t.isLt)) := by
  obtain ⟨n, hn⟩ := t
  cases n with
  | zero => exact absurd rfl h0
  | succ n => rfl

/-! ## The invariant -/

/-- Before position n: at the first point what the launch hands over; afterwards the same with the accumulator's
    buffer at the accumulator after the point before. -/
def PhiS2 (c : Dev nD) : (n : ℕ) → n ≤ cfg2.N → sProp 𝕄
  | 0, _ => Pipeline.ΦA spec2 c
  | n + 1, hn => iprop((others2 (F := F) c ∗ owns (c : Thread nD τ) scM2 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((others2 (F := F) c ∗ owns (c : Thread nD τ) scM2 fullShare (acc2 V c n hn)) ∗ (∃ r, prngReg c r)) := rfl

theorem PhiS2_pos (c : Dev nD) (n : ℕ) (h : n ≤ cfg2.N) (hz : n ≠ 0) :
    PhiS2 V c n h = iprop((others2 (F := F) c ∗ owns (c : Thread nD τ) scM2 fullShare (acc2 V c (n - 1) (by omega))) ∗ (∃ r, prngReg c r)) := by
  cases n with
  | zero => exact absurd rfl hz
  | succ n => rfl

/-! ## The pipeline's proof data -/

/-- The proof data of pipeline 2 on core c: the arrays as the region finds them; after the body at point t each
    input's buffer at its block, the first output's at the final linear layer of the accumulator after t and the
    second output's at that accumulator (off the last point, where the body stores into neither, nothing reads
    these two); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => yOut2 V c t
    | ⟨7, _⟩ => uOut2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = yOut2 V c t := by dsimp only [dat2]
theorem after2_7 (c : Dev nD) (t : Fin cfg2.N) : (dat2 V c).after 7 t = uOut2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ (dat2 V c).leavesExact 6 t
    ∗ (dat2 V c).leavesExact 7 t)

set_option maxHeartbeats 4000000 in
/-- The body at any point. The inputs' buffers hold their blocks. At the first point the invariant hands the body
    the accumulator's buffer at anything and takes it back at zero plus that point's contribution; at a later point
    it hands it at the accumulator after the point before and takes it back with this point's contribution added.
    Off the last point the two outputs' buffers pass through untouched; at the last point they are handed at anything
    and returned at the two outputs. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5]
  have hN : t.val < 10 := lt_of_lt_of_eq t.isLt (show cfg2.N = 10 from N_2)
  by_cases h0 : t.val = 0
  · have h1 : ¬t.val = 9 := by omega
    rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    rw [acc2_first V c t h0]
    rw [PhiS2_castSucc V c t, PhiS2_zero V c _ _ h0, PhiA2_eq]
    iintro ⟨⟨⟨HR, HS⟩, Hg⟩, Ho, ⟨%d0, H0⟩, ⟨%d1, H1⟩, ⟨%d2, H2⟩, ⟨%d3, H3⟩, ⟨%d4, H4⟩, ⟨%d5, H5⟩, H6, H7⟩
    iapply (run2_A c Set.univ (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [HS]; · iexact HS
    iintro ⟨H0, H1, H2, H3, HS⟩
    isplitl [HR HS Hg]
    · isplitr [Hg]
      swap; · iexact Hg
      isplitl [HR]; · iexact HR
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := h0
    by_cases h1 : t.val = 9
    · rw [show (dat2 V c).leavesExact 6 t = owns (c : Thread nD τ) (st2_6 t) fullShare ((dat2 V c).after 6 t) from by
        unfold Dat.leavesExact; rw [liveAt2_6 t ((hcond2_1 t).mpr h1)], after2_6]
      rw [show (dat2 V c).leavesExact 7 t = owns (c : Thread nD τ) (st2_7 t) fullShare ((dat2 V c).after 7 t) from by
        unfold Dat.leavesExact; rw [liveAt2_7 t ((hcond2_1 t).mpr h1)], after2_7]
      unfold yOut2 uOut2
      rw [acc2_later V c t hz]
      rw [PhiS2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_C c Set.univ (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [acc2_later V c t hz]
      rw [PhiS2_castSucc V c t, PhiS2_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, H6, H7⟩
      iapply (run2_B c Set.univ (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitr [Hg]
        swap; · iexact Hg
        isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives it back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS⟩, Hg⟩
  isplitr [Hg]
  swap; · iexact Hg
  isplitl [HR]; · iexact HR
  iexists _; iexact HS

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

/-! ## The two output arrays after the region -/

/-- The last point. -/
abbrev tLast2 : Fin cfg2.N := ⟨9, by decide⟩

/-- The one block of output window 7 sits at block index zero on both axes. -/
theorem idx2_7 : win2_7.index tLast2 (0 : Fin 2) = 0 ∧ win2_7.index tLast2 (1 : Fin 2) = 0 := by decide +kernel

/-- A point that writes output window 7 back is the last. -/
theorem eq_last_of_flush2_7 (t : Fin cfg2.N) (hf : (cfg2.win 7).flush t = true) : t = tLast2 := by
  have h := (flush2_7 t).mp hf
  have hN : t.val < 10 := lt_of_lt_of_eq t.isLt (show cfg2.N = 10 from N_2)
  exact Fin.ext (by show t.val = 9; omega)

/-- The array of output window 7 after the region: its one block, written back at the last point, covers it. -/
theorem final2_7 (c : Dev nD) : (dat2 V c).arrAt 7 cfg2.N = uOut2 V c ⟨9, by decide⟩ := by
  obtain ⟨e0, e1⟩ := idx2_7
  refine (dat2 V c).arrAt_eq_of_cover 7 (uOut2 V c tLast2) (fun t hf => ?_) (fun i => ⟨tLast2, (flush2_7 tLast2).mpr rfl, ?_⟩)
  · obtain rfl := eq_last_of_flush2_7 t hf
    show (cfg2.win 7).cut (grid2.coords tLast2) ((dat2 V c).after 7 tLast2) = _
    rw [after2_7]
    funext y
    show uOut2 V c tLast2 y = uOut2 V c tLast2 (((cfg2.win 7).blk tLast2).view.emb y)
    refine congrArg (uOut2 V c tLast2) ?_
    funext a; apply Fin.ext
    match a with
    | ⟨0, _⟩ => show (y 0).val = win2_7.index tLast2 (0 : Fin 2) * 64 + 1 * (y 0).val; omega
    | ⟨1, _⟩ => show (y 1).val = win2_7.index tLast2 (1 : Fin 2) * 64 + 1 * (y 1).val; omega
  · show i ∈ ((View.whole main_v54_1).slice (win2_7.rect tLast2)).set
    rw [View.set_slice_whole, Rect.mem_set_unit]
    intro a
    match a with
    | ⟨0, _⟩ => show win2_7.index tLast2 (0 : Fin 2) * 64 ≤ (i 0).val ∧ (i 0).val < win2_7.index tLast2 (0 : Fin 2) * 64 + 64; have hi : (i 0).val < 64 := (i 0).isLt; omega
    | ⟨1, _⟩ => show win2_7.index tLast2 (1 : Fin 2) * 64 ≤ (i 1).val ∧ (i 1).val < win2_7.index tLast2 (1 : Fin 2) * 64 + 64; have hi : (i 1).val < 64 := (i 1).isLt; omega

/-- The one block of output window 6 sits at block index zero on both axes. -/
theorem idx2_6 : win2_6.index tLast2 (0 : Fin 2) = 0 ∧ win2_6.index tLast2 (1 : Fin 2) = 0 := by decide +kernel

/-- A point that writes output window 6 back is the last. -/
theorem eq_last_of_flush2_6 (t : Fin cfg2.N) (hf : (cfg2.win 6).flush t = true) : t = tLast2 := by
  have h := (flush2_6 t).mp hf
  have hN : t.val < 10 := lt_of_lt_of_eq t.isLt (show cfg2.N = 10 from N_2)
  exact Fin.ext (by show t.val = 9; omega)

/-- The array of output window 6 after the region: its one block, written back at the last point, covers it. -/
theorem final2_6 (c : Dev nD) : (dat2 V c).arrAt 6 cfg2.N = yOut2 V c ⟨9, by decide⟩ := by
  obtain ⟨e0, e1⟩ := idx2_6
  refine (dat2 V c).arrAt_eq_of_cover 6 (yOut2 V c tLast2) (fun t hf => ?_) (fun i => ⟨tLast2, (flush2_6 tLast2).mpr rfl, ?_⟩)
  · obtain rfl := eq_last_of_flush2_6 t hf
    show (cfg2.win 6).cut (grid2.coords tLast2) ((dat2 V c).after 6 tLast2) = _
    rw [after2_6]
    funext y
    show yOut2 V c tLast2 y = yOut2 V c tLast2 (((cfg2.win 6).blk tLast2).view.emb y)
    refine congrArg (yOut2 V c tLast2) ?_
    funext a; apply Fin.ext
    match a with
    | ⟨0, _⟩ => show (y 0).val = win2_6.index tLast2 (0 : Fin 2) * 64 + 1 * (y 0).val; omega
    | ⟨1, _⟩ => show (y 1).val = win2_6.index tLast2 (1 : Fin 2) * 32 + 1 * (y 1).val; omega
  · show i ∈ ((View.whole main_v54_0).slice (win2_6.rect tLast2)).set
    rw [View.set_slice_whole, Rect.mem_set_unit]
    intro a
    match a with
    | ⟨0, _⟩ => show win2_6.index tLast2 (0 : Fin 2) * 64 ≤ (i 0).val ∧ (i 0).val < win2_6.index tLast2 (0 : Fin 2) * 64 + 64; have hi : (i 0).val < 64 := (i 0).isLt; omega
    | ⟨1, _⟩ => show win2_6.index tLast2 (1 : Fin 2) * 32 ≤ (i 1).val ∧ (i 1).val < win2_6.index tLast2 (1 : Fin 2) * 32 + 32; have hi : (i 1).val < 32 := (i 1).isLt; omega

end Region2

end Cert.KernelIdeal.Hand

end
-- ==== Proof.KI.Fold.lean ====
/- The FOLD of the buffers' contents through @main, boundary by boundary: three stretches of host operations and three
   kernel regions make six segments, hence seven boundaries `W0 … W6`. A host stretch takes the contents to
   `StableHlo.after` of its operations; a region leaves each of its arrays at what its pipeline's write-backs fold to and
   every other buffer as it found it. Read at the TensorCore's references the boundaries are `V1 … V6` (what each region's
   half is stated at). No host operation and no region writes an argument array (a region reads one through an input window or
   never touches it), so the fold read at an argument walks back to the launch memory: `W6_main_argK`. -/
import proofs.«421701_j11836929868487_3_alg».proof.Proof.Gen.KernelIdeal.Launch
import proofs.«421701_j11836929868487_3_alg».proof.Proof.Gen.KernelIdeal.Regions
import proofs.«421701_j11836929868487_3_alg».proof.Proof.KI.Region0
import proofs.«421701_j11836929868487_3_alg».proof.Proof.KI.Region1
import proofs.«421701_j11836929868487_3_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No host operation writes an argument (its reference is not among the stretch's written references) and no region does (the
argument is the array of one of its INPUT windows, which the pipeline leaves as entered, or is no array of it at all), so
the fold at an argument's buffer walks back, boundary by boundary, to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := (W4_arr m ρ c 3).trans (((dat1 (V3 m ρ) c).arrAt_in 3 rfl _).trans (A_eq1 (V3 m ρ) c 3))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := (W6_arr m ρ c 4).trans (((dat2 (V5 m ρ) c).arrAt_in 4 rfl _).trans (A_eq2 (V5 m ρ) c 4))
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

end Cert.KernelIdeal.Hand

end
-- ==== Proof.KI.Run.lean ====
/- THE RUN of @main: its six segments from the launch to the return — a host segment per stretch of host operations, entered
   from its boundary's contents, and a region segment per kernel region — over the thread state "every unscoped buffer at the
   boundary's contents, the generator register at some state, nothing owed". Each region's arrays are split out of the
   unscoped buffers at its entry and put back at its exit contents; the generator register and the scoped rest go into the
   region's invariant at its first point and come back at its last (regions 0 and 1 keep that invariant at every point;
   region 2's own invariant is entered from it and returns to it). The launch over the segments gives every unscoped buffer
   at the last boundary's contents `W6` (`run_all`), and each argument read there is as launched (`frame`). -/
import proofs.«421701_j11836929868487_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it ends at those
    references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues (the chain ends at it BESIDE the core owing nothing): every unscoped buffer at
    the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- the pinned configuration is the printed one only up to unfolding plain definitions
set_option backward.isDefEq.respectTransparency.types false in
/-- REGION 0 over the thread state: entered from every unscoped buffer at `W1`, left at `W2`. Its arrays split out of
    the unscoped buffers and put back at the exit contents; the generator register into the region's invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration is the printed one only up to unfolding plain definitions
set_option backward.isDefEq.respectTransparency.types false in
/-- REGION 1 over the thread state: entered from every unscoped buffer at `W3`, left at `W4`. Its arrays split out of
    the unscoped buffers and put back at the exit contents; the generator register into the region's invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration is the printed one only up to unfolding plain definitions
set_option backward.isDefEq.respectTransparency.types false in
/-- REGION 2 over the thread state: entered from every unscoped buffer at `W5`, left at `W6`. Its arrays split out of
    the unscoped buffers and put back at the exit contents; the generator register into the region's invariant and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    have h := hin2 (F := F) (V5 m ρ) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dat2 (V5 m ρ) c).Φ (Fin.last cfg2.N) from rfl]
    have h := hout2 (F := F) (V5 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: @main is the chain of its six items, the segments' run is the chain of their
    fragments, and the fragments are those items one by one. -/
theorem main_run (c : Dev nD) : main (F := F) c = Pipeline.Seg.run (segs m ρ) := by
  rw [main_chain c, Pipeline.Seg.run_eq_chain]; rfl

-- the pinned configuration is the printed one only up to unfolding plain definitions
set_option backward.isDefEq.respectTransparency.types false in
/-- THE RUN: at the compiled mesh, from any memory with zero counters, every weakly fair execution of @main on the
    TensorCores terminates, nothing faulting, and every final memory has every unscoped buffer of every core at the last
    boundary's contents `W6`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every argument array ends as launched — each argument's buffer is unscoped, so the run gives it at `W6`,
    and the fold read at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run_all m ρ)

end Cert.KernelIdeal.Hand

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.KI.Value0.lean ====
/- The VALUE half of REGION 0 at the ideal floats: what the region leaves in its output array is, row i and column c,
   (x · W1)[i, c] · dinv[i] — the product of the rows of x with the weight matrix, each row scaled by its degree factor.
   The payload read at an index; what each grid point writes back as a block of that one function of the arrays; the
   blocks cover the array (row r is in the block of point r / 5000); so the array ends holding the function. -/
import proofs.«421701_j11836929868487_3_alg».proof.Proof.KI.Region0
import proofs.«421701_j11836929868487_3_alg».proof.Proof.LibPlainDot
import Idealize.ShloMosaic.Lib.Pipeline.Value
import Idealize.ShloMosaic.Lib.ValueIdx
import Idealize.ShloMosaic.Lib.ValueIdxCoords

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The function the output array ends holding -/

/-- (x · W1)[i, c] · dinv[i]: row i of x against column c of the weight matrix, times row i's degree factor. -/
def hs1Of (x : FVec Ideal S50000x64 .f32) (w : FVec Ideal S64x64 .f32) (d : FVec Ideal S50000x1 .f32) : FVec Ideal S50000x64 .f32 :=
  fun j => (∑ k : Fin 64, x (ix2 (j 0 : Fin 50000) k) * w (ix2 k (j 1 : Fin 64))) * d (ix2 (j 0 : Fin 50000) (0 : Fin 1))

/-! ## The payload at an index -/

/-- The contraction pattern of the kernel's product is the plain one: rows × inner by inner × columns. -/
theorem dot0_eq : dot_S5000x64_S64x64_S5000x64_1_0_0_1_n_n = DotDims.plain 5000 64 64 := rfl

/-- A column of 5000 entries broadcast along 64 columns reads, at (p, q), the column's entry p. -/
theorem col_bcast {α : Type} (v : S5000x1.Idx → α) (h : S5000x1.Broadcasts S5000x64) (p : Fin 5000) (q : Fin 64) :
    broadcastTo S5000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The payload at (p, q): the sum over the inner coordinate of x0(p, k) · x1(k, q), times x2(p, 0). At the ideal
    floats the narrowing of the operands before the product is the identity. -/
theorem pay0_apply (x0 : Vec Ideal S5000x64 .f32) (x1 : Vec Ideal S64x64 .f32) (x2 : Vec Ideal S5000x1 .f32) (p : Fin 5000) (q : Fin 64) :
    k0_pay1 (F := Ideal) x0 x1 x2 (ix2 p q) = (∑ k : Fin 64, x0 (ix2 p k) * x1 (ix2 k q)) * x2 (ix2 p (0 : Fin 1)) := by
  unfold k0_pay1
  rw [mulf_apply, col_bcast, shapeCast_self, dot0_eq]
  refine congrArg (· * x2 (ix2 p (0 : Fin 1))) ?_
  exact Cert.LibPlainDot.matmul_zero_apply none _ _ (ix2 p q)

/-- Per point, over blocks of the literal shapes: if at (p, ·) the block x0 reads row i₀ of X, at (·, q) the block x1
    reads column i₁ of W, and at (p, 0) the block x2 reads row i₀ of D, the payload at (p, q) is the function at i. -/
theorem point_eq (X : FVec Ideal S50000x64 .f32) (W : FVec Ideal S64x64 .f32) (D : FVec Ideal S50000x1 .f32)
    (x0 : Vec Ideal S5000x64 .f32) (x1 : Vec Ideal S64x64 .f32) (x2 : Vec Ideal S5000x1 .f32)
    (i : S50000x64.Idx) (p : Fin 5000) (q : Fin 64)
    (h0 : ∀ k : Fin 64, x0 (ix2 p k) = X (ix2 (i 0 : Fin 50000) k))
    (h1 : ∀ k : Fin 64, x1 (ix2 k q) = W (ix2 k (i 1 : Fin 64)))
    (h2 : x2 (ix2 p (0 : Fin 1)) = D (ix2 (i 0 : Fin 50000) (0 : Fin 1))) :
    k0_pay1 (F := Ideal) x0 x1 x2 (ix2 p q) = hs1Of X W D i := by
  rw [pay0_apply]
  unfold hs1Of
  rw [h2]
  refine congrArg (· * D (ix2 (i 0 : Fin 50000) (0 : Fin 1))) ?_
  exact Finset.sum_congr rfl fun k _ => by rw [h0 k, h1 k]

/-! ## From blocks to the array -/

section Blocks
variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided over the grid: the rows of x and of the degree factor move with the output's
    rows; the weight matrix stays at its one block; no window moves along the columns. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) ≤ 9
    ∧ win0_3.index t (1 : Fin 2) = 0 :=
  (by decide +kernel : ∀ t : Fin grid0.N, _)

/-- Every block of rows is some point's. -/
theorem idx_onto0 : ∀ (q0 : Fin 10), ∃ t : Fin cfg0.N, win0_3.index t = ![q0.val, 0] :=
  (by decide +kernel : ∀ (q0 : Fin 10), ∃ t : Fin grid0.N, win0_3.index t = ![q0.val, 0])

/-- WHAT POINT t WRITES BACK is block t of the function of the arrays as the region finds them: an element of a block
    sits in its array, on each axis, at the block index times the block's extent plus its coordinate in the block. -/
theorem flushed0_eq (c : Dev nD) (t : Fin cfg0.N) :
    (dat0 (F := Ideal) V c).flushed 3 t
      = ((cfg0.win 3).blk t).view.read (Elt Ideal) (hs1Of (V c main_arg0) (V c main_arg3) (V c main_v17)) := by
  show (cfg0.win 3).cut (grid0.coords t) ((dat0 V c).after 3 t) = _
  rw [after0_3]
  unfold out0_3
  rw [View.canon_unit_zero zeros2]
  simp only [View.ld_unit_zero (S := S5000x64) zeros2, View.ld_unit_zero (S := S64x64) zeros2, View.ld_unit_zero (S := S5000x1) zeros2]
  obtain ⟨e0, e1, e2, e3, e4, e5, e6, e7⟩ := idx_facts0 t
  funext j
  refine (congrArg (k0_pay1 (F := Ideal) (iblk0 V c 0 t) (iblk0 V c 1 t) (iblk0 V c 2 t)) (eq_ix2 (n0 := 5000) (n1 := 64) j)).trans ?_
  refine point_eq (V c main_arg0) (V c main_arg3) (V c main_v17) (iblk0 V c 0 t) (iblk0 V c 1 t) (iblk0 V c 2 t)
    (((cfg0.win 3).blk t).view.emb j) (j 0) (j 1) (fun k => ?_) (fun k => ?_) ?_
  · show V c main_arg0 (((cfg0.win 0).blk t).view.emb (ix2 (j 0 : Fin 5000) k)) = _
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  · show V c main_arg3 (((cfg0.win 1).blk t).view.emb (ix2 k (j 1 : Fin 64))) = _
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  · show V c main_v17 (((cfg0.win 2).blk t).view.emb (ix2 (j 0 : Fin 5000) (0 : Fin 1))) = _
    refine congrArg (V c main_v17) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the array is in point t's block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v18).slice (win0_3.rect t)).set ↔ _
  rw [View.set_slice_whole, Rect.mem_set_unit]
  exact Iff.rfl

/-- THE COVER: row r of the array is in the block of point r / 5000, and every point writes back. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE ARRAY after the region: (x · W1)[i, c] · dinv[i] of the arrays as the region finds them. -/
theorem final0 (c : Dev nD) :
    (dat0 (F := Ideal) V c).arrAt 3 cfg0.N = hs1Of (V c main_arg0) (V c main_arg3) (V c main_v17) :=
  (dat0 V c).arrAt_eq_of_cover 3 (hs1Of (V c main_arg0) (V c main_arg3) (V c main_v17)) (fun t _ => flushed0_eq V c t) cover0

end Blocks

end Cert.KernelIdeal.Hand
-- ==== Proof.KI.Value1.lean ====
/- The VALUE half of region 1 of @main at the ideal instance: what pipeline 1 leaves in its output array, as one
   function of the four arrays it reads, index by index. With s the scattered sums, d the degree-factor column,
   b the bias row and w the square weight matrix, the output at (r, q) is
       (∑ k, max (s(r,k) · d(r,0) + b(0,k)) 0 · w(k,q)) · d(r,0),
   the zero being the kernel's own zero word read at the ideal instance. First the kernel's payload at an index of
   its block, then each point's write-back as a block of that function, then the cover of the array by the blocks. -/
import proofs.«421701_j11836929868487_3_alg».proof.Proof.KI.Region1
import proofs.«421701_j11836929868487_3_alg».proof.Proof.LibPlainDot
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## Layout and product facts -/

/-- A column broadcast over many columns reads, at (p, c), the operand's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The kernel's contraction pattern is the plain one: rows × inner by inner × columns. -/
theorem dot1_eq_plain : dot_S5000x64_S64x64_S5000x64_1_0_0_1_n_n = DotDims.plain 5000 64 64 := rfl

/-! ## The payload at an index -/

/-- The stored value at (p, q) of the block, from the loaded blocks: the rectified affine image of row p of the
    sums, contracted with column q of the weights, scaled by the row's degree factor. -/
theorem pay1_apply (x0 : FVec Ideal S5000x64 .f32) (x1 : FVec Ideal S5000x1 .f32) (x2 : FVec Ideal S1x64 .f32) (x3 : FVec Ideal S64x64 .f32)
    (p : Fin 5000) (q : Fin 64) :
    k1_pay1 (F := Ideal) x0 x1 x2 x3 x1 (ix2 p q)
      = (∑ k : Fin 64, max (x0 (ix2 p k) * x1 (ix2 p (0 : Fin 1)) + x2 (ix2 (0 : Fin 1) k)) (Ideal.ofBits .f32 0x00000000#32) * x3 (ix2 k q))
        * x1 (ix2 p (0 : Fin 1)) := by
  unfold k1_pay1
  simp only [shapeCast_self]
  rw [mulf_apply, dot1_eq_plain]
  rw [broadcastTo_a1_ab_apply]
  refine congrArg (· * x1 (ix2 p (0 : Fin 1))) ?_
  refine (Cert.LibPlainDot.matmul_zero_apply none _ _ (ix2 p q)).trans ?_
  refine Finset.sum_congr rfl fun k _ => ?_
  show max (x0 (ix2 p k) * broadcastTo S5000x64 x1 broadcasts_S5000x1_S5000x64 (ix2 p k)
        + broadcastTo S5000x64 x2 broadcasts_S1x64_S5000x64 (ix2 p k)) (Ideal.ofBits .f32 0x00000000#32) * x3 (ix2 k q) = _
  rw [broadcastTo_a1_ab_apply, broadcastTo_1b_ab_apply]

/-! ## The output array as one function of the arrays read -/

/-- What region 1 leaves in its output array: relu(s · d + b) · w · d, row by row. -/
def hs2Of (s : FVec Ideal S50000x64 .f32) (d : FVec Ideal S50000x1 .f32) (b : FVec Ideal S1x64 .f32) (w : FVec Ideal S64x64 .f32) :
    FVec Ideal S50000x64 .f32 :=
  fun j => (∑ k : Fin 64, max (s (ix2 (j 0) k) * d (ix2 (j 0) (0 : Fin 1)) + b (ix2 (0 : Fin 1) k)) (Ideal.ofBits .f32 0x00000000#32)
      * w (ix2 k (j 1))) * d (ix2 (j 0) (0 : Fin 1))

/-- The function at explicit coordinates. -/
theorem hs2Of_apply (s : FVec Ideal S50000x64 .f32) (d : FVec Ideal S50000x1 .f32) (b : FVec Ideal S1x64 .f32) (w : FVec Ideal S64x64 .f32)
    (r : Fin 50000) (q : Fin 64) :
    hs2Of s d b w (ix2 r q)
      = (∑ k : Fin 64, max (s (ix2 r k) * d (ix2 r (0 : Fin 1)) + b (ix2 (0 : Fin 1) k)) (Ideal.ofBits .f32 0x00000000#32) * w (ix2 k q))
        * d (ix2 r (0 : Fin 1)) := rfl

/-- The payload of blocks that are the arrays' rows at r (and the whole bias row and weight matrix) is the function at
    row r. -/
theorem block_apply (s : FVec Ideal S50000x64 .f32) (d : FVec Ideal S50000x1 .f32) (b : FVec Ideal S1x64 .f32) (w : FVec Ideal S64x64 .f32)
    (x0 : FVec Ideal S5000x64 .f32) (x1 : FVec Ideal S5000x1 .f32) (x2 : FVec Ideal S1x64 .f32) (x3 : FVec Ideal S64x64 .f32)
    (r : Fin 50000) (p : Fin 5000) (q : Fin 64)
    (h0 : ∀ k : Fin 64, x0 (ix2 p k) = s (ix2 r k))
    (h1 : x1 (ix2 p (0 : Fin 1)) = d (ix2 r (0 : Fin 1)))
    (h2 : ∀ k : Fin 64, x2 (ix2 (0 : Fin 1) k) = b (ix2 (0 : Fin 1) k))
    (h3 : ∀ k : Fin 64, x3 (ix2 k q) = w (ix2 k q)) :
    k1_pay1 (F := Ideal) x0 x1 x2 x3 x1 (ix2 p q) = hs2Of s d b w (ix2 r q) := by
  rw [pay1_apply, hs2Of_apply, h1]
  refine congrArg (· * d (ix2 r (0 : Fin 1))) ?_
  refine Finset.sum_congr rfl fun k _ => ?_
  rw [h0 k, h2 k, h3 k]

/-! ## From blocks to the array -/

section Array
variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the row-tiled windows sit at block row t, the one-block windows
    at block zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the function of the arrays as the region finds them. -/
theorem flushed1_eq (c : Dev nD) (t : Fin cfg1.N) :
    (dat1 (F := Ideal) V c).flushed 4 t
      = ((cfg1.win 4).blk t).view.read (Elt Ideal) (hs2Of (V c main_v33) (V c main_v17) (V c main_v34) (V c main_arg5)) := by
  show (cfg1.win 4).cut (grid1.coords t) ((dat1 V c).after 4 t) = _
  rw [after1_4]
  unfold out1_4
  rw [View.canon_unit_zero hz1]
  simp only [View.ld_unit_zero (S := S5000x64) hz1, View.ld_unit_zero (S := S5000x1) hz1, View.ld_unit_zero (S := S1x64) hz1,
    View.ld_unit_zero (S := S64x64) hz1]
  obtain ⟨e00, e01, e10, e11, e20, e21, e30, e31, e40, e41⟩ := idx_facts1 t
  have ht : t.val < 10 := lt_of_lt_of_eq t.isLt N_1
  funext j
  obtain ⟨p, q, rfl⟩ : ∃ (p : Fin 5000) (q : Fin 64), j = ix2 p q := ⟨j 0, j 1, eq_ix2 j⟩
  have hp : p.val < 5000 := p.isLt
  have hemb : ((cfg1.win 4).blk t).view.emb (ix2 p q) = ix2 (⟨t.val * 5000 + p.val, by omega⟩ : Fin 50000) q := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * q.val = q.val; omega
  show k1_pay1 (F := Ideal) (iblk1 V c 0 t) (iblk1 V c 1 t) (iblk1 V c 2 t) (iblk1 V c 3 t) (iblk1 V c 1 t) (ix2 p q)
    = hs2Of (V c main_v33) (V c main_v17) (V c main_v34) (V c main_arg5) (((cfg1.win 4).blk t).view.emb (ix2 p q))
  refine (block_apply (V c main_v33) (V c main_v17) (V c main_v34) (V c main_arg5) _ _ _ _
    (⟨t.val * 5000 + p.val, by omega⟩ : Fin 50000) p q (fun k => ?_) ?_ (fun k => ?_) (fun k => ?_)).trans
    (congrArg (hs2Of (V c main_v33) (V c main_v17) (V c main_v34) (V c main_arg5)) hemb.symm)
  · show V c main_v33 (((cfg1.win 0).blk t).view.emb (ix2 p k)) = V c main_v33 (ix2 (⟨t.val * 5000 + p.val, by omega⟩ : Fin 50000) k)
    refine congrArg (V c main_v33) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c main_v17 (((cfg1.win 1).blk t).view.emb (ix2 p (0 : Fin 1))) = V c main_v17 (ix2 (⟨t.val * 5000 + p.val, by omega⟩ : Fin 50000) (0 : Fin 1))
    refine congrArg (V c main_v17) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_v34 (((cfg1.win 2).blk t).view.emb (ix2 (0 : Fin 1) k)) = V c main_v34 (ix2 (0 : Fin 1) k)
    refine congrArg (V c main_v34) (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · show V c main_arg5 (((cfg1.win 3).blk t).view.emb (ix2 k q)) = V c main_arg5 (ix2 k q)
    refine congrArg (V c main_arg5) (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega

/-- An index of the array is in point t's block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v35).slice (win1_4.rect t)).set ↔ _
  rw [View.set_slice_whole, Rect.mem_set_unit]
  exact Iff.rfl

/-- Every index of the array is in some point's block: row r is in the block of point r / 5000. -/
theorem cover1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  let t : Fin cfg1.N := ⟨(i 0).val / 5000, lt_of_lt_of_eq (by omega : (i 0).val / 5000 < 10) N_1.symm⟩
  obtain ⟨e00, e01, e10, e11, e20, e21, e30, e31, e40, e41⟩ := idx_facts1 t
  have htv : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The output array after the region: the function of the arrays the region reads, everywhere. -/
theorem final1 (c : Dev nD) :
    (dat1 (F := Ideal) V c).arrAt 4 cfg1.N = hs2Of (V c main_v33) (V c main_v17) (V c main_v34) (V c main_arg5) :=
  (dat1 V c).arrAt_eq_of_cover 4 _ (fun t _ => flushed1_eq V c t) cover1

end Array

end Cert.KernelIdeal.Hand

end
-- ==== Proof.KI.Value2.lean ====
/-
  Region 2 (the pooling by graph and the final linear layer), its values at the exact reals.

  The 50000 node rows arrive 5000 at a time over the ten grid points. At a point the body scales each row's 64
  features by the row's factor and shifts them by a bias row, marks each row with the indicator of its graph word
  against the 64 graph numbers, and adds to a 64 × 64 accumulator the product of the indicators and the features
  contracted along the rows. Here: each payload read at an index; each window's block at a point read off its array;
  by induction on the point, the accumulator after position n as the sum of the contributions of the first
  5000 (n + 1) node rows; and so, after the last point, the accumulator as the pooled sums over all 50000 rows and the
  first output as the final linear layer of those sums. Addition of extended reals is commutative and associative,
  so the sums regroup freely; nothing here needs finiteness.
-/
import proofs.«421701_j11836929868487_3_alg».proof.Proof.KI.Region2Defs
import proofs.«421701_j11836929868487_3_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen

/-! ## Layout and word facts used by the payloads -/

/-- A column `[a, 1]` broadcast to `[a, b]` reads, at `(p, c)`, the column's entry at row `p`. -/
theorem colToBlock_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The indicator of equality of two words, as the kernel spells it: the comparison's bit widened to a word and
    converted to a float, is 1 where the words are equal and 0 elsewhere. -/
theorem indicator_word (w v : BitVec 32) :
    (FloatOps.sitofp (F := Ideal) .f32 ((IntOp.cmpi .eq w v).setWidth 32) : EReal) = if w = v then 1 else 0 := by
  show ((((BitVec.ofBool (w == v)).setWidth 32).toInt : ℝ) : EReal) = _
  by_cases h : w = v
  · have e : (w == v) = true := by simpa using h
    rw [e, if_pos h]
    show (((1 : ℤ) : ℝ) : EReal) = 1
    simp
  · have e : (w == v) = false := by simpa using h
    rw [e, if_neg h]
    show (((0 : ℤ) : ℝ) : EReal) = 0
    simp

/-! ## The pooling product: both operands contracted along their rows -/

/-- The pooling product contracts exactly one axis. -/
theorem poolDot_contr_rank : dot_S5000x64_S5000x64_S64x64_0_0_1_1_n_n.contr.rank = 1 := rfl

/-- That axis has the block's 5000 rows. -/
theorem poolDot_contr_size :
    dot_S5000x64_S5000x64_S64x64_0_0_1_1_n_n.contr.size ⟨0, by rw [poolDot_contr_rank]; exact Nat.one_pos⟩ = 5000 := rfl

/-- The bijection of the contraction's index type with the row number. -/
abbrev poolRow : dot_S5000x64_S5000x64_S64x64_0_0_1_1_n_n.contr.Idx ≃ Fin 5000 :=
  contrEquiv1 dot_S5000x64_S5000x64_S64x64_0_0_1_1_n_n 5000 poolDot_contr_rank poolDot_contr_size

/-- At output index (g, c) and row k the left operand is read at (k, g). -/
theorem poolDot_lhsIdx (g c : Fin 64) (k : Fin 5000) :
    dot_S5000x64_S5000x64_S64x64_0_0_1_1_n_n.lhsIdx (ix2 g c) (poolRow.symm k) = ix2 k g := by
  funext a
  match a with
  | ⟨0, _⟩ =>
    apply Fin.ext
    exact (dot_S5000x64_S5000x64_S64x64_0_0_1_1_n_n.lhsIdx_val_of_single (cl := 0) rfl (ix2 g c) (poolRow.symm k)).trans
      (contrEquiv1_symm_val dot_S5000x64_S5000x64_S64x64_0_0_1_1_n_n 5000 poolDot_contr_rank poolDot_contr_size k)
  | ⟨1, _⟩ => rfl

/-- At output index (g, c) and row k the right operand is read at (k, c). -/
theorem poolDot_rhsIdx (g c : Fin 64) (k : Fin 5000) :
    dot_S5000x64_S5000x64_S64x64_0_0_1_1_n_n.rhsIdx (ix2 g c) (poolRow.symm k) = ix2 k c := by
  funext a
  match a with
  | ⟨0, _⟩ =>
    apply Fin.ext
    exact (dot_S5000x64_S5000x64_S64x64_0_0_1_1_n_n.rhsIdx_val_of_single (cr := 0) rfl (ix2 g c) (poolRow.symm k)).trans
      (contrEquiv1_symm_val dot_S5000x64_S5000x64_S64x64_0_0_1_1_n_n 5000 poolDot_contr_rank poolDot_contr_size k)
  | ⟨1, _⟩ => rfl

/-- The pooling product into the zero accumulator, at an index: the sum over the block's rows. -/
theorem poolDot_apply (prec : Option ContractPrecision) (l r : FVec Ideal S5000x64 .f32) (g c : Fin 64) :
    FloatOps.matmul dot_S5000x64_S5000x64_S64x64_0_0_1_1_n_n prec l r (constant S64x64 .f32 0x00000000#32) (ix2 g c)
      = ∑ k : Fin 5000, l (ix2 k g) * r (ix2 k c) := by
  rw [Ideal.matmul_constant_zero_apply, ← Equiv.sum_comp poolRow.symm]
  exact Finset.sum_congr rfl fun k _ =>
    congrArg₂ (· * ·) (congrArg l (poolDot_lhsIdx g c k)) (congrArg r (poolDot_rhsIdx g c k))

/-! ## The payloads at an index -/

/-- The zero the first point stores, at any index. -/
theorem zeroBlock_apply (j : S64x64.Idx) : k2_pay1 (F := Ideal) j = 0 := by
  unfold k2_pay1
  rw [shapeCast_self]
  exact Ideal.ofBits_zero_f32

/-- A point's contribution added to the accumulator, at (g, c): the accumulator there plus, over the block's rows r,
    the indicator that row r's graph word is g times the row's scaled and shifted feature c. -/
theorem accStep_apply (x0 : Vec Ideal S5000x64 .f32) (x1 : Vec Ideal S5000x1 .f32) (x2 : Vec Ideal S1x64 .f32)
    (x3 : Vec Ideal S5000x1 .i32) (a : Vec Ideal S64x64 .f32) (g c : Fin 64) :
    k2_pay2 (F := Ideal) x0 x1 x2 x3 a (ix2 g c)
      = a (ix2 g c) + ∑ r : Fin 5000, (if x3 (ix2 r 0) = BitVec.ofNat 32 g.val then (1 : EReal) else 0)
          * (x0 (ix2 r c) * x1 (ix2 r 0) + x2 (ix2 0 c)) := by
  unfold k2_pay2
  simp only [shapeCast_self, matmul]
  rw [addf_apply, poolDot_apply]
  refine congrArg (a (ix2 g c) + ·) (Finset.sum_congr rfl fun r _ => ?_)
  rw [addf_apply, mulf_apply, colToBlock_apply, broadcastTo_1b_ab_apply]
  refine congrArg (· * (x0 (ix2 r c) * x1 (ix2 r 0) + x2 (ix2 0 c))) ?_
  show FloatOps.sitofp (F := Ideal) .f32 ((IntOp.cmpi .eq (broadcastTo S5000x64 x3 broadcasts_S5000x1_S5000x64 (ix2 r g))
      (iota .tc S5000x64 32 [1] iota_S5000x64_d1_w32 (ix2 r g))).setWidth 32) = _
  rw [colToBlock_apply, iota_single_apply, indicator_word]

/-- The final linear layer, at (g, o): the accumulator's row g against column o of the weights, plus the bias. -/
theorem linear_apply (u : Vec Ideal S64x64 .f32) (wf : Vec Ideal S64x32 .f32) (bfr : Vec Ideal S1x32 .f32)
    (g : Fin 64) (o : Fin 32) :
    k2_pay3 (F := Ideal) u wf bfr (ix2 g o) = (∑ k : Fin 64, u (ix2 g k) * wf (ix2 k o)) + bfr (ix2 0 o) := by
  unfold k2_pay3
  simp only [shapeCast_self, matmul]
  rw [addf_apply, broadcastTo_1b_ab_apply]
  refine congrArg (· + bfr (ix2 0 o)) ?_
  exact Cert.LibPlainDot.matmul_zero_apply (some .fp32) u wf (ix2 g o)

/-! ## The specification: the pooled sums and the final linear layer, index by index -/

/-- Node row i's contribution to the pooled sum at (g, c): the indicator that its graph word is g, times its feature c
    scaled by the row's factor and shifted by the bias. -/
def nodeTerm (s : FVec Ideal S50000x64 .f32) (d : FVec Ideal S50000x1 .f32) (b : FVec Ideal S1x64 .f32)
    (bt : IVec S50000x1 32) (g c : Fin 64) (i : Fin 50000) : EReal :=
  (if bt (ix2 i 0) = BitVec.ofNat 32 g.val then (1 : EReal) else 0) * (s (ix2 i c) * d (ix2 i 0) + b (ix2 0 c))

/-- The same on every natural number: zero past the last row. -/
def nodeTermN (s : FVec Ideal S50000x64 .f32) (d : FVec Ideal S50000x1 .f32) (b : FVec Ideal S1x64 .f32)
    (bt : IVec S50000x1 32) (g c : Fin 64) (i : ℕ) : EReal :=
  if h : i < 50000 then nodeTerm s d b bt g c ⟨i, h⟩ else 0

/-- The pooled sums: at (g, c), over all 50000 node rows, the rows of graph g summed after scaling and shifting. -/
def poolOf (s : FVec Ideal S50000x64 .f32) (d : FVec Ideal S50000x1 .f32) (b : FVec Ideal S1x64 .f32)
    (bt : IVec S50000x1 32) : FVec Ideal S64x64 .f32 :=
  fun j => ∑ i : Fin 50000, (if bt (ix2 i 0) = BitVec.ofNat 32 (j 0).val then (1 : EReal) else 0)
    * (s (ix2 i (j 1)) * d (ix2 i 0) + b (ix2 0 (j 1)))

/-- The final linear layer of a 64 × 64 matrix: its rows against the weights' columns, plus the bias row. -/
def yOf (u : FVec Ideal S64x64 .f32) (wf : FVec Ideal S64x32 .f32) (bfr : FVec Ideal S1x32 .f32) :
    FVec Ideal S64x32 .f32 :=
  fun j => (∑ k : Fin 64, u (ix2 (j 0) k) * wf (ix2 k (j 1))) + bfr (ix2 0 (j 1))

/-- The pooled sum at (g, c) is the sum of the rows' contributions, over the naturals below 50000. -/
theorem poolOf_apply (s : FVec Ideal S50000x64 .f32) (d : FVec Ideal S50000x1 .f32) (b : FVec Ideal S1x64 .f32)
    (bt : IVec S50000x1 32) (g c : Fin 64) :
    poolOf s d b bt (ix2 g c) = ∑ i ∈ Finset.range 50000, nodeTermN s d b bt g c i := by
  rw [Finset.sum_range]
  exact Finset.sum_congr rfl fun i _ => by
    unfold nodeTermN
    rw [dif_pos i.isLt]
    rfl

/-! ## The windows' blocks, read off their arrays -/

section Blocks
variable (V : (c : Dev nD) → (b : Ref sig .tc) → Buf (Elt Ideal) ((c : Thread nD τ).loc b))

/-- Where the windows sit at a point: the three row-tiled ones at block row t, block column 0; the three whole ones
    at block (0, 0). -/
theorem win_index : ∀ t : Fin cfg2.N,
    (win2_0.index t 0 = t.val ∧ win2_0.index t 1 = 0) ∧ (win2_1.index t 0 = t.val ∧ win2_1.index t 1 = 0)
      ∧ (win2_3.index t 0 = t.val ∧ win2_3.index t 1 = 0) ∧ (win2_2.index t 0 = 0 ∧ win2_2.index t 1 = 0)
      ∧ (win2_4.index t 0 = 0 ∧ win2_4.index t 1 = 0) ∧ (win2_5.index t 0 = 0 ∧ win2_5.index t 1 = 0) :=
  (by decide +kernel : ∀ t : Fin grid2.N, _)

/-- A row of a block at a point is a row of the array. -/
theorem row_lt (t : Fin cfg2.N) (r : Fin 5000) : 5000 * t.val + r.val < 50000 := by
  have := t.isLt; have := r.isLt; have : cfg2.N = 10 := rfl; omega

/-- Window 0's block at point t, at (r, q): the node features' row 5000 t + r. -/
theorem iblk2_0_apply (c : Dev nD) (t : Fin cfg2.N) (r : Fin 5000) (q : Fin 64) :
    (iblk2 V c 0 t : Vec Ideal S5000x64 .f32) (ix2 r q)
      = (V c main_v50 : FVec Ideal S50000x64 .f32) (ix2 ⟨5000 * t.val + r.val, row_lt t r⟩ q) := by
  unfold iblk2
  rw [View.read_apply]
  show V c main_v50 _ = V c main_v50 _
  congr 1
  funext a
  apply Fin.ext
  match a with
  | ⟨0, _⟩ => show win2_0.index t 0 * 5000 + 1 * r.val = 5000 * t.val + r.val; rw [(win_index t).1.1]; omega
  | ⟨1, _⟩ => show win2_0.index t 1 * 64 + 1 * q.val = q.val; rw [(win_index t).1.2]; omega

/-- Window 1's block at point t, at (r, 0): the row factors' row 5000 t + r. -/
theorem iblk2_1_apply (c : Dev nD) (t : Fin cfg2.N) (r : Fin 5000) :
    (iblk2 V c 1 t : Vec Ideal S5000x1 .f32) (ix2 r 0)
      = (V c main_v17 : FVec Ideal S50000x1 .f32) (ix2 ⟨5000 * t.val + r.val, row_lt t r⟩ 0) := by
  unfold iblk2
  rw [View.read_apply]
  show V c main_v17 _ = V c main_v17 _
  congr 1
  funext a
  apply Fin.ext
  match a with
  | ⟨0, _⟩ => show win2_1.index t 0 * 5000 + 1 * r.val = 5000 * t.val + r.val; rw [(win_index t).2.1.1]; omega
  | ⟨1, _⟩ => show win2_1.index t 1 * 1 + 1 * 0 = 0; rw [(win_index t).2.1.2]

/-- Window 3's block at point t, at (r, 0): the graph words' row 5000 t + r. -/
theorem iblk2_3_apply (c : Dev nD) (t : Fin cfg2.N) (r : Fin 5000) :
    (iblk2 V c 3 t : Vec Ideal S5000x1 .i32) (ix2 r 0)
      = (V c main_v51 : IVec S50000x1 32) (ix2 ⟨5000 * t.val + r.val, row_lt t r⟩ 0) := by
  unfold iblk2
  rw [View.read_apply]
  show V c main_v51 _ = V c main_v51 _
  congr 1
  funext a
  apply Fin.ext
  match a with
  | ⟨0, _⟩ => show win2_3.index t 0 * 5000 + 1 * r.val = 5000 * t.val + r.val; rw [(win_index t).2.2.1.1]; omega
  | ⟨1, _⟩ => show win2_3.index t 1 * 1 + 1 * 0 = 0; rw [(win_index t).2.2.1.2]

/-- Window 2's block at any point is the bias row itself. -/
theorem iblk2_2_apply (c : Dev nD) (t : Fin cfg2.N) (q : Fin 64) :
    (iblk2 V c 2 t : Vec Ideal S1x64 .f32) (ix2 0 q) = (V c main_v52 : FVec Ideal S1x64 .f32) (ix2 0 q) := by
  unfold iblk2
  rw [View.read_apply]
  show V c main_v52 _ = V c main_v52 _
  congr 1
  funext a
  apply Fin.ext
  match a with
  | ⟨0, _⟩ => show win2_2.index t 0 * 1 + 1 * 0 = 0; rw [(win_index t).2.2.2.1.1]
  | ⟨1, _⟩ => show win2_2.index t 1 * 64 + 1 * q.val = q.val; rw [(win_index t).2.2.2.1.2]; omega

/-- Window 4's block at any point is the weight matrix itself. -/
theorem iblk2_4_apply (c : Dev nD) (t : Fin cfg2.N) (k : Fin 64) (o : Fin 32) :
    (iblk2 V c 4 t : Vec Ideal S64x32 .f32) (ix2 k o) = (V c main_arg7 : FVec Ideal S64x32 .f32) (ix2 k o) := by
  unfold iblk2
  rw [View.read_apply]
  show V c main_arg7 _ = V c main_arg7 _
  congr 1
  funext a
  apply Fin.ext
  match a with
  | ⟨0, _⟩ => show win2_4.index t 0 * 64 + 1 * k.val = k.val; rw [(win_index t).2.2.2.2.1.1]; omega
  | ⟨1, _⟩ => show win2_4.index t 1 * 32 + 1 * o.val = o.val; rw [(win_index t).2.2.2.2.1.2]; omega

/-- Window 5's block at any point is the output bias row itself. -/
theorem iblk2_5_apply (c : Dev nD) (t : Fin cfg2.N) (o : Fin 32) :
    (iblk2 V c 5 t : Vec Ideal S1x32 .f32) (ix2 0 o) = (V c main_v53 : FVec Ideal S1x32 .f32) (ix2 0 o) := by
  unfold iblk2
  rw [View.read_apply]
  show V c main_v53 _ = V c main_v53 _
  congr 1
  funext a
  apply Fin.ext
  match a with
  | ⟨0, _⟩ => show win2_5.index t 0 * 1 + 1 * 0 = 0; rw [(win_index t).2.2.2.2.2.1]
  | ⟨1, _⟩ => show win2_5.index t 1 * 32 + 1 * o.val = o.val; rw [(win_index t).2.2.2.2.2.2]; omega

/-! ## The accumulator across the points -/

/-- One point's body at (g, q): what the accumulator held plus the contributions of the point's 5000 rows. -/
theorem point_apply (c : Dev nD) (t : Fin cfg2.N) (a : Vec Ideal S64x64 .f32) (g q : Fin 64) :
    k2_pay2 (F := Ideal) (iblk2 V c 0 t) (iblk2 V c 1 t) (iblk2 V c 2 t) (iblk2 V c 3 t) a (ix2 g q)
      = a (ix2 g q) + ∑ r : Fin 5000,
          nodeTermN (V c main_v50) (V c main_v17) (V c main_v52) (V c main_v51) g q (5000 * t.val + r.val) := by
  refine (accStep_apply (iblk2 V c 0 t) (iblk2 V c 1 t) (iblk2 V c 2 t) (iblk2 V c 3 t) a g q).trans ?_
  refine congrArg (a (ix2 g q) + ·) (Finset.sum_congr rfl fun r _ => ?_)
  rw [iblk2_0_apply V c t r q, iblk2_1_apply V c t r, iblk2_2_apply V c t q, iblk2_3_apply V c t r]
  unfold nodeTermN
  rw [dif_pos (row_lt t r)]
  rfl

/-- The accumulator after position n, at (g, q): the contributions of the first 5000 (n + 1) node rows. -/
theorem acc2_apply (c : Dev nD) (g q : Fin 64) : ∀ (n : ℕ) (hn : n < cfg2.N),
    acc2 V c n hn (ix2 g q)
      = ∑ i ∈ Finset.range (5000 * (n + 1)), nodeTermN (V c main_v50) (V c main_v17) (V c main_v52) (V c main_v51) g q i
  | 0, hn => by
    rw [acc2_zero, point_apply V c ⟨0, hn⟩ (k2_pay1 (F := Ideal)) g q, zeroBlock_apply, zero_add, Finset.sum_range]
    exact Finset.sum_congr rfl fun r _ => congrArg _ (by show 5000 * 0 + r.val = r.val; omega)
  | n + 1, hn => by
    rw [acc2_succ, point_apply V c ⟨n + 1, hn⟩ (acc2 V c n (Nat.lt_of_succ_lt hn)) g q, acc2_apply c g q n,
      show 5000 * (n + 1 + 1) = 5000 * (n + 1) + 5000 by omega, Finset.sum_range_add]
    exact congrArg (_ + ·) (Finset.sum_range fun x =>
      nodeTermN (V c main_v50) (V c main_v17) (V c main_v52) (V c main_v51) g q (5000 * (n + 1) + x)).symm

/-- After the last point the accumulator holds the pooled sums. -/
theorem uOut2_last (c : Dev nD) :
    uOut2 (F := Ideal) V c ⟨9, by decide⟩ = poolOf (V c main_v50) (V c main_v17) (V c main_v52) (V c main_v51) := by
  funext j
  obtain ⟨g, q, rfl⟩ : ∃ (g : Fin 64) (q : Fin 64), j = ix2 g q := ⟨j 0, j 1, eq_ix2 j⟩
  rw [poolOf_apply]
  exact acc2_apply V c g q 9 (by decide)

/-- And the first output is the final linear layer of the pooled sums. -/
theorem yOut2_last (c : Dev nD) :
    yOut2 (F := Ideal) V c ⟨9, by decide⟩
      = yOf (poolOf (V c main_v50) (V c main_v17) (V c main_v52) (V c main_v51)) (V c main_arg7) (V c main_v53) := by
  funext j
  obtain ⟨g, o, rfl⟩ : ∃ (g : Fin 64) (o : Fin 32), j = ix2 g o := ⟨j 0, j 1, eq_ix2 j⟩
  unfold yOut2
  refine (linear_apply (acc2 V c 9 (by decide)) (iblk2 V c 4 ⟨9, by decide⟩) (iblk2 V c 5 ⟨9, by decide⟩) g o).trans ?_
  rw [iblk2_5_apply V c ⟨9, by decide⟩ o]
  refine congrArg (· + (V c main_v53 : FVec Ideal S1x32 .f32) (ix2 0 o)) (Finset.sum_congr rfl fun k _ => ?_)
  rw [iblk2_4_apply V c ⟨9, by decide⟩ k o]
  exact congrArg (· * (V c main_arg7 : FVec Ideal S64x32 .f32) (ix2 k o)) (congrFun (uOut2_last V c) (ix2 g k))

end Blocks

end Cert.KernelIdeal.Hand

end
-- ==== Proof.Spec.lean ====
/-
  The two-layer graph convolution with sum pooling and a final linear layer, as ONE function of its inputs.

  Nodes i < 50000 carry 64 features; edges e < 850000 carry a source and a destination index (two columns of
  words, any values: a destination outside the node range lands nowhere, a source outside it reads the nearest
  node). With d the inverse square root of each node's in-degree, a layer maps per-node rows h to

      conv h = scatter-add over the edges, at the destination, of the source's row of (h W) · d,

  and the layer's output is conv · d + bias. The first layer is followed by a maximum with zero. The second
  layer's rows are summed per graph (node i belongs to graph bt i; a graph number outside 0 … 63 belongs to no
  graph) and the pooled 64 × 64 block goes through the final linear layer.

  Both programs are brought to this form; nothing here depends on a program: the scatter and gather patterns
  are parameters.
-/
import Idealize.ShloMosaic.PureOps.Ideal
import Idealize.ShloMosaic.Lib.ValueIdx

noncomputable section

open scoped BigOperators

namespace Cert.Spec

open Idealize.ShloMosaic Idealize.ShloMosaic.ValueIdx

abbrev SN : Shape := ⟨1, ![50000]⟩
abbrev SN64 : Shape := ⟨2, ![50000, 64]⟩
abbrev SE1 : Shape := ⟨2, ![850000, 1]⟩
abbrev SE64 : Shape := ⟨2, ![850000, 64]⟩
abbrev S64 : Shape := ⟨1, ![64]⟩
abbrev S32 : Shape := ⟨1, ![32]⟩
abbrev SG : Shape := ⟨2, ![64, 64]⟩
abbrev SGO : Shape := ⟨2, ![64, 32]⟩

variable (sc2 : ScatterDims SN64 SE1 SE64) (g2 : GatherDims SN64 SE1 SE64)

/-- The edge sums: at each destination node, the sum over its incoming edges of the source node's row of `hs`. -/
def convOf (Z : SN64.Idx → EReal) (D S : IVec SE1 32) (hs : SN64.Idx → EReal) : SN64.Idx → EReal :=
  Host.scatterAdd (F := Ideal) (φ := .f32) sc2 Z D (Host.gather g2 hs S)

/-- A node's projected row, scaled by the node's own degree factor. -/
def scaledRows (x : SN64.Idx → EReal) (w : SG.Idx → EReal) (d : SN.Idx → EReal) : SN64.Idx → EReal :=
  fun p => (∑ k : Fin 64, x (ix2 (p 0) k) * w (ix2 k (p 1))) * d (ix1 (p 0))

/-- A layer's output from its edge sums: scaled by the destination's degree factor, plus the bias. -/
def layerOut (s : SN64.Idx → EReal) (d : SN.Idx → EReal) (b : S64.Idx → EReal) : SN64.Idx → EReal :=
  fun p => s p * d (ix1 (p 0)) + b (ix1 (p 1))

/-- The pooled sums: graph g's row is the sum of the rows of the nodes that belong to it. -/
def pooled (z : SN64.Idx → EReal) (bt : SN.Idx → BitVec 32) : SG.Idx → EReal :=
  fun j => ∑ i : Fin 50000, (if bt (ix1 i) = BitVec.ofNat 32 (j 0).val then (1 : EReal) else 0) * z (ix2 i (j 1))

/-- The final linear layer. -/
def linearOut (u : SG.Idx → EReal) (wf : SGO.Idx → EReal) (bf : S32.Idx → EReal) : SGO.Idx → EReal :=
  fun j => (∑ k : Fin 64, u (ix2 (j 0) k) * wf (ix2 k (j 1))) + bf (ix1 (j 1))

/-- The pooled output of the whole network. -/
def netPooled (Z : SN64.Idx → EReal) (D S : IVec SE1 32) (d : SN.Idx → EReal) (bt : SN.Idx → BitVec 32)
    (x : SN64.Idx → EReal) (w1 : SG.Idx → EReal) (b1 : S64.Idx → EReal) (w2 : SG.Idx → EReal) (b2 : S64.Idx → EReal) :
    SG.Idx → EReal :=
  pooled (layerOut (convOf sc2 g2 Z D S
      (scaledRows (fun p => max (layerOut (convOf sc2 g2 Z D S (scaledRows x w1 d)) d b1 p) 0) w2 d)) d b2) bt

end Cert.Spec

end
-- ==== Proof.KI.Chain.lean ====
/-
  The kernel program's values, boundary by boundary, brought to the specification's form.

  Between the three kernel regions the host computes: the two columns of edge endpoints (a row of the edge array
  followed by the self loops 0 … 49999, negative entries wrapped once by the node count), the degree factor (the inverse
  square root of the scatter-added ones), and, before the second and the third region, the gather of the previous
  region's rows at the source column scatter-added at the destination column. Each of those buffers is read here as a
  term of the launch contents of the nine arguments, each region's output array by that region's value theorem, and the
  pooled result is then the specification's function of the arguments.
-/
import proofs.«421701_j11836929868487_3_alg».proof.Proof.KI.Fold
import proofs.«421701_j11836929868487_3_alg».proof.Proof.KI.Value0
import proofs.«421701_j11836929868487_3_alg».proof.Proof.KI.Value1
import proofs.«421701_j11836929868487_3_alg».proof.Proof.KI.Value2
import proofs.«421701_j11836929868487_3_alg».proof.Proof.Spec
import Idealize.ShloMosaic.Lib.StableHlo.Run
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem

/-! ## The host's terms -/

/-- The source endpoints: row 0 of the edge array, then the self loops. -/
def srcVec (a1 : IVec S2x800000 32) : IVec S850000 32 :=
  concatenate S850000 0 [⟨S800000, shapeCast S800000 (extractStridedSlice S1x800000 ![0, 0] a1 Facts₀.slices_S2x800000_S1x800000_0_0) Facts₀.shapeCasts_S1x800000_S800000⟩, ⟨S50000, iotaInDim S50000 32 0⟩] Facts₀.concatenates_S800000_S50000_S850000_d0

/-- The destination endpoints: row 1 of the edge array, then the self loops. -/
def dstVec (a1 : IVec S2x800000 32) : IVec S850000 32 :=
  concatenate S850000 0 [⟨S800000, shapeCast S800000 (extractStridedSlice S1x800000 ![1, 0] a1 Facts₀.slices_S2x800000_S1x800000_1_0) Facts₀.shapeCasts_S1x800000_S800000⟩, ⟨S50000, iotaInDim S50000 32 0⟩] Facts₀.concatenates_S800000_S50000_S850000_d0

/-- A vector of endpoints as a column of start indices, a negative entry wrapped once by the node count. -/
def colOf (v : IVec S850000 32) : IVec S850000x1 32 :=
  broadcastInDim S850000x1 ![0] Facts₀.bcast_S850000_S850000x1_0
    (select (cmpi .slt v (broadcastInDim S850000 ![] Facts₀.bcast_S_S850000 (constantI S_ 32 0#32)))
      (addi v (broadcastInDim S850000 ![] Facts₀.bcast_S_S850000 (constantI S_ 32 50000#32))) v)

/-- The zero rows every edge sum starts from. -/
def zeroRows : FVec Ideal S50000x64 .f32 :=
  broadcastInDim S50000x64 ![] Facts₀.bcast_S_S50000x64 (constant (F := Ideal) S_ .f32 0x00000000#32)

/-- The degree factor: the inverse square root of the number of edges that land on each node. -/
def degInv (a1 : IVec S2x800000 32) : FVec Ideal S50000 .f32 :=
  Host.rsqrt (F := Ideal) (Host.scatterAdd (F := Ideal) scatter_S50000_S850000x1_S850000_n_0_0_1
    (broadcastInDim S50000 ![] Facts₀.bcast_S_S50000 (constant (F := Ideal) S_ .f32 0x00000000#32))
    (colOf (dstVec a1))
    (broadcastInDim S850000 ![] Facts₀.bcast_S_S850000 (constant (F := Ideal) S_ .f32 0x3F800000#32)))

/-- The edge sums of per-node rows `hs`, as the host computes them between two regions. -/
def edgeSums (a1 : IVec S2x800000 32) (hs : FVec Ideal S50000x64 .f32) : FVec Ideal S50000x64 .f32 :=
  Host.scatterAdd (F := Ideal) scatter_S50000x64_S850000x1_S850000x64_1_0_0_1 zeroRows (colOf (dstVec a1))
    (Host.gather gather_S50000x64_S850000x1_S850000x64_1_0_n_n_0_1_164 hs (colOf (srcVec a1)))

theorem edgeSums_eq (a1 : IVec S2x800000 32) (hs : FVec Ideal S50000x64 .f32) :
    edgeSums a1 hs = Cert.Spec.convOf scatter_S50000x64_S850000x1_S850000x64_1_0_0_1 gather_S50000x64_S850000x1_S850000x64_1_0_n_n_0_1_164
      zeroRows (colOf (dstVec a1)) (colOf (srcVec a1)) hs := rfl

variable (m : (ℓ : Loc nD τ sig) → Buf (Elt Ideal) ℓ) (ρ : Dev nD → PrngReg)

/-! ## The first host stretch -/

theorem W1_v3 (c : Dev nD) : W1 m ρ c (Proc.devRef .tc main_v3) = srcVec (m ((c : Thread nD τ).loc main_arg1)) := by
  show StableHlo.after hostOps0 (W0 m ρ c) (Proc.devRef .tc main_v3) = _
  after_results; rfl

theorem W1_v6 (c : Dev nD) : W1 m ρ c (Proc.devRef .tc main_v6) = dstVec (m ((c : Thread nD τ).loc main_arg1)) := by
  show StableHlo.after hostOps0 (W0 m ρ c) (Proc.devRef .tc main_v6) = _
  after_results; rfl

set_option maxHeartbeats 8000000 in
theorem W1_v17 (c : Dev nD) : W1 m ρ c (Proc.devRef .tc main_v17)
    = shapeCast S50000x1 (degInv (m ((c : Thread nD τ).loc main_arg1))) Facts₀.shapeCasts_S50000_S50000x1 := by
  show StableHlo.after hostOps0 (W0 m ρ c) (Proc.devRef .tc main_v17) = _
  after_results; rfl

/-! ## The arguments as the host stretches and the regions find them

No host operation writes an argument and a region leaves its input windows' arrays as entered, so at every boundary an
argument's buffer holds its launch contents. -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_writes_sub hostOps0 _ hostOps0_writes (by decide)
    _ = m ((c : Thread nD τ).loc main_arg0) := rfl

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_writes_sub hostOps0 _ hostOps0_writes (by decide)
    _ = m ((c : Thread nD τ).loc main_arg3) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## Layout readings -/

/-- A vector kept as a column reads, at row `i`, the vector's entry `i`. -/
theorem col_read {α : Type} {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  Idealize.ShloMosaic.shapeCast_apply x h _ _ (by
    have hu : u.val = 0 := by omega
    rw [Shape.rowMajor_val_one, Shape.rowMajor_val_two]
    show i.val = i.val * 1 + u.val
    rw [hu, Nat.mul_one, Nat.add_zero])

/-! ## The degree factor and the edge columns at every boundary -/

theorem W2_v3 (c : Dev nD) : W2 m ρ c (Proc.devRef .tc main_v3) = srcVec (m ((c : Thread nD τ).loc main_arg1)) :=
  (W2_of_ne m ρ c main_v3 (by decide)).trans (W1_v3 m ρ c)
theorem W2_v6 (c : Dev nD) : W2 m ρ c (Proc.devRef .tc main_v6) = dstVec (m ((c : Thread nD τ).loc main_arg1)) :=
  (W2_of_ne m ρ c main_v6 (by decide)).trans (W1_v6 m ρ c)
theorem W4_v3 (c : Dev nD) : W4 m ρ c (Proc.devRef .tc main_v3) = srcVec (m ((c : Thread nD τ).loc main_arg1)) :=
  (W4_of_ne m ρ c main_v3 (by decide)).trans ((StableHlo.after_of_writes_sub hostOps1 _ hostOps1_writes (by decide)).trans (W2_v3 m ρ c))
theorem W4_v6 (c : Dev nD) : W4 m ρ c (Proc.devRef .tc main_v6) = dstVec (m ((c : Thread nD τ).loc main_arg1)) :=
  (W4_of_ne m ρ c main_v6 (by decide)).trans ((StableHlo.after_of_writes_sub hostOps1 _ hostOps1_writes (by decide)).trans (W2_v6 m ρ c))

/-- The degree factor as a column. -/
def degCol (a1 : IVec S2x800000 32) : FVec Ideal S50000x1 .f32 :=
  shapeCast S50000x1 (degInv a1) Facts₀.shapeCasts_S50000_S50000x1

theorem degCol_apply (a1 : IVec S2x800000 32) (i : Fin 50000) (u : Fin 1) : degCol a1 (ix2 i u) = degInv a1 (ix1 i) :=
  col_read _ _ i u

theorem W1_v17' (c : Dev nD) : W1 m ρ c (Proc.devRef .tc main_v17) = degCol (m ((c : Thread nD τ).loc main_arg1)) := W1_v17 m ρ c
theorem W3_v17 (c : Dev nD) : W3 m ρ c (Proc.devRef .tc main_v17) = degCol (m ((c : Thread nD τ).loc main_arg1)) :=
  (StableHlo.after_of_writes_sub hostOps1 _ hostOps1_writes (by decide)).trans
    (((W2_arr m ρ c 2).trans (((dat0 (V1 m ρ) c).arrAt_in 2 rfl _).trans (A_eq0 (V1 m ρ) c 2))).trans (W1_v17 m ρ c))
theorem W5_v17 (c : Dev nD) : W5 m ρ c (Proc.devRef .tc main_v17) = degCol (m ((c : Thread nD τ).loc main_arg1)) :=
  (StableHlo.after_of_writes_sub hostOps2 _ hostOps2_writes (by decide)).trans
    (((W4_arr m ρ c 1).trans (((dat1 (V3 m ρ) c).arrAt_in 1 rfl _).trans (A_eq1 (V3 m ρ) c 1))).trans (W3_v17 m ρ c))

/-! ## Region 0's rows, the second host stretch, region 1's rows, the third host stretch -/

/-- The first layer's scaled rows, as region 0 leaves them. -/
def rows1 (c : Dev nD) : FVec Ideal S50000x64 .f32 := hs1Of (m ((c : Thread nD τ).loc main_arg0)) (m ((c : Thread nD τ).loc main_arg3)) (degCol (m ((c : Thread nD τ).loc main_arg1)))

theorem W2_v18 (c : Dev nD) : W2 m ρ c (Proc.devRef .tc main_v18) = rows1 m c :=
  ((W2_arr m ρ c 3).trans (final0 (V1 m ρ) c)).trans
    (congr (congr (congrArg hs1Of (W1_arg0 m ρ c)) (W1_arg3 m ρ c)) (W1_v17 m ρ c))

set_option maxHeartbeats 8000000 in
theorem W3_v33_raw (c : Dev nD) : W3 m ρ c (Proc.devRef .tc main_v33)
    = Host.scatterAdd (F := Ideal) scatter_S50000x64_S850000x1_S850000x64_1_0_0_1 zeroRows (colOf (W2 m ρ c (Proc.devRef .tc main_v6)))
        (Host.gather gather_S50000x64_S850000x1_S850000x64_1_0_n_n_0_1_164 (W2 m ρ c (Proc.devRef .tc main_v18)) (colOf (W2 m ρ c (Proc.devRef .tc main_v3)))) := by
  show StableHlo.after hostOps1 (W2 m ρ c) (Proc.devRef .tc main_v33) = _
  after_results; rfl

theorem W3_v33 (c : Dev nD) : W3 m ρ c (Proc.devRef .tc main_v33) = edgeSums (m ((c : Thread nD τ).loc main_arg1)) (rows1 m c) := by
  rw [W3_v33_raw, W2_v6, W2_v3, W2_v18]; rfl

set_option maxHeartbeats 8000000 in
theorem W3_v34_raw (c : Dev nD) : W3 m ρ c (Proc.devRef .tc main_v34)
    = shapeCast S1x64 (W2 m ρ c (Proc.devRef .tc main_arg4)) Facts₀.shapeCasts_S64_S1x64 := by
  show StableHlo.after hostOps1 (W2 m ρ c) (Proc.devRef .tc main_v34) = _
  after_results; rfl

/-- A bias vector as a row. -/
def biasRow (b : FVec Ideal S64 .f32) : FVec Ideal S1x64 .f32 := shapeCast S1x64 b Facts₀.shapeCasts_S64_S1x64

theorem W3_v34 (c : Dev nD) : W3 m ρ c (Proc.devRef .tc main_v34) = biasRow (m ((c : Thread nD τ).loc main_arg4)) := by
  rw [W3_v34_raw, W2_arg4]; rfl

/-- The second layer's scaled rows, as region 1 leaves them. -/
def rows2 (c : Dev nD) : FVec Ideal S50000x64 .f32 :=
  hs2Of (edgeSums (m ((c : Thread nD τ).loc main_arg1)) (rows1 m c)) (degCol (m ((c : Thread nD τ).loc main_arg1))) (biasRow (m ((c : Thread nD τ).loc main_arg4))) (m ((c : Thread nD τ).loc main_arg5))

theorem W4_v35 (c : Dev nD) : W4 m ρ c (Proc.devRef .tc main_v35) = rows2 m c :=
  ((W4_arr m ρ c 4).trans (final1 (V3 m ρ) c)).trans
    (congr (congr (congr (congrArg hs2Of (W3_v33 m ρ c)) (W3_v17 m ρ c)) (W3_v34 m ρ c)) (W3_arg5 m ρ c))

set_option maxHeartbeats 8000000 in
theorem W5_v50_raw (c : Dev nD) : W5 m ρ c (Proc.devRef .tc main_v50)
    = Host.scatterAdd (F := Ideal) scatter_S50000x64_S850000x1_S850000x64_1_0_0_1 zeroRows (colOf (W4 m ρ c (Proc.devRef .tc main_v6)))
        (Host.gather gather_S50000x64_S850000x1_S850000x64_1_0_n_n_0_1_164 (W4 m ρ c (Proc.devRef .tc main_v35)) (colOf (W4 m ρ c (Proc.devRef .tc main_v3)))) := by
  show StableHlo.after hostOps2 (W4 m ρ c) (Proc.devRef .tc main_v50) = _
  after_results; rfl

theorem W5_v50 (c : Dev nD) : W5 m ρ c (Proc.devRef .tc main_v50) = edgeSums (m ((c : Thread nD τ).loc main_arg1)) (rows2 m c) := by
  rw [W5_v50_raw, W4_v6, W4_v3, W4_v35]; rfl

set_option maxHeartbeats 8000000 in
theorem W5_v51_raw (c : Dev nD) : W5 m ρ c (Proc.devRef .tc main_v51)
    = shapeCast S50000x1 (W4 m ρ c (Proc.devRef .tc main_arg2)) Facts₀.shapeCasts_S50000_S50000x1 := by
  show StableHlo.after hostOps2 (W4 m ρ c) (Proc.devRef .tc main_v51) = _
  after_results; rfl

set_option maxHeartbeats 8000000 in
theorem W5_v52_raw (c : Dev nD) : W5 m ρ c (Proc.devRef .tc main_v52)
    = shapeCast S1x64 (W4 m ρ c (Proc.devRef .tc main_arg6)) Facts₀.shapeCasts_S64_S1x64 := by
  show StableHlo.after hostOps2 (W4 m ρ c) (Proc.devRef .tc main_v52) = _
  after_results; rfl

set_option maxHeartbeats 8000000 in
theorem W5_v53_raw (c : Dev nD) : W5 m ρ c (Proc.devRef .tc main_v53)
    = shapeCast S1x32 (W4 m ρ c (Proc.devRef .tc main_arg8)) Facts₀.shapeCasts_S32_S1x32 := by
  show StableHlo.after hostOps2 (W4 m ρ c) (Proc.devRef .tc main_v53) = _
  after_results; rfl

/-- The graph numbers as a column. -/
def batchCol (b : IVec S50000 32) : IVec S50000x1 32 := shapeCast S50000x1 b Facts₀.shapeCasts_S50000_S50000x1
/-- The final bias as a row. -/
def outBiasRow (b : FVec Ideal S32 .f32) : FVec Ideal S1x32 .f32 := shapeCast S1x32 b Facts₀.shapeCasts_S32_S1x32

theorem W5_v51 (c : Dev nD) : W5 m ρ c (Proc.devRef .tc main_v51) = batchCol (m ((c : Thread nD τ).loc main_arg2)) := by
  rw [W5_v51_raw, W4_arg2]; rfl
theorem W5_v52 (c : Dev nD) : W5 m ρ c (Proc.devRef .tc main_v52) = biasRow (m ((c : Thread nD τ).loc main_arg6)) := by
  rw [W5_v52_raw, W4_arg6]; rfl
theorem W5_v53 (c : Dev nD) : W5 m ρ c (Proc.devRef .tc main_v53) = outBiasRow (m ((c : Thread nD τ).loc main_arg8)) := by
  rw [W5_v53_raw, W4_arg8]; rfl

/-! ## The specification's form

The regions' value theorems speak of the degree factor as a column, of a bias as a row and of the graph numbers as a
column; the specification of the vectors themselves. Each of the three closed forms is restated over the vectors, index by
index. -/

theorem biasRow_apply (b : FVec Ideal S64 .f32) (u : Fin 1) (q : Fin 64) : biasRow b (ix2 u q) = b (ix1 q) :=
  shapeCast_a_1a_apply b _ u q
theorem outBiasRow_apply (b : FVec Ideal S32 .f32) (u : Fin 1) (q : Fin 32) : outBiasRow b (ix2 u q) = b (ix1 q) :=
  shapeCast_a_1a_apply b _ u q
theorem batchCol_apply (b : IVec S50000 32) (i : Fin 50000) (u : Fin 1) : batchCol b (ix2 i u) = b (ix1 i) :=
  col_read _ _ i u

/-- Region 0's closed form over the degree factor as a vector. -/
theorem hs1Of_spec (x : FVec Ideal S50000x64 .f32) (w : FVec Ideal S64x64 .f32) (dv : FVec Ideal S50000 .f32)
    (DC : FVec Ideal S50000x1 .f32) (hDC : ∀ (i : Fin 50000) (u : Fin 1), DC (ix2 i u) = dv (ix1 i)) :
    hs1Of x w DC = Cert.Spec.scaledRows x w dv := by
  funext p
  obtain ⟨i, q, rfl⟩ : ∃ (i : Fin 50000) (q : Fin 64), p = ix2 i q := ⟨p 0, p 1, eq_ix2 p⟩
  show (∑ k : Fin 64, x (ix2 i k) * w (ix2 k q)) * DC (ix2 i (0 : Fin 1)) = (∑ k : Fin 64, x (ix2 i k) * w (ix2 k q)) * dv (ix1 i)
  rw [hDC]

/-- Region 1's closed form over the degree factor and the bias as vectors. -/
theorem hs2Of_spec (s : FVec Ideal S50000x64 .f32) (w : FVec Ideal S64x64 .f32) (dv : FVec Ideal S50000 .f32) (b : FVec Ideal S64 .f32)
    (DC : FVec Ideal S50000x1 .f32) (hDC : ∀ (i : Fin 50000) (u : Fin 1), DC (ix2 i u) = dv (ix1 i))
    (BR : FVec Ideal S1x64 .f32) (hBR : ∀ (u : Fin 1) (q : Fin 64), BR (ix2 u q) = b (ix1 q)) :
    hs2Of s DC BR w = Cert.Spec.scaledRows (fun p => max (Cert.Spec.layerOut s dv b p) 0) w dv := by
  funext p
  obtain ⟨i, q, rfl⟩ : ∃ (i : Fin 50000) (q : Fin 64), p = ix2 i q := ⟨p 0, p 1, eq_ix2 p⟩
  show (∑ k : Fin 64, max (s (ix2 i k) * DC (ix2 i (0 : Fin 1)) + BR (ix2 (0 : Fin 1) k)) (Ideal.ofBits .f32 0x00000000#32) * w (ix2 k q)) * DC (ix2 i (0 : Fin 1))
    = (∑ k : Fin 64, max (s (ix2 i k) * dv (ix1 i) + b (ix1 k)) 0 * w (ix2 k q)) * dv (ix1 i)
  rw [hDC, Ideal.ofBits_zero_f32]
  refine congrArg (· * dv (ix1 i)) (Finset.sum_congr rfl fun k _ => ?_)
  rw [hBR]

/-- Region 2's pooled sums over the degree factor, the bias and the graph numbers as vectors. -/
theorem poolOf_spec (s : FVec Ideal S50000x64 .f32) (dv : FVec Ideal S50000 .f32) (b : FVec Ideal S64 .f32) (bt : IVec S50000 32)
    (DC : FVec Ideal S50000x1 .f32) (hDC : ∀ (i : Fin 50000) (u : Fin 1), DC (ix2 i u) = dv (ix1 i))
    (BR : FVec Ideal S1x64 .f32) (hBR : ∀ (u : Fin 1) (q : Fin 64), BR (ix2 u q) = b (ix1 q))
    (BT : IVec S50000x1 32) (hBT : ∀ (i : Fin 50000) (u : Fin 1), BT (ix2 i u) = bt (ix1 i)) :
    poolOf s DC BR BT = Cert.Spec.pooled (Cert.Spec.layerOut s dv b) bt := by
  funext j
  obtain ⟨g, q, rfl⟩ : ∃ (g q : Fin 64), j = ix2 g q := ⟨j 0, j 1, eq_ix2 j⟩
  show (∑ i : Fin 50000, (if BT (ix2 i (0 : Fin 1)) = BitVec.ofNat 32 g.val then (1 : EReal) else 0) * (s (ix2 i q) * DC (ix2 i (0 : Fin 1)) + BR (ix2 (0 : Fin 1) q)))
    = ∑ i : Fin 50000, (if bt (ix1 i) = BitVec.ofNat 32 g.val then (1 : EReal) else 0) * (s (ix2 i q) * dv (ix1 i) + b (ix1 q))
  refine Finset.sum_congr rfl fun i _ => ?_
  rw [hBT, hDC, hBR]

/-- Region 2's final linear layer over the bias as a vector. -/
theorem yOf_spec (u : FVec Ideal S64x64 .f32) (wf : FVec Ideal S64x32 .f32) (bf : FVec Ideal S32 .f32)
    (BR : FVec Ideal S1x32 .f32) (hBR : ∀ (v : Fin 1) (q : Fin 32), BR (ix2 v q) = bf (ix1 q)) :
    yOf u wf BR = Cert.Spec.linearOut u wf bf := by
  funext j
  obtain ⟨g, q, rfl⟩ : ∃ (g : Fin 64) (q : Fin 32), j = ix2 g q := ⟨j 0, j 1, eq_ix2 j⟩
  show (∑ k : Fin 64, u (ix2 g k) * wf (ix2 k q)) + BR (ix2 (0 : Fin 1) q) = (∑ k : Fin 64, u (ix2 g k) * wf (ix2 k q)) + bf (ix1 q)
  rw [hBR]

/-- Region 0's rows are the first layer's scaled rows. -/
theorem rows1_eq (c : Dev nD) : rows1 m c = Cert.Spec.scaledRows (m ((c : Thread nD τ).loc main_arg0)) (m ((c : Thread nD τ).loc main_arg3)) (degInv (m ((c : Thread nD τ).loc main_arg1))) :=
  hs1Of_spec _ _ _ _ (degCol_apply _)

/-- Region 1's rows are the second layer's scaled rows of the first layer's output after the maximum with zero. -/
theorem rows2_eq (c : Dev nD) : rows2 m c
    = Cert.Spec.scaledRows (fun p => max (Cert.Spec.layerOut (Cert.Spec.convOf scatter_S50000x64_S850000x1_S850000x64_1_0_0_1 gather_S50000x64_S850000x1_S850000x64_1_0_n_n_0_1_164
        zeroRows (colOf (dstVec (m ((c : Thread nD τ).loc main_arg1)))) (colOf (srcVec (m ((c : Thread nD τ).loc main_arg1)))) (Cert.Spec.scaledRows (m ((c : Thread nD τ).loc main_arg0)) (m ((c : Thread nD τ).loc main_arg3)) (degInv (m ((c : Thread nD τ).loc main_arg1))))) (degInv (m ((c : Thread nD τ).loc main_arg1))) (m ((c : Thread nD τ).loc main_arg4)) p) 0)
        (m ((c : Thread nD τ).loc main_arg5)) (degInv (m ((c : Thread nD τ).loc main_arg1))) := by
  unfold rows2
  rw [hs2Of_spec _ _ (degInv (m ((c : Thread nD τ).loc main_arg1))) (m ((c : Thread nD τ).loc main_arg4)) _ (degCol_apply _) _ (biasRow_apply _), edgeSums_eq, rows1_eq]

/-- The pooled sums region 2 accumulates are the specification's. -/
theorem kernel_pool (c : Dev nD) :
    poolOf (edgeSums (m ((c : Thread nD τ).loc main_arg1)) (rows2 m c)) (degCol (m ((c : Thread nD τ).loc main_arg1))) (biasRow (m ((c : Thread nD τ).loc main_arg6))) (batchCol (m ((c : Thread nD τ).loc main_arg2)))
    = Cert.Spec.netPooled scatter_S50000x64_S850000x1_S850000x64_1_0_0_1 gather_S50000x64_S850000x1_S850000x64_1_0_n_n_0_1_164
      zeroRows (colOf (dstVec (m ((c : Thread nD τ).loc main_arg1)))) (colOf (srcVec (m ((c : Thread nD τ).loc main_arg1)))) (degInv (m ((c : Thread nD τ).loc main_arg1)))
      (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) := by
  rw [poolOf_spec _ (degInv (m ((c : Thread nD τ).loc main_arg1))) (m ((c : Thread nD τ).loc main_arg6)) (m ((c : Thread nD τ).loc main_arg2)) _ (degCol_apply _) _ (biasRow_apply _) _ (batchCol_apply _), edgeSums_eq, rows2_eq]
  rfl

/-! ## The two results -/

theorem W6_u (c : Dev nD) : W6 m ρ c (Proc.devRef .tc main_v54_1) = Cert.Spec.netPooled scatter_S50000x64_S850000x1_S850000x64_1_0_0_1 gather_S50000x64_S850000x1_S850000x64_1_0_n_n_0_1_164
      zeroRows (colOf (dstVec (m ((c : Thread nD τ).loc main_arg1)))) (colOf (srcVec (m ((c : Thread nD τ).loc main_arg1)))) (degInv (m ((c : Thread nD τ).loc main_arg1)))
      (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6)) :=
  ((W6_arr m ρ c 7).trans ((final2_7 (V5 m ρ) c).trans (uOut2_last (V5 m ρ) c))).trans
    ((congr (congr (congr (congrArg poolOf (W5_v50 m ρ c)) (W5_v17 m ρ c)) (W5_v52 m ρ c)) (W5_v51 m ρ c)).trans (kernel_pool m c))

theorem W6_y (c : Dev nD) : W6 m ρ c (Proc.devRef .tc main_v54_0)
    = Cert.Spec.linearOut (Cert.Spec.netPooled scatter_S50000x64_S850000x1_S850000x64_1_0_0_1 gather_S50000x64_S850000x1_S850000x64_1_0_n_n_0_1_164
      zeroRows (colOf (dstVec (m ((c : Thread nD τ).loc main_arg1)))) (colOf (srcVec (m ((c : Thread nD τ).loc main_arg1)))) (degInv (m ((c : Thread nD τ).loc main_arg1)))
      (m ((c : Thread nD τ).loc main_arg2)) (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) := by
  refine ((W6_arr m ρ c 6).trans ((final2_6 (V5 m ρ) c).trans (yOut2_last (V5 m ρ) c))).trans ?_
  refine (congr (congr (congrArg yOf ((congr (congr (congr (congrArg poolOf (W5_v50 m ρ c)) (W5_v17 m ρ c)) (W5_v52 m ρ c)) (W5_v51 m ρ c)).trans (kernel_pool m c))) (W5_arg7 m ρ c)) (W5_v53 m ρ c)).trans ?_
  exact yOf_spec _ _ _ _ (outBiasRow_apply _)

end Cert.KernelIdeal.Hand

end
-- ==== Proof.Alg.lean ====
/-
  THE ALGEBRA of the two-layer graph convolution, at the ideal instance (a float is an extended real).
  (1) A scatter-add read at an index: the operand there plus the sum of the updates whose start index, read signed, is
      that index (rows of a matrix; entries of a vector). A start index outside the operand lands nowhere.
  (2) The normalised aggregation: summing, over the edges landing on a node, source feature × (source normaliser ×
      destination normaliser) equals summing source feature × source normaliser and multiplying by the node's
      normaliser afterwards — with NO finiteness assumption, because the normaliser of a node some edge lands on is the
      reciprocal square root of a positive count, a nonnegative real, which distributes over any sum of extended reals.
  (3) The pooling scatter as a sum against one-hot weights.
-/
import Idealize.ShloMosaic.PureOps.Ideal
import Idealize.ShloMosaic.PureOps.Ideal.Laws
import Idealize.ShloMosaic.Lib.ValueIdx
import Idealize.ShloMosaic.Lib.StableHlo.Predicate

noncomputable section
open scoped BigOperators
namespace Cert.Alg
open Idealize.ShloMosaic Idealize.ShloMosaic.ValueIdx

/-- Two rank-2 indices with equal coordinates are equal. -/
theorem idx2_ext {n0 n1 : Nat} (f g : (⟨2, ![n0, n1]⟩ : Shape).Idx) (h0 : (f 0).val = (g 0).val)
    (h1 : (f 1).val = (g 1).val) : f = g := by
  funext a
  match a with
  | ⟨0, _⟩ => exact Fin.ext h0
  | ⟨1, _⟩ => exact Fin.ext h1

/-! ## A scatter of rows: operand [N × C], one start index per update row, the update rows [n × C] -/

section Rows
variable {N n C w : Nat}

/-- The dimension numbers of a scatter of whole rows: the updates' axis 1 is the window, the operand's axis 0 is
    inserted and is the one the start index names, the index vector on axis 1 of the [n × 1] start indices. -/
abbrev rowsDims (N n C : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ := ⟨[1], [0], [0], 1, wf⟩

theorem rows_start0 (wf) (idx : IVec ⟨2, ![n, 1]⟩ w) (e : Fin n) (c : Fin C) :
    (rowsDims N n C wf).start (ix2 e c) idx 0 = (idx (ix2 e 0)).toInt := by
  unfold ScatterDims.start
  rw [dif_pos (List.mem_singleton.mpr rfl)]
  congr 2
  funext b
  match b with
  | ⟨0, _⟩ => rfl
  | ⟨1, _⟩ => rfl

theorem rows_start1 (wf) (idx : IVec ⟨2, ![n, 1]⟩ w) (e : Fin n) (c : Fin C) :
    (rowsDims N n C wf).start (ix2 e c) idx 1 = 0 := by
  unfold ScatterDims.start
  rw [dif_neg (by show (1 : Fin 2) ∉ ([0] : List (Fin 2)); decide)]

theorem rows_window0 (wf) (e : Fin n) (c : Fin C) : (rowsDims N n C wf).window (ix2 e c) 0 = 0 := by
  unfold ScatterDims.window
  rw [dif_neg (by show (0 : Fin 2) ∉ ([1] : List (Fin 2)); decide)]

theorem rows_window1 (wf) (e : Fin n) (c : Fin C) : (rowsDims N n C wf).window (ix2 e c) 1 = c.val := by
  unfold ScatterDims.window
  rw [dif_pos (by show (1 : Fin 2) ∈ ([1] : List (Fin 2)); decide)]
  rfl

/-- Update row `e`, column `c'` lands at row `i`, column `c` exactly when its start index, read signed, is `i` and
    the columns agree (a negative or too large start lands nowhere). -/
theorem rows_resultIdx (wf) (idx : IVec ⟨2, ![n, 1]⟩ w) (e : Fin n) (c' : Fin C) (i : Fin N) (c : Fin C) :
    (rowsDims N n C wf).resultIdx? (ix2 e c') idx = some (ix2 i c)
      ↔ (idx (ix2 e 0)).toInt = (i.val : Int) ∧ c' = c := by
  have s0 := rows_start0 (N := N) wf idx e c'
  have s1 := rows_start1 (N := N) wf idx e c'
  have w0 := rows_window0 (N := N) wf e c'
  have w1 := rows_window1 (N := N) wf e c'
  unfold ScatterDims.resultIdx?
  constructor
  · intro h
    split at h
    · rename_i hall
      have hf := Option.some.inj h
      have h0 : ((rowsDims N n C wf).start (ix2 e c') idx 0 + ((rowsDims N n C wf).window (ix2 e c') 0 : Nat)).toNat = i.val :=
        congrArg (fun f => (f 0).val) hf
      have h1 : ((rowsDims N n C wf).start (ix2 e c') idx 1 + ((rowsDims N n C wf).window (ix2 e c') 1 : Nat)).toNat = c.val :=
        congrArg (fun f => (f 1).val) hf
      have hp := (hall 0).1
      rw [s0, w0] at h0 hp
      rw [s1, w1] at h1
      exact ⟨by omega, Fin.ext (by omega)⟩
    · cases h
  · rintro ⟨ht, rfl⟩
    have hi := i.isLt
    have hc := c'.isLt
    have hall : ∀ a, 0 ≤ (rowsDims N n C wf).start (ix2 e c') idx a + ((rowsDims N n C wf).window (ix2 e c') a : Nat) ∧
        (rowsDims N n C wf).start (ix2 e c') idx a + ((rowsDims N n C wf).window (ix2 e c') a : Nat)
          < ((⟨2, ![N, C]⟩ : Shape).size a : Nat) := by
      intro a
      match a with
      | ⟨0, _⟩ =>
        show 0 ≤ (rowsDims N n C wf).start (ix2 e c') idx 0 + ((rowsDims N n C wf).window (ix2 e c') 0 : Nat) ∧
          (rowsDims N n C wf).start (ix2 e c') idx 0 + ((rowsDims N n C wf).window (ix2 e c') 0 : Nat) < ((N : Nat) : Int)
        rw [s0, w0, ht]; omega
      | ⟨1, _⟩ =>
        show 0 ≤ (rowsDims N n C wf).start (ix2 e c') idx 1 + ((rowsDims N n C wf).window (ix2 e c') 1 : Nat) ∧
          (rowsDims N n C wf).start (ix2 e c') idx 1 + ((rowsDims N n C wf).window (ix2 e c') 1 : Nat) < ((C : Nat) : Int)
        rw [s1, w1]; omega
    rw [dif_pos hall]
    congr 1
    apply idx2_ext
    · show ((rowsDims N n C wf).start (ix2 e c') idx 0 + ((rowsDims N n C wf).window (ix2 e c') 0 : Nat)).toNat = i.val
      rw [s0, w0, ht]; omega
    · show ((rowsDims N n C wf).start (ix2 e c') idx 1 + ((rowsDims N n C wf).window (ix2 e c') 1 : Nat)).toNat = c'.val
      rw [s1, w1]; omega

end Rows

section RowsSum
variable {N n C w : Nat} {φ : FTy}

/-- THE SCATTER OF ROWS READ AT (i, c): the operand there plus the sum, over the update rows whose start index read
    signed is `i`, of the update at column `c`. -/
theorem rowsDims_scatterAdd (wf) (x : FVec Ideal ⟨2, ![N, C]⟩ φ) (idx : IVec ⟨2, ![n, 1]⟩ w)
    (upd : FVec Ideal ⟨2, ![n, C]⟩ φ) (i : Fin N) (c : Fin C) :
    Host.scatterAdd (F := Ideal) (rowsDims N n C wf) x idx upd (ix2 i c)
      = x (ix2 i c) + ∑ e ∈ Finset.univ.filter (fun e : Fin n => (idx (ix2 e 0)).toInt = (i.val : Int)), upd (ix2 e c) := by
  show Ideal.hostScatterAdd (rowsDims N n C wf) x idx upd (ix2 i c) = _
  unfold Ideal.hostScatterAdd
  congr 1
  rw [Finset.sum_filter, sum_idx2, Finset.sum_filter]
  refine Finset.sum_congr rfl fun e _ => ?_
  simp only [rows_resultIdx]
  by_cases h : (idx (ix2 e 0)).toInt = (i.val : Int)
  · simp [h]
  · simp [h]

/-- The same for any dimension numbers with those field values. -/
theorem rows_scatterAdd (sc : ScatterDims ⟨2, ![N, C]⟩ ⟨2, ![n, 1]⟩ ⟨2, ![n, C]⟩)
    (hu : sc.updateWindowDims = [1]) (hi : sc.insertedWindowDims = [0]) (hs : sc.scatterDimsToOperandDims = [0])
    (hv : sc.indexVectorDim = 1) (x : FVec Ideal ⟨2, ![N, C]⟩ φ) (idx : IVec ⟨2, ![n, 1]⟩ w)
    (upd : FVec Ideal ⟨2, ![n, C]⟩ φ) (i : Fin N) (c : Fin C) :
    Host.scatterAdd (F := Ideal) sc x idx upd (ix2 i c)
      = x (ix2 i c) + ∑ e ∈ Finset.univ.filter (fun e : Fin n => (idx (ix2 e 0)).toInt = (i.val : Int)), upd (ix2 e c) := by
  obtain ⟨uw, iw, sd, iv, wf⟩ := sc
  simp only at hu hi hs hv
  subst hu hi hs hv
  exact rowsDims_scatterAdd wf x idx upd i c

end RowsSum

/-! ## A scatter into a vector: operand [N], one start index per update, the updates [n] -/

section Vec
variable {N n w : Nat} {φ : FTy}

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl
/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The dimension numbers of a scatter of scalars into a vector: no window axes, the operand's one axis inserted and
    named by the start index, the index vector on axis 1 of the [n × 1] start indices. -/
abbrev vecDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ := ⟨[], [0], [0], 1, wf⟩

theorem vec_start0 (wf) (idx : IVec ⟨2, ![n, 1]⟩ w) (e : Fin n) :
    (vecDims N n wf).start (ix1 e) idx 0 = (idx (ix2 e 0)).toInt := by
  unfold ScatterDims.start
  rw [dif_pos (List.mem_singleton.mpr rfl)]
  congr 2
  funext b
  match b with
  | ⟨0, _⟩ => rfl
  | ⟨1, _⟩ => rfl

theorem vec_window0 (wf) (e : Fin n) : (vecDims N n wf).window (ix1 e) 0 = 0 := by
  unfold ScatterDims.window
  rw [dif_neg (by show (0 : Fin 1) ∉ ([] : List (Fin 1)); decide)]

/-- Update `e` lands at `i` exactly when its start index, read signed, is `i`. -/
theorem vec_resultIdx (wf) (idx : IVec ⟨2, ![n, 1]⟩ w) (e : Fin n) (i : Fin N) :
    (vecDims N n wf).resultIdx? (ix1 e) idx = some (ix1 i) ↔ (idx (ix2 e 0)).toInt = (i.val : Int) := by
  have s0 := vec_start0 (N := N) wf idx e
  have w0 := vec_window0 (N := N) wf e
  unfold ScatterDims.resultIdx?
  constructor
  · intro h
    split at h
    · rename_i hall
      have hf := Option.some.inj h
      have h0 : ((vecDims N n wf).start (ix1 e) idx 0 + ((vecDims N n wf).window (ix1 e) 0 : Nat)).toNat = i.val :=
        congrArg (fun f => (f 0).val) hf
      have hp := (hall 0).1
      rw [s0, w0] at h0 hp
      omega
    · cases h
  · intro ht
    have hi := i.isLt
    have hall : ∀ a, 0 ≤ (vecDims N n wf).start (ix1 e) idx a + ((vecDims N n wf).window (ix1 e) a : Nat) ∧
        (vecDims N n wf).start (ix1 e) idx a + ((vecDims N n wf).window (ix1 e) a : Nat)
          < ((⟨1, ![N]⟩ : Shape).size a : Nat) := by
      intro a
      match a with
      | ⟨0, _⟩ =>
        show 0 ≤ (vecDims N n wf).start (ix1 e) idx 0 + ((vecDims N n wf).window (ix1 e) 0 : Nat) ∧
          (vecDims N n wf).start (ix1 e) idx 0 + ((vecDims N n wf).window (ix1 e) 0 : Nat) < ((N : Nat) : Int)
        rw [s0, w0, ht]; omega
    rw [dif_pos hall]
    congr 1
    funext a
    match a with
    | ⟨0, _⟩ =>
      refine Fin.ext ?_
      show ((vecDims N n wf).start (ix1 e) idx 0 + ((vecDims N n wf).window (ix1 e) 0 : Nat)).toNat = i.val
      rw [s0, w0, ht]; omega

/-- THE SCATTER INTO A VECTOR READ AT i: the operand there plus the sum of the updates whose start index read signed
    is `i`. -/
theorem vecDims_scatterAdd (wf) (x : FVec Ideal ⟨1, ![N]⟩ φ) (idx : IVec ⟨2, ![n, 1]⟩ w)
    (upd : FVec Ideal ⟨1, ![n]⟩ φ) (i : Fin N) :
    Host.scatterAdd (F := Ideal) (vecDims N n wf) x idx upd (ix1 i)
      = x (ix1 i) + ∑ e ∈ Finset.univ.filter (fun e : Fin n => (idx (ix2 e 0)).toInt = (i.val : Int)), upd (ix1 e) := by
  show Ideal.hostScatterAdd (vecDims N n wf) x idx upd (ix1 i) = _
  unfold Ideal.hostScatterAdd
  congr 1
  rw [Finset.sum_filter, sum_idx1, Finset.sum_filter]
  refine Finset.sum_congr rfl fun e _ => ?_
  simp only [vec_resultIdx]

/-- The same for any dimension numbers with those field values. -/
theorem vec_scatterAdd (sc : ScatterDims ⟨1, ![N]⟩ ⟨2, ![n, 1]⟩ ⟨1, ![n]⟩)
    (hu : sc.updateWindowDims = []) (hi : sc.insertedWindowDims = [0]) (hs : sc.scatterDimsToOperandDims = [0])
    (hv : sc.indexVectorDim = 1) (x : FVec Ideal ⟨1, ![N]⟩ φ) (idx : IVec ⟨2, ![n, 1]⟩ w)
    (upd : FVec Ideal ⟨1, ![n]⟩ φ) (i : Fin N) :
    Host.scatterAdd (F := Ideal) sc x idx upd (ix1 i)
      = x (ix1 i) + ∑ e ∈ Finset.univ.filter (fun e : Fin n => (idx (ix2 e 0)).toInt = (i.val : Int)), upd (ix1 e) := by
  obtain ⟨uw, iw, sd, iv, wf⟩ := sc
  simp only at hu hi hs hv
  subst hu hi hs hv
  exact vecDims_scatterAdd wf x idx upd i

end Vec

/-! ## The gathers: a table read at start indices, the index read signed and clamped into the table -/

section Gathers
variable {N n C w : Nat} {α : Type}

/-- The dimension numbers of a gather of whole rows of an [N × C] table: the result's axis 1 is the offset axis, the
    table's axis 0 is collapsed and named by the start index, slices of one row. -/
abbrev gRowsDims (N n C : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT (e, c): the table at the row that start index `e` names (read signed, clamped into
    [0, N − 1]) and column `c`. -/
theorem gRowsDims_gather (hN : 0 < N) (wf) (x : (⟨2, ![N, C]⟩ : Shape).Idx → α) (idx : IVec ⟨2, ![n, 1]⟩ w)
    (e : Fin n) (c : Fin C) :
    Host.gather (gRowsDims N n C wf) x idx (ix2 e c)
      = x (ix2 ⟨min (idx (ix2 e 0)).toInt.toNat (N - 1), by omega⟩ c) := by
  unfold Host.gather
  congr 1
  apply idx2_ext
  · show (gRowsDims N n C wf).start (ix2 e c) idx 0 + (gRowsDims N n C wf).batchCoord (ix2 e c) 0
        + (gRowsDims N n C wf).offCoord (ix2 e c) 0 = min (idx (ix2 e 0)).toInt.toNat (N - 1)
    rw [GatherDims.batchCoord_eq_zero _ _ _ List.not_mem_nil,
      GatherDims.offCoord_eq_zero _ _ _ (by show (0 : Fin 2) ∉ ([1] : List (Fin 2)); decide)]
    unfold GatherDims.start
    rw [dif_pos (List.mem_singleton.mpr rfl)]
    have hsi : (gRowsDims N n C wf).siIdx (ix2 e c) ⟨List.idxOf (0 : Fin 2) (gRowsDims N n C wf).startIndexMap,
        List.idxOf_lt_length_iff.2 (List.mem_singleton.mpr rfl)⟩ = ix2 e 0 := by
      funext b
      match b with
      | ⟨0, _⟩ => rfl
      | ⟨1, _⟩ => rfl
    rw [hsi]
    rfl
  · show (gRowsDims N n C wf).start (ix2 e c) idx 1 + (gRowsDims N n C wf).batchCoord (ix2 e c) 1
        + (gRowsDims N n C wf).offCoord (ix2 e c) 1 = c.val
    rw [GatherDims.batchCoord_eq_zero _ _ _ List.not_mem_nil]
    unfold GatherDims.start GatherDims.offCoord
    rw [dif_neg (by show (1 : Fin 2) ∉ ([0] : List (Fin 2)); decide),
      dif_pos (by show (1 : Fin 2) ∈ ([1] : List (Fin 2)); decide)]
    show 0 + 0 + c.val = c.val
    omega

/-- The same for any dimension numbers with those field values. -/
theorem rows_gather (hN : 0 < N) (g : GatherDims ⟨2, ![N, C]⟩ ⟨2, ![n, 1]⟩ ⟨2, ![n, C]⟩)
    (hoff : g.offsetDims = [1]) (hcoll : g.collapsedSliceDims = [0]) (hob : g.operandBatchingDims = [])
    (hsb : g.startIndicesBatchingDims = []) (hsim : g.startIndexMap = [0]) (hivd : g.indexVectorDim = 1)
    (hss : g.sliceSizes = ![1, C])
    (x : (⟨2, ![N, C]⟩ : Shape).Idx → α) (idx : IVec ⟨2, ![n, 1]⟩ w) (e : Fin n) (c : Fin C) :
    Host.gather g x idx (ix2 e c) = x (ix2 ⟨min (idx (ix2 e 0)).toInt.toNat (N - 1), by omega⟩ c) := by
  obtain ⟨od, cd, ob, sb, sim, iv, ss, wf⟩ := g
  simp only at hoff hcoll hob hsb hsim hivd hss
  subst hoff hcoll hob hsb hsim hivd hss
  exact gRowsDims_gather hN wf x idx e c

/-- The rank-1 table gathered at an [n × 1] column of start indices, read at `e`: the table at the position the start
    index names, read signed and clamped. -/
theorem vec_gather (hN : 0 < N) (g : GatherDims ⟨1, ![N]⟩ ⟨2, ![n, 1]⟩ ⟨1, ![n]⟩)
    (hcoll : g.collapsedSliceDims = [0]) (hob : g.operandBatchingDims = [])
    (hsim : g.startIndexMap = [0]) (hivd : g.indexVectorDim = 1)
    (x : (⟨1, ![N]⟩ : Shape).Idx → α) (idx : IVec ⟨2, ![n, 1]⟩ w) (e : Fin n) :
    Host.gather g x idx (ix1 e) = x (ix1 ⟨min (idx (ix2 e 0)).toInt.toNat (N - 1), by omega⟩) := by
  have h := StableHlo.Predicate.gather_take g hcoll hob hsim hivd x idx e hN
  have e1 : (Shape.Idx.ofFin e : (⟨1, ![n]⟩ : Shape).Idx) = ix1 e := by
    funext a; match a with | ⟨0, _⟩ => rfl
  have e2 : (StableHlo.Predicate.ixP e : (⟨2, ![n, 1]⟩ : Shape).Idx) = ix2 e 0 := by
    funext a; match a with | ⟨0, _⟩ => rfl | ⟨1, _⟩ => rfl
  rw [e1] at h
  rw [h]
  congr 1
  funext a
  match a with
  | ⟨0, _⟩ =>
    refine Fin.ext ?_
    show min (idx (StableHlo.Predicate.ixP e)).toInt.toNat (N - 1) = min (idx (ix2 e 0)).toInt.toNat (N - 1)
    rw [e2]

end Gathers

/-! ## The mathematics of the normalised aggregation -/

section Math

/-- A nonnegative real factor distributes over any finite sum of extended reals. -/
theorem sum_mul_coe_nonneg {ι : Type*} (S : Finset ι) (f : ι → EReal) (d : ℝ) (hd : 0 ≤ d) :
    (∑ e ∈ S, f e) * (d : EReal) = ∑ e ∈ S, f e * (d : EReal) := by
  classical
  induction S using Finset.induction_on with
  | empty => simp
  | insert a s ha ih =>
    rw [Finset.sum_insert ha, Finset.sum_insert ha,
      EReal.right_distrib_of_nonneg_of_ne_top (EReal.coe_nonneg.2 hd) (EReal.coe_ne_top d), ih]

/-- The reciprocal square root of a positive count is a nonnegative real. -/
theorem rsqrt_natCast_pos (k : ℕ) (hk : 0 < k) : ∃ d : ℝ, 0 ≤ d ∧ Ideal.rsqrt (k : EReal) = (d : EReal) := by
  refine ⟨(Real.sqrt k)⁻¹, inv_nonneg.2 (Real.sqrt_nonneg _), ?_⟩
  have hk' : (0 : ℝ) < k := Nat.cast_pos.2 hk
  show Ideal.rsqrt (((k : ℝ) : EReal)) = _
  rw [Ideal.rsqrt_coe, if_neg (not_lt.2 hk'.le), if_neg hk'.ne']

/-- THE KEY IDENTITY. Over a set `S` of edges, a factor `D` that is the reciprocal square root of the size of `S` comes
    out of the sum: with no edge both sides are zero; with one, `D` is a nonnegative real. No finiteness of the
    summands is needed. -/
theorem sum_factor_out {ι : Type*} (S : Finset ι) (a b : ι → EReal) (D : EReal)
    (hD : D = Ideal.rsqrt (S.card : EReal)) :
    ∑ e ∈ S, a e * (b e * D) = (∑ e ∈ S, a e * b e) * D := by
  rcases S.eq_empty_or_nonempty with h0 | hne
  · subst h0; simp
  · obtain ⟨d, hd, hDd⟩ := rsqrt_natCast_pos S.card (Finset.card_pos.2 hne)
    rw [hD, hDd, sum_mul_coe_nonneg S _ d hd]
    exact Finset.sum_congr rfl fun e _ => (mul_assoc _ _ _).symm

end Math

/-! ## The two aggregations agree -/

section Conv
variable {N n C : Nat} {φ : FTy}

/-- The clamp of a start word into the table's rows. -/
abbrev clampRow (hN : 0 < N) (x : BitVec 32) : Fin N := ⟨min x.toInt.toNat (N - 1), by omega⟩

/-- An index that is a row of the table is its own clamp. -/
theorem clampRow_of_eq (hN : 0 < N) (x : BitVec 32) (i : Fin N) (h : x.toInt = (i.val : Int)) : clampRow hN x = i := by
  refine Fin.ext ?_
  have := i.isLt
  show min x.toInt.toNat (N - 1) = i.val
  omega

/-- At node `i`, column `c`: the sum over the edges landing on `i` of the source feature times the product of the two
    normalisers is that sum of source feature times source normaliser, times the normaliser of `i`. -/
theorem conv_at (hN : 0 < N)
    (sc1 : ScatterDims ⟨1, ![N]⟩ ⟨2, ![n, 1]⟩ ⟨1, ![n]⟩)
    (h1u : sc1.updateWindowDims = []) (h1i : sc1.insertedWindowDims = [0]) (h1s : sc1.scatterDimsToOperandDims = [0])
    (h1v : sc1.indexVectorDim = 1)
    (sc2 : ScatterDims ⟨2, ![N, C]⟩ ⟨2, ![n, 1]⟩ ⟨2, ![n, C]⟩)
    (h2u : sc2.updateWindowDims = [1]) (h2i : sc2.insertedWindowDims = [0]) (h2s : sc2.scatterDimsToOperandDims = [0])
    (h2v : sc2.indexVectorDim = 1)
    (g1 : GatherDims ⟨1, ![N]⟩ ⟨2, ![n, 1]⟩ ⟨1, ![n]⟩)
    (hg1c : g1.collapsedSliceDims = [0]) (hg1b : g1.operandBatchingDims = [])
    (hg1m : g1.startIndexMap = [0]) (hg1v : g1.indexVectorDim = 1)
    (g2 : GatherDims ⟨2, ![N, C]⟩ ⟨2, ![n, 1]⟩ ⟨2, ![n, C]⟩)
    (hg2o : g2.offsetDims = [1]) (hg2c : g2.collapsedSliceDims = [0]) (hg2b : g2.operandBatchingDims = [])
    (hg2sb : g2.startIndicesBatchingDims = []) (hg2m : g2.startIndexMap = [0]) (hg2v : g2.indexVectorDim = 1)
    (hg2s : g2.sliceSizes = ![1, C])
    (sI dI : IVec ⟨2, ![n, 1]⟩ 32)
    (z1 : FVec Ideal ⟨1, ![N]⟩ φ) (hz1 : ∀ i, z1 i = 0)
    (one : FVec Ideal ⟨1, ![n]⟩ φ) (hone : ∀ e, one e = 1)
    (dinv : FVec Ideal ⟨1, ![N]⟩ φ)
    (hdinv : dinv = Host.rsqrt (F := Ideal) (Host.scatterAdd (F := Ideal) sc1 z1 dI one))
    (h : FVec Ideal ⟨2, ![N, C]⟩ φ)
    (z2 : FVec Ideal ⟨2, ![N, C]⟩ φ) (hz2 : ∀ j, z2 j = 0)
    (updR updK : FVec Ideal ⟨2, ![n, C]⟩ φ)
    (hR : ∀ j, updR j = Host.gather g2 h sI j * (Host.gather g1 dinv sI (ix1 (j 0)) * Host.gather g1 dinv dI (ix1 (j 0))))
    (hK : ∀ j, updK j = Host.gather g2 (fun p => h p * dinv (ix1 (p 0))) sI j)
    (i : Fin N) (c : Fin C) :
    Host.scatterAdd (F := Ideal) sc2 z2 dI updR (ix2 i c)
      = Host.scatterAdd (F := Ideal) sc2 z2 dI updK (ix2 i c) * dinv (ix1 i) := by
  -- the normaliser of node i: the reciprocal square root of the number of edges landing on i
  have hD : dinv (ix1 i) = Ideal.rsqrt
      (((Finset.univ.filter (fun e : Fin n => (dI (ix2 e 0)).toInt = (i.val : Int))).card : ℕ) : EReal) := by
    rw [hdinv]
    show Ideal.rsqrt (Host.scatterAdd (F := Ideal) sc1 z1 dI one (ix1 i)) = _
    rw [vec_scatterAdd sc1 h1u h1i h1s h1v, hz1, zero_add]
    congr 1
    rw [Finset.sum_congr rfl (fun e _ => hone (ix1 e)), Finset.sum_const, nsmul_one]
  -- the update summed on the left at edge e, column c: feature × (source normaliser × destination normaliser)
  have hRe : ∀ e : Fin n, updR (ix2 e c) = h (ix2 (clampRow hN (sI (ix2 e 0))) c)
      * (dinv (ix1 (clampRow hN (sI (ix2 e 0)))) * dinv (ix1 (clampRow hN (dI (ix2 e 0))))) := by
    intro e
    rw [hR (ix2 e c)]
    show Host.gather g2 h sI (ix2 e c) * (Host.gather g1 dinv sI (ix1 e) * Host.gather g1 dinv dI (ix1 e)) = _
    rw [rows_gather hN g2 hg2o hg2c hg2b hg2sb hg2m hg2v hg2s, vec_gather hN g1 hg1c hg1b hg1m hg1v,
      vec_gather hN g1 hg1c hg1b hg1m hg1v]
  -- the update summed on the right at edge e, column c: feature × source normaliser
  have hKe : ∀ e : Fin n, updK (ix2 e c) = h (ix2 (clampRow hN (sI (ix2 e 0))) c)
      * dinv (ix1 (clampRow hN (sI (ix2 e 0)))) := by
    intro e
    rw [hK (ix2 e c), rows_gather hN g2 hg2o hg2c hg2b hg2sb hg2m hg2v hg2s]
    rfl
  rw [rows_scatterAdd sc2 h2u h2i h2s h2v, rows_scatterAdd sc2 h2u h2i h2s h2v, hz2, zero_add, zero_add]
  rw [Finset.sum_congr rfl (fun e _ => hKe e)]
  rw [← sum_factor_out _ (fun e => h (ix2 (clampRow hN (sI (ix2 e 0))) c))
    (fun e => dinv (ix1 (clampRow hN (sI (ix2 e 0))))) (dinv (ix1 i)) hD]
  refine Finset.sum_congr rfl fun e he => ?_
  rw [hRe e, clampRow_of_eq hN (dI (ix2 e 0)) i (Finset.mem_filter.1 he).2]

/-- The same at every index. -/
theorem conv_eq_gen (hN : 0 < N)
    (sc1 : ScatterDims ⟨1, ![N]⟩ ⟨2, ![n, 1]⟩ ⟨1, ![n]⟩)
    (h1u : sc1.updateWindowDims = []) (h1i : sc1.insertedWindowDims = [0]) (h1s : sc1.scatterDimsToOperandDims = [0])
    (h1v : sc1.indexVectorDim = 1)
    (sc2 : ScatterDims ⟨2, ![N, C]⟩ ⟨2, ![n, 1]⟩ ⟨2, ![n, C]⟩)
    (h2u : sc2.updateWindowDims = [1]) (h2i : sc2.insertedWindowDims = [0]) (h2s : sc2.scatterDimsToOperandDims = [0])
    (h2v : sc2.indexVectorDim = 1)
    (g1 : GatherDims ⟨1, ![N]⟩ ⟨2, ![n, 1]⟩ ⟨1, ![n]⟩)
    (hg1c : g1.collapsedSliceDims = [0]) (hg1b : g1.operandBatchingDims = [])
    (hg1m : g1.startIndexMap = [0]) (hg1v : g1.indexVectorDim = 1)
    (g2 : GatherDims ⟨2, ![N, C]⟩ ⟨2, ![n, 1]⟩ ⟨2, ![n, C]⟩)
    (hg2o : g2.offsetDims = [1]) (hg2c : g2.collapsedSliceDims = [0]) (hg2b : g2.operandBatchingDims = [])
    (hg2sb : g2.startIndicesBatchingDims = []) (hg2m : g2.startIndexMap = [0]) (hg2v : g2.indexVectorDim = 1)
    (hg2s : g2.sliceSizes = ![1, C])
    (sI dI : IVec ⟨2, ![n, 1]⟩ 32)
    (z1 : FVec Ideal ⟨1, ![N]⟩ φ) (hz1 : ∀ i, z1 i = 0)
    (one : FVec Ideal ⟨1, ![n]⟩ φ) (hone : ∀ e, one e = 1)
    (dinv : FVec Ideal ⟨1, ![N]⟩ φ)
    (hdinv : dinv = Host.rsqrt (F := Ideal) (Host.scatterAdd (F := Ideal) sc1 z1 dI one))
    (h : FVec Ideal ⟨2, ![N, C]⟩ φ)
    (z2 : FVec Ideal ⟨2, ![N, C]⟩ φ) (hz2 : ∀ j, z2 j = 0)
    (updR updK : FVec Ideal ⟨2, ![n, C]⟩ φ)
    (hR : ∀ j, updR j = Host.gather g2 h sI j * (Host.gather g1 dinv sI (ix1 (j 0)) * Host.gather g1 dinv dI (ix1 (j 0))))
    (hK : ∀ j, updK j = Host.gather g2 (fun p => h p * dinv (ix1 (p 0))) sI j) :
    ∀ j : (⟨2, ![N, C]⟩ : Shape).Idx, Host.scatterAdd (F := Ideal) sc2 z2 dI updR j
      = Host.scatterAdd (F := Ideal) sc2 z2 dI updK j * dinv (ix1 (j 0)) := by
  intro j
  obtain ⟨a, b, rfl⟩ : ∃ (a : Fin N) (b : Fin C), j = ix2 a b := ⟨j 0, j 1, eq_ix2 j⟩
  exact conv_at hN sc1 h1u h1i h1s h1v sc2 h2u h2i h2s h2v g1 hg1c hg1b hg1m hg1v g2 hg2o hg2c hg2b hg2sb hg2m hg2v hg2s
    sI dI z1 hz1 one hone dinv hdinv h z2 hz2 updR updK hR hK a b

end Conv

/-! ## The pooling scatter as a sum against one-hot weights -/

section Pool
variable {G n C : Nat} {φ : FTy}

/-- A 32-bit word read signed is the natural `k` below 2³¹ exactly when it is the word of `k`. -/
theorem toInt_eq_iff (x : BitVec 32) (k : Nat) (hk : k < 2 ^ 31) : x.toInt = (k : Int) ↔ x = BitVec.ofNat 32 k := by
  have hk' : (BitVec.ofNat 32 k).toInt = (k : Int) := by
    rw [BitVec.toInt_eq_toNat_cond, BitVec.toNat_ofNat]
    have hm : k % 2 ^ 32 = k := Nat.mod_eq_of_lt (by omega)
    rw [hm, if_pos (by omega)]
  constructor
  · intro h
    apply BitVec.eq_of_toInt_eq
    rw [h, hk']
  · rintro rfl
    exact hk'

/-- Scattering the rows of `z` by the group words into zeros gives, at group `g` and column `c`, the sum over all rows
    of (1 if the row's word is `g`'s, else 0) times the row's entry: a word that is no group's (negative, or too large)
    is dropped by the scatter and matches no `g`. -/
theorem pool_eq_gen (hG : G ≤ 2 ^ 31) (sc3 : ScatterDims ⟨2, ![G, C]⟩ ⟨2, ![n, 1]⟩ ⟨2, ![n, C]⟩)
    (hu : sc3.updateWindowDims = [1]) (hi : sc3.insertedWindowDims = [0]) (hs : sc3.scatterDimsToOperandDims = [0])
    (hv : sc3.indexVectorDim = 1) (bI : IVec ⟨2, ![n, 1]⟩ 32)
    (z0 : FVec Ideal ⟨2, ![G, C]⟩ φ) (hz0 : ∀ j, z0 j = 0) (z : FVec Ideal ⟨2, ![n, C]⟩ φ) (g : Fin G) (c : Fin C) :
    Host.scatterAdd (F := Ideal) sc3 z0 bI z (ix2 g c)
      = ∑ i : Fin n, (if bI (ix2 i 0) = BitVec.ofNat 32 g.val then (1 : EReal) else 0) * z (ix2 i c) := by
  rw [rows_scatterAdd sc3 hu hi hs hv, hz0, zero_add, Finset.sum_filter]
  refine Finset.sum_congr rfl fun i _ => ?_
  have hiff := toInt_eq_iff (bI (ix2 i 0)) g.val (by have := g.isLt; omega)
  by_cases hw : bI (ix2 i 0) = BitVec.ofNat 32 g.val
  · rw [if_pos (hiff.2 hw), if_pos hw, one_mul]
  · rw [if_neg (fun h => hw (hiff.1 h)), if_neg hw, zero_mul]

end Pool

/-! ## At the program's extents -/

section Literal
variable {φ : FTy}

theorem conv_eq
    (sc1 : ScatterDims ⟨1, ![50000]⟩ ⟨2, ![850000, 1]⟩ ⟨1, ![850000]⟩)
    (h1u : sc1.updateWindowDims = []) (h1i : sc1.insertedWindowDims = [0]) (h1s : sc1.scatterDimsToOperandDims = [0])
    (h1v : sc1.indexVectorDim = 1)
    (sc2 : ScatterDims ⟨2, ![50000, 64]⟩ ⟨2, ![850000, 1]⟩ ⟨2, ![850000, 64]⟩)
    (h2u : sc2.updateWindowDims = [1]) (h2i : sc2.insertedWindowDims = [0]) (h2s : sc2.scatterDimsToOperandDims = [0])
    (h2v : sc2.indexVectorDim = 1)
    (g1 : GatherDims ⟨1, ![50000]⟩ ⟨2, ![850000, 1]⟩ ⟨1, ![850000]⟩)
    (hg1c : g1.collapsedSliceDims = [0]) (hg1b : g1.operandBatchingDims = [])
    (hg1m : g1.startIndexMap = [0]) (hg1v : g1.indexVectorDim = 1)
    (g2 : GatherDims ⟨2, ![50000, 64]⟩ ⟨2, ![850000, 1]⟩ ⟨2, ![850000, 64]⟩)
    (hg2o : g2.offsetDims = [1]) (hg2c : g2.collapsedSliceDims = [0]) (hg2b : g2.operandBatchingDims = [])
    (hg2sb : g2.startIndicesBatchingDims = []) (hg2m : g2.startIndexMap = [0]) (hg2v : g2.indexVectorDim = 1)
    (hg2s : g2.sliceSizes = ![1, 64])
    (sI dI : IVec ⟨2, ![850000, 1]⟩ 32)
    (z1 : FVec Ideal ⟨1, ![50000]⟩ φ) (hz1 : ∀ i, z1 i = 0)
    (one : FVec Ideal ⟨1, ![850000]⟩ φ) (hone : ∀ e, one e = 1)
    (dinv : FVec Ideal ⟨1, ![50000]⟩ φ)
    (hdinv : dinv = Host.rsqrt (F := Ideal) (Host.scatterAdd (F := Ideal) sc1 z1 dI one))
    (h : FVec Ideal ⟨2, ![50000, 64]⟩ φ)
    (z2 : FVec Ideal ⟨2, ![50000, 64]⟩ φ) (hz2 : ∀ j, z2 j = 0)
    (updR updK : FVec Ideal ⟨2, ![850000, 64]⟩ φ)
    (hR : ∀ j, updR j = Host.gather g2 h sI j * (Host.gather g1 dinv sI (ix1 (j 0)) * Host.gather g1 dinv dI (ix1 (j 0))))
    (hK : ∀ j, updK j = Host.gather g2 (fun p => h p * dinv (ix1 (p 0))) sI j) :
    ∀ j : (⟨2, ![50000, 64]⟩ : Shape).Idx, Host.scatterAdd (F := Ideal) sc2 z2 dI updR j
      = Host.scatterAdd (F := Ideal) sc2 z2 dI updK j * dinv (ix1 (j 0)) :=
  conv_eq_gen (by norm_num) sc1 h1u h1i h1s h1v sc2 h2u h2i h2s h2v g1 hg1c hg1b hg1m hg1v g2 hg2o hg2c hg2b hg2sb hg2m
    hg2v hg2s sI dI z1 hz1 one hone dinv hdinv h z2 hz2 updR updK hR hK

theorem pool_eq (sc3 : ScatterDims ⟨2, ![64, 64]⟩ ⟨2, ![50000, 1]⟩ ⟨2, ![50000, 64]⟩)
    (hu : sc3.updateWindowDims = [1]) (hi : sc3.insertedWindowDims = [0]) (hs : sc3.scatterDimsToOperandDims = [0])
    (hv : sc3.indexVectorDim = 1) (bI : IVec ⟨2, ![50000, 1]⟩ 32)
    (z0 : FVec Ideal ⟨2, ![64, 64]⟩ φ) (hz0 : ∀ j, z0 j = 0) (z : FVec Ideal ⟨2, ![50000, 64]⟩ φ) :
    ∀ (g c : Fin 64), Host.scatterAdd (F := Ideal) sc3 z0 bI z (ix2 g c)
      = ∑ i : Fin 50000, (if bI (ix2 i 0) = BitVec.ofNat 32 g.val then (1 : EReal) else 0) * z (ix2 i c) :=
  fun g c => pool_eq_gen (by norm_num) sc3 hu hi hs hv bI z0 hz0 z g c

end Literal

end Cert.Alg

end
-- ==== Proof.RefVal.lean ====
/-
  The reference program's two results in the specification's form.

  The reference builds the destination column of the edge list four times and the source column three times, by the
  same operations of the edge array; the copies are identified first. An edge's weight is the product of the degree
  factors of its two ends, so each layer's edge sums are the sums of the source rows scaled by the source's factor,
  times the destination's factor (the scatter-add is linear in a factor that depends on the destination only). A
  projected row is the sum over the 64 input features; the bias is read at the feature column; the maximum with the
  zero array is the maximum with 0; the pooling scatter-add is the sum, over the nodes of a graph, of their rows; the
  last layer is one more sum over 64 features plus its bias.
-/
import proofs.«421701_j11836929868487_3_alg».proof.Proof.Gen.ReferenceIdeal.Read
import proofs.«421701_j11836929868487_3_alg».proof.Proof.Spec
import proofs.«421701_j11836929868487_3_alg».proof.Proof.Alg

noncomputable section

open scoped BigOperators

namespace Cert.ReferenceIdeal.RefValue

open Cert.ReferenceIdeal Cert.ReferenceIdeal.Gen Cert.ReferenceIdeal.Read
open Idealize.ShloMosaic Idealize.ShloMosaic.ValueIdx

/-- A float array of a shape, at the ideal values. -/
abbrev FA (s : Shape) : Type := (⟨s, .f32⟩ : BufTy).Contents (Elt Ideal)
/-- A word array of a shape. -/
abbrev WA (s : Shape) : Type := (⟨s, .i32⟩ : BufTy).Contents (Elt Ideal)

/-! ## The repeated columns are one column -/

theorem v29_eq (x1 : WA S2x800000) : val_main_v29 (F := Ideal) x1 = val_main_v13 (F := Ideal) x1 := rfl
theorem v49_eq (x1 : WA S2x800000) : val_main_v49 (F := Ideal) x1 = val_main_v13 (F := Ideal) x1 := rfl
theorem v72_eq (x1 : WA S2x800000) : val_main_v72 (F := Ideal) x1 = val_main_v13 (F := Ideal) x1 := rfl
theorem v38_eq (x1 : WA S2x800000) : val_main_v38 (F := Ideal) x1 = val_main_v22 (F := Ideal) x1 := rfl
theorem v61_eq (x1 : WA S2x800000) : val_main_v61 (F := Ideal) x1 = val_main_v22 (F := Ideal) x1 := rfl
theorem v66_eq : val_main_v66 (F := Ideal) = val_main_v43 (F := Ideal) := rfl
theorem v64_eq (x1 : WA S2x800000) : val_main_v64 (F := Ideal) x1 = val_main_v41 (F := Ideal) x1 := rfl

/-! ## The constant arrays -/

/-- The word 0x3F800000 denotes 1. -/
theorem one_f32 : Ideal.ofBits .f32 0x3F800000#32 = 1 := by
  simp [Ideal.ofBits, Ideal.ieee, -EReal.coe_mul]; norm_num

theorem v7_zero (i : S50000.Idx) : val_main_v7 (F := Ideal) i = 0 := by
  rw [val_main_v7_apply, val_main_cst_apply]; exact Ideal.ofBits_zero_f32
theorem v43_zero (j : S50000x64.Idx) : val_main_v43 (F := Ideal) j = 0 := by
  rw [val_main_v43_apply, val_main_cst_8_apply]; exact Ideal.ofBits_zero_f32
theorem v77_zero (j : S64x64.Idx) : val_main_v77 (F := Ideal) j = 0 := by
  rw [val_main_v77_apply, val_main_cst_16_apply]; exact Ideal.ofBits_zero_f32
theorem relu_zero (j : S50000x64.Idx) : val_main_call0_v0 (F := Ideal) j = 0 := by
  rw [val_main_call0_v0_apply, val_main_call0_cst_apply]; exact Ideal.ofBits_zero_f32
theorem v14_one (e : S850000.Idx) : val_main_v14 (F := Ideal) e = 1 := by
  rw [val_main_v14_apply, val_main_cst_1_apply]; exact one_f32

/-! ## Broadcast rows and columns read at an index -/

/-- The first layer's bias, broadcast over the nodes, is the bias at the feature column. -/
theorem v52_read (x4 : FA S64) (p : S50000x64.Idx) : val_main_v52 (F := Ideal) x4 p = x4 (ix1 (p 1)) := by
  rw [val_main_v52_apply, val_main_v51_apply]
  exact congrArg x4 (funext fun a => by match a with | ⟨0, _⟩ => rfl)
/-- The second layer's bias likewise. -/
theorem v75_read (x6 : FA S64) (p : S50000x64.Idx) : val_main_v75 (F := Ideal) x6 p = x6 (ix1 (p 1)) := by
  rw [val_main_v75_apply, val_main_v74_apply]
  exact congrArg x6 (funext fun a => by match a with | ⟨0, _⟩ => rfl)
/-- The last layer's bias likewise. -/
theorem v82_read (x8 : FA S32) (j : S64x32.Idx) : val_main_v82 (F := Ideal) x8 j = x8 (ix1 (j 1)) := by
  rw [val_main_v82_apply, val_main_v81_apply]
  exact congrArg x8 (funext fun a => by match a with | ⟨0, _⟩ => rfl)
/-- The graph-number column is the graph-number array. -/
theorem v78_read (x2 : WA S50000) (i : Fin 50000) (t : Fin 1) : val_main_v78 (F := Ideal) x2 (ix2 i t) = x2 (ix1 i) := by
  rw [val_main_v78_apply]
  exact congrArg x2 (funext fun a => by match a with | ⟨0, _⟩ => rfl)

/-- An edge's weight, at every feature column: the product of the degree factors of its source and its destination. -/
theorem v41_read (x1 : WA S2x800000) (j : S850000x64.Idx) :
    val_main_v41 (F := Ideal) x1 j
      = Host.gather gather_S50000_S850000x1_S850000_n_0_n_n_0_1_1 (val_main_v16 (F := Ideal) x1) (val_main_v22 (F := Ideal) x1) (ix1 (j 0))
        * Host.gather gather_S50000_S850000x1_S850000_n_0_n_n_0_1_1 (val_main_v16 (F := Ideal) x1) (val_main_v13 (F := Ideal) x1) (ix1 (j 0)) := by
  rw [val_main_v41_apply, val_main_v40_apply, val_main_v31_apply]
  have e : idx_main_v40 (idx_main_v41 j) = ix1 (j 0) := funext fun a => by match a with | ⟨0, _⟩ => rfl
  rw [e]
  rfl

/-! ## One layer's edge sums -/

/-- The edge sums of rows `h` weighted per edge are the edge sums of the rows scaled at the source, times the
    destination's factor. -/
theorem conv_layer (x1 : WA S2x800000) (h : FA S50000x64) (j : S50000x64.Idx) :
    Host.scatterAdd (F := Ideal) (φ := .f32) scatter_S50000x64_S850000x1_S850000x64_1_0_0_1 (val_main_v43 (F := Ideal)) (val_main_v13 (F := Ideal) x1)
        (mulf (F := Ideal) (φ := .f32) (Host.gather gather_S50000x64_S850000x1_S850000x64_1_0_n_n_0_1_164 h (val_main_v22 (F := Ideal) x1)) (val_main_v41 (F := Ideal) x1)) j
      = Cert.Spec.convOf scatter_S50000x64_S850000x1_S850000x64_1_0_0_1 gather_S50000x64_S850000x1_S850000x64_1_0_n_n_0_1_164 (val_main_v43 (F := Ideal)) (val_main_v13 (F := Ideal) x1) (val_main_v22 (F := Ideal) x1) (fun p => h p * val_main_v16 (F := Ideal) x1 (ix1 (p 0))) j * val_main_v16 (F := Ideal) x1 (ix1 (j 0)) :=
  Cert.Alg.conv_eq (φ := .f32)
    scatter_S50000_S850000x1_S850000_n_0_0_1 rfl rfl rfl rfl
    scatter_S50000x64_S850000x1_S850000x64_1_0_0_1 rfl rfl rfl rfl
    gather_S50000_S850000x1_S850000_n_0_n_n_0_1_1 rfl rfl rfl rfl
    gather_S50000x64_S850000x1_S850000x64_1_0_n_n_0_1_164 rfl rfl rfl rfl rfl rfl rfl
    (val_main_v22 (F := Ideal) x1) (val_main_v13 (F := Ideal) x1)
    (val_main_v7 (F := Ideal)) v7_zero (val_main_v14 (F := Ideal)) v14_one
    (val_main_v16 (F := Ideal) x1) rfl
    h (val_main_v43 (F := Ideal)) v43_zero
    (mulf (F := Ideal) (φ := .f32) (Host.gather gather_S50000x64_S850000x1_S850000x64_1_0_n_n_0_1_164 h (val_main_v22 (F := Ideal) x1)) (val_main_v41 (F := Ideal) x1))
    (Host.gather gather_S50000x64_S850000x1_S850000x64_1_0_n_n_0_1_164 (fun p => h p * val_main_v16 (F := Ideal) x1 (ix1 (p 0))) (val_main_v22 (F := Ideal) x1))
    (fun e => by rw [mulf_apply, v41_read]) (fun _ => rfl) j

/-! ## The projected rows -/

theorem lidx32_eq (p : S50000x64.Idx) (k : Fin 64) : lidx_main_v32 p k = ix2 (p 0) k :=
  funext fun a => by match a with | ⟨0, _⟩ => rfl | ⟨1, _⟩ => rfl
theorem ridx32_eq (p : S50000x64.Idx) (k : Fin 64) : ridx_main_v32 p k = ix2 k (p 1) :=
  funext fun a => by match a with | ⟨0, _⟩ => rfl | ⟨1, _⟩ => rfl
theorem lidx55_eq (p : S50000x64.Idx) (k : Fin 64) : lidx_main_v55 p k = ix2 (p 0) k :=
  funext fun a => by match a with | ⟨0, _⟩ => rfl | ⟨1, _⟩ => rfl
theorem ridx55_eq (p : S50000x64.Idx) (k : Fin 64) : ridx_main_v55 p k = ix2 k (p 1) :=
  funext fun a => by match a with | ⟨0, _⟩ => rfl | ⟨1, _⟩ => rfl
theorem lidx80_eq (j : S64x32.Idx) (k : Fin 64) : lidx_main_v80 j k = ix2 (j 0) k :=
  funext fun a => by match a with | ⟨0, _⟩ => rfl | ⟨1, _⟩ => rfl
theorem ridx80_eq (j : S64x32.Idx) (k : Fin 64) : ridx_main_v80 j k = ix2 k (j 1) :=
  funext fun a => by match a with | ⟨0, _⟩ => rfl | ⟨1, _⟩ => rfl

/-- The first layer's projected rows, scaled by the node's factor. -/
theorem v32_scaled (x0 : FA S50000x64) (x1 : WA S2x800000) (x3 : FA S64x64) :
    (fun p => val_main_v32 (F := Ideal) x0 x3 p * val_main_v16 (F := Ideal) x1 (ix1 (p 0)))
      = Cert.Spec.scaledRows x0 x3 (val_main_v16 (F := Ideal) x1) := by
  funext p
  rw [val_main_v32_apply]
  refine congrArg (· * val_main_v16 (F := Ideal) x1 (ix1 (p 0))) (Finset.sum_congr rfl fun k _ => ?_)
  rw [lidx32_eq, ridx32_eq]
  rfl

/-- The second layer's projected rows, scaled by the node's factor. -/
theorem v55_scaled (x0 : FA S50000x64) (x1 : WA S2x800000) (x3 : FA S64x64) (x4 : FA S64) (x5 : FA S64x64) :
    (fun p => val_main_v55 (F := Ideal) x0 x1 x3 x4 x5 p * val_main_v16 (F := Ideal) x1 (ix1 (p 0)))
      = Cert.Spec.scaledRows (val_main_v54 (F := Ideal) x0 x1 x3 x4) x5 (val_main_v16 (F := Ideal) x1) := by
  funext p
  rw [val_main_v55_apply]
  refine congrArg (· * val_main_v16 (F := Ideal) x1 (ix1 (p 0))) (Finset.sum_congr rfl fun k _ => ?_)
  rw [lidx55_eq, ridx55_eq]
  rfl

/-! ## The first layer -/

theorem v50_read (x0 : FA S50000x64) (x1 : WA S2x800000) (x3 : FA S64x64) (j : S50000x64.Idx) :
    val_main_v50 (F := Ideal) x0 x1 x3 j
      = Cert.Spec.convOf scatter_S50000x64_S850000x1_S850000x64_1_0_0_1 gather_S50000x64_S850000x1_S850000x64_1_0_n_n_0_1_164 (val_main_v43 (F := Ideal)) (val_main_v13 (F := Ideal) x1) (val_main_v22 (F := Ideal) x1) (Cert.Spec.scaledRows x0 x3 (val_main_v16 (F := Ideal) x1)) j * val_main_v16 (F := Ideal) x1 (ix1 (j 0)) := by
  rw [← v32_scaled]
  exact conv_layer x1 (val_main_v32 (F := Ideal) x0 x3) j

/-- The first layer's output after the maximum with zero. -/
theorem v54_eq (x0 : FA S50000x64) (x1 : WA S2x800000) (x3 : FA S64x64) (x4 : FA S64) :
    val_main_v54 (F := Ideal) x0 x1 x3 x4
      = fun p => max (Cert.Spec.layerOut (Cert.Spec.convOf scatter_S50000x64_S850000x1_S850000x64_1_0_0_1 gather_S50000x64_S850000x1_S850000x64_1_0_n_n_0_1_164 (val_main_v43 (F := Ideal)) (val_main_v13 (F := Ideal) x1) (val_main_v22 (F := Ideal) x1) (Cert.Spec.scaledRows x0 x3 (val_main_v16 (F := Ideal) x1))) (val_main_v16 (F := Ideal) x1) x4 p) 0 := by
  funext p
  rw [val_main_v54_apply, val_main_v53_apply, v50_read, v52_read, relu_zero]
  rfl

/-! ## The second layer -/

theorem v73_read (x0 : FA S50000x64) (x1 : WA S2x800000) (x3 : FA S64x64) (x4 : FA S64) (x5 : FA S64x64) (j : S50000x64.Idx) :
    val_main_v73 (F := Ideal) x0 x1 x3 x4 x5 j
      = Cert.Spec.convOf scatter_S50000x64_S850000x1_S850000x64_1_0_0_1 gather_S50000x64_S850000x1_S850000x64_1_0_n_n_0_1_164 (val_main_v43 (F := Ideal)) (val_main_v13 (F := Ideal) x1) (val_main_v22 (F := Ideal) x1) (Cert.Spec.scaledRows (val_main_v54 (F := Ideal) x0 x1 x3 x4) x5 (val_main_v16 (F := Ideal) x1)) j * val_main_v16 (F := Ideal) x1 (ix1 (j 0)) := by
  rw [← v55_scaled]
  exact conv_layer x1 (val_main_v55 (F := Ideal) x0 x1 x3 x4 x5) j

theorem v76_eq (x0 : FA S50000x64) (x1 : WA S2x800000) (x3 : FA S64x64) (x4 : FA S64) (x5 : FA S64x64) (x6 : FA S64) :
    val_main_v76 (F := Ideal) x0 x1 x3 x4 x5 x6
      = Cert.Spec.layerOut (Cert.Spec.convOf scatter_S50000x64_S850000x1_S850000x64_1_0_0_1 gather_S50000x64_S850000x1_S850000x64_1_0_n_n_0_1_164 (val_main_v43 (F := Ideal)) (val_main_v13 (F := Ideal) x1) (val_main_v22 (F := Ideal) x1) (Cert.Spec.scaledRows (val_main_v54 (F := Ideal) x0 x1 x3 x4) x5 (val_main_v16 (F := Ideal) x1))) (val_main_v16 (F := Ideal) x1) x6 := by
  funext p
  rw [val_main_v76_apply, v73_read, v75_read]
  rfl

/-! ## The pooled sums -/

theorem v79_eq (x0 : FA S50000x64) (x1 : WA S2x800000) (x2 : WA S50000) (x3 : FA S64x64) (x4 : FA S64) (x5 : FA S64x64) (x6 : FA S64) :
    val_main_v79 (F := Ideal) x0 x1 x2 x3 x4 x5 x6 = Cert.Spec.pooled (val_main_v76 (F := Ideal) x0 x1 x3 x4 x5 x6) x2 := by
  funext j
  obtain ⟨g, c, rfl⟩ : ∃ (g : Fin 64) (c : Fin 64), j = ix2 g c := ⟨j 0, j 1, eq_ix2 j⟩
  unfold val_main_v79
  rw [Cert.Alg.pool_eq (φ := .f32) scatter_S64x64_S50000x1_S50000x64_1_0_0_1 rfl rfl rfl rfl (val_main_v78 (F := Ideal) x2) (val_main_v77 (F := Ideal)) v77_zero]
  unfold Cert.Spec.pooled
  refine Finset.sum_congr rfl fun i _ => ?_
  rw [v78_read]

/-! ## The two results -/

/-- The pooled result is the network's pooled output. -/
theorem ref_u (x0 : FA S50000x64) (x1 : WA S2x800000) (x2 : WA S50000) (x3 : FA S64x64) (x4 : FA S64) (x5 : FA S64x64) (x6 : FA S64) :
    val_main_v79 (F := Ideal) x0 x1 x2 x3 x4 x5 x6
      = Cert.Spec.netPooled scatter_S50000x64_S850000x1_S850000x64_1_0_0_1 gather_S50000x64_S850000x1_S850000x64_1_0_n_n_0_1_164 (val_main_v43 (F := Ideal)) (val_main_v13 (F := Ideal) x1) (val_main_v22 (F := Ideal) x1) (val_main_v16 (F := Ideal) x1) x2 x0 x3 x4 x5 x6 := by
  rw [v79_eq, v76_eq, v54_eq]
  rfl

/-- The output is the final linear layer of the pooled result. -/
theorem ref_y (x0 : FA S50000x64) (x1 : WA S2x800000) (x2 : WA S50000) (x3 : FA S64x64) (x4 : FA S64) (x5 : FA S64x64) (x6 : FA S64) (x7 : FA S64x32) (x8 : FA S32) :
    val_main_v83 (F := Ideal) x0 x1 x2 x3 x4 x5 x6 x7 x8
      = Cert.Spec.linearOut (val_main_v79 (F := Ideal) x0 x1 x2 x3 x4 x5 x6) x7 x8 := by
  funext j
  rw [val_main_v83_apply, val_main_v80_apply, v82_read]
  refine congrArg (· + x8 (ix1 (j 1))) (Finset.sum_congr rfl fun k _ => ?_)
  rw [lidx80_eq, ridx80_eq]
  rfl

end Cert.ReferenceIdeal.RefValue

end
-- ==== Proof.lean ====
/-
  The certificate: the kernel program (three kernel regions among host gathers and scatter-adds) and the reference
  (a two-layer graph convolution, sum pooling and a final linear layer on the host) compute the same two results over the
  extended reals.

  Both programs are brought to one function of the nine arguments (Proof/Spec.lean). The reference weights every edge's
  gathered row by the product of its two endpoints' degree factors and scatter-adds; the kernel scales each node's row by
  its own degree factor before the gather and scales the scatter-added sum by the destination's factor afterwards. The two
  agree because a destination that receives an edge has a positive integer in-degree, so its factor is a nonnegative real,
  which distributes over any sum of extended reals, and a destination that receives no edge has an empty sum on both
  sides (Proof/Alg.lean): no finiteness of the inputs is used. The pooling by graph is a scatter-add on one side and a
  sum of indicator-weighted rows accumulated over ten blocks of 5000 nodes on the other.

  The frames: each program runs to its end, nothing faults, and the nine argument arrays end as launched — for the two
  kernel programs by the run of @main's six segments (Proof/KI/Run.lean and its word-level counterpart), for the
  reference by its run read back.
-/
import proofs.«421701_j11836929868487_3_alg».proof.Defs
import proofs.«421701_j11836929868487_3_alg».proof.Proof.Gen.Kernel
import proofs.«421701_j11836929868487_3_alg».proof.Proof.Gen.KernelIdeal
import proofs.«421701_j11836929868487_3_alg».proof.Proof.Gen.ReferenceIdeal
import proofs.«421701_j11836929868487_3_alg».proof.Proof.Gen.Pre_finite_inputs
import proofs.«421701_j11836929868487_3_alg».proof.Proof.Gen.ReferenceIdeal.Run
import proofs.«421701_j11836929868487_3_alg».proof.Proof.Gen.ReferenceIdeal.Read
import proofs.«421701_j11836929868487_3_alg».proof.Proof.K.Run
import proofs.«421701_j11836929868487_3_alg».proof.Proof.KI.Run
import proofs.«421701_j11836929868487_3_alg».proof.Proof.KI.Chain
import proofs.«421701_j11836929868487_3_alg».proof.Proof.RefVal
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

section Algebraic

open Cert.KernelIdeal Cert.KernelIdeal.Gen Cert.KernelIdeal.Hand

/-- The reference's index columns, zero rows and degree factor are the kernel program's: the same host operations of
    the edge array. -/
theorem net_eq (a0 : FVec Ideal Cert.KernelIdeal.S50000x64 .f32) (a1 : IVec Cert.KernelIdeal.S2x800000 32) (a2 : IVec Cert.KernelIdeal.S50000 32)
    (a3 : FVec Ideal Cert.KernelIdeal.S64x64 .f32) (a4 : FVec Ideal Cert.KernelIdeal.S64 .f32) (a5 : FVec Ideal Cert.KernelIdeal.S64x64 .f32)
    (a6 : FVec Ideal Cert.KernelIdeal.S64 .f32) :
    Cert.Spec.netPooled Cert.ReferenceIdeal.scatter_S50000x64_S850000x1_S850000x64_1_0_0_1 Cert.ReferenceIdeal.gather_S50000x64_S850000x1_S850000x64_1_0_n_n_0_1_164
      (Cert.ReferenceIdeal.Read.val_main_v43 (F := Ideal)) (Cert.ReferenceIdeal.Read.val_main_v13 (F := Ideal) a1) (Cert.ReferenceIdeal.Read.val_main_v22 (F := Ideal) a1)
      (Cert.ReferenceIdeal.Read.val_main_v16 (F := Ideal) a1) a2 a0 a3 a4 a5 a6
    = Cert.Spec.netPooled scatter_S50000x64_S850000x1_S850000x64_1_0_0_1 gather_S50000x64_S850000x1_S850000x64_1_0_n_n_0_1_164
      zeroRows (colOf (dstVec a1)) (colOf (srcVec a1)) (degInv a1) a2 a0 a3 a4 a5 a6 := rfl

theorem algebraic : Cert.algebraic_KernelIdeal_ReferenceIdeal := by
  intro m ρ m' ρ' _ hagree
  refine ⟨fun c => W6 m ρ c (Proc.devRef .tc main_v54_0), fun c => W6 m ρ c (Proc.devRef .tc main_v54_1), ?_, ?_⟩
  · exact (θ_run Cert.KernelIdeal.defs _ _).mono (fun r h c =>
      ⟨h c _ (mem_uc main_v54_0 (by decide)), h c _ (mem_uc main_v54_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩) (run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · show Cert.ReferenceIdeal.Value.res_main_v83 m' c = W6 m ρ c (Proc.devRef .tc main_v54_0)
      rw [Cert.ReferenceIdeal.Read.val_main_v83_eq, Cert.ReferenceIdeal.RefValue.ref_y, Cert.ReferenceIdeal.RefValue.ref_u, W6_y,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2]
      exact congrArg (fun u => Cert.Spec.linearOut u _ _) (net_eq _ _ _ _ _ _ _)
    · show Cert.ReferenceIdeal.Value.res_main_v79 m' c = W6 m ρ c (Proc.devRef .tc main_v54_1)
      rw [Cert.ReferenceIdeal.Read.val_main_v79_eq, Cert.ReferenceIdeal.RefValue.ref_u, W6_u,
        (hagree c).1, (hagree c).2.1, (hagree c).2.2.1, (hagree c).2.2.2.1, (hagree c).2.2.2.2.1, (hagree c).2.2.2.2.2.1,
        (hagree c).2.2.2.2.2.2.1]
      exact net_eq _ _ _ _ _ _ _

end Algebraic

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
